-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v48_0)) (v2 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v48_0) = v1 c
          ∧ r.2.mem ((c.tc : Thread Cert.KernelIdeal.nD Cert.KernelIdeal.τ).loc Cert.KernelIdeal.main_v48_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v155) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S32768 : Shape := ⟨1, ![32768]⟩
abbrev S256x64 : Shape := ⟨2, ![256, 64]⟩
abbrev S64 : Shape := ⟨1, ![64]⟩
abbrev S64x64 : Shape := ⟨2, ![64, 64]⟩
abbrev S4x64 : Shape := ⟨2, ![4, 64]⟩
abbrev S64x4 : Shape := ⟨2, ![64, 4]⟩
abbrev S4 : Shape := ⟨1, ![4]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64 : S_.BroadcastsInDim S4x64 (![] : Fin 0 → Fin S4x64.rank)
  reducesTo_S4x64_S_d0_1 : S4x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S32768 : S_.BroadcastsInDim S32768 (![] : Fin 0 → Fin S32768.rank)
  reducesTo_S32768_S_d0 : S32768.ReducesTo [0] S_

variable [Facts]

def fn_part4 {F : FTy → Type} [FloatOps F] (main_v63 : IVec S_ 1) (main_v65 : IVec S32768 1) (main_v67 : IVec S32768 1) : IVec S_ 1 :=
  let main_v68 : IVec S32768 1 := andi main_v65 main_v67
  let main_c_26 : IVec S_ 1 := constantI S_ 1 1#1
  let main_v69 : IVec S_ 1 := (fun x v => Host.reduce IntOp.andi x v reducesTo_S32768_S_d0 h_S_) main_v68 main_c_26
  let main_v70 : IVec S_ 1 := andi main_v63 main_v69
  main_v70

def fn_part3 {F : FTy → Type} [FloatOps F] (main_arg1 : IVec S32768 32) (main_arg13 : FVec F S64x4 .f32) (main_arg14 : FVec F S4 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x4 .f32 := Host.absf main_arg13
  let main_cst_20 : FVec F S_ .f32 := constant S_ .f32 0x7F800000#32
  let main_v55 : FVec F S64x4 .f32 := broadcastInDim S64x4 ![] bcast_S_S64x4 main_cst_20
  let main_v56 : IVec S64x4 1 := cmpf .olt main_v54 main_v55
  let main_c_21 : IVec S_ 1 := constantI S_ 1 1#1
  let main_v57 : IVec S_ 1 := (fun x v => Host.reduce IntOp.andi x v reducesTo_S64x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_c_24 : IVec S_ 32 := constantI S_ 32 0#32
  let main_v64 : IVec S32768 32 := broadcastInDim S32768 ![] bcast_S_S32768 main_c_24
  let main_v65 : IVec S32768 1 := cmpi .sge main_arg1 main_v64
  let main_c_25 : IVec S_ 32 := constantI S_ 32 1024#32
  let main_v66 : IVec S32768 32 := broadcastInDim S32768 ![] bcast_S_S32768 main_c_25
  let main_v67 : IVec S32768 1 := cmpi .slt main_arg1 main_v66
  fn_part4 (F := F) main_v63 main_v65 main_v67

def fn_part2 {F : FTy → Type} [FloatOps F] (main_arg1 : IVec S32768 32) (main_arg9 : FVec F S4x64 .f32) (main_arg10 : FVec F S64 .f32) (main_arg11 : FVec F S64x64 .f32) (main_arg12 : FVec F S64 .f32) (main_arg13 : FVec F S64x4 .f32) (main_arg14 : FVec F S4 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_v48 main_v49 main_v50

def fn_part1 {F : FTy → Type} [FloatOps F] (main_arg1 : IVec S32768 32) (main_arg6 : FVec F S64 .f32) (main_arg7 : FVec F S64x64 .f32) (main_arg8 : FVec F S64 .f32) (main_arg9 : FVec F S4x64 .f32) (main_arg10 : FVec F S64 .f32) (main_arg11 : FVec F S64x64 .f32) (main_arg12 : FVec F S64 .f32) (main_arg13 : FVec F S64x4 .f32) (main_arg14 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S1024x256 .f32) (main_arg1 : IVec S32768 32) (main_arg2 : IVec S32768 32) (main_arg3 : FVec F S256x64 .f32) (main_arg4 : FVec F S64 .f32) (main_arg5 : FVec F S64x64 .f32) (main_arg6 : FVec F S64 .f32) (main_arg7 : FVec F S64x64 .f32) (main_arg8 : FVec F S64 .f32) (main_arg9 : FVec F S4x64 .f32) (main_arg10 : FVec F S64 .f32) (main_arg11 : FVec F S64x64 .f32) (main_arg12 : FVec F S64 .f32) (main_arg13 : FVec F S64x4 .f32) (main_arg14 : FVec F S4 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_v13 main_v16
-- ==== Kernel.lean ====
abbrev S1024x256 : Shape := ⟨2, ![1024, 256]⟩
abbrev S32768 : Shape := ⟨1, ![32768]⟩
abbrev S256x64 : Shape := ⟨2, ![256, 64]⟩
abbrev S64 : Shape := ⟨1, ![64]⟩
abbrev S64x64 : Shape := ⟨2, ![64, 64]⟩
abbrev S4x64 : Shape := ⟨2, ![4, 64]⟩
abbrev S64x4 : Shape := ⟨2, ![64, 4]⟩
abbrev S4 : Shape := ⟨1, ![4]⟩
abbrev S_ : Shape := ⟨0, ![]⟩
abbrev S1024 : Shape := ⟨1, ![1024]⟩
abbrev S32768x1 : Shape := ⟨2, ![32768, 1]⟩
abbrev S1024x1024 : Shape := ⟨2, ![1024, 1024]⟩
abbrev S32768x2 : Shape := ⟨2, ![32768, 2]⟩
abbrev S1024x1 : Shape := ⟨2, ![1024, 1]⟩
abbrev S1x64 : Shape := ⟨2, ![1, 64]⟩
abbrev S1024x64 : Shape := ⟨2, ![1024, 64]⟩
abbrev S1x4 : Shape := ⟨2, ![1, 4]⟩
abbrev S1024x1024x4 : Shape := ⟨3, ![1024, 1024, 4]⟩
abbrev S128x64 : Shape := ⟨2, ![128, 64]⟩
abbrev S128x128x4 : Shape := ⟨3, ![128, 128, 4]⟩
abbrev S64x128 : Shape := ⟨2, ![64, 128]⟩
abbrev S128x128 : Shape := ⟨2, ![128, 128]⟩
abbrev S1x1x64 : Shape := ⟨3, ![1, 1, 64]⟩
abbrev S128x128x1 : Shape := ⟨3, ![128, 128, 1]⟩
abbrev S128x128x64 : Shape := ⟨3, ![128, 128, 64]⟩
abbrev S16384x64 : Shape := ⟨2, ![16384, 64]⟩
abbrev S16384x4 : Shape := ⟨2, ![16384, 4]⟩

abbrev nBuf : Space → Nat
  | .hbm => 98
  | .vmem => 22
  | .smem => 0
  | _ => 0

abbrev bufTy : (tb : Table) → Fin (tcTables nBuf tb) → BufTy
  | .hbm, ⟨0, _⟩ => ⟨S1024x256, .f32⟩
  | .hbm, ⟨1, _⟩ => ⟨S32768, .i32⟩
  | .hbm, ⟨2, _⟩ => ⟨S32768, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x4, .f32⟩
  | .hbm, ⟨14, _⟩ => ⟨S4, .f32⟩
  | .hbm, ⟨15, _⟩ => ⟨S_, .f32⟩
  | .hbm, ⟨16, _⟩ => ⟨S1024, .f32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S_, .f32⟩
  | .hbm, ⟨26, _⟩ => ⟨S32768, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S32768, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S32768x1, .i32⟩
  | .hbm, ⟨49, _⟩ => ⟨S32768, .f32⟩
  | .hbm, ⟨50, _⟩ => ⟨S32768, .f32⟩
  | .hbm, ⟨51, _⟩ => ⟨S_, .f32⟩
  | .hbm, ⟨52, _⟩ => ⟨S1024x1024, .f32⟩
  | .hbm, ⟨53, _⟩ => ⟨S_, .i32⟩
  | .hbm, ⟨54, _⟩ => ⟨S32768, .i32⟩
  | .hbm, ⟨55, _⟩ => ⟨S32768, .i1⟩
  | .hbm, ⟨56, _⟩ => ⟨S_, .i32⟩
  | .hbm, ⟨57, _⟩ => ⟨S32768, .i32⟩
  | .hbm, ⟨58, _⟩ => ⟨S32768, .i32⟩
  | .hbm, ⟨59, _⟩ => ⟨S32768, .i32⟩
  | .hbm, ⟨60, _⟩ => ⟨S_, .i32⟩
  | .hbm, ⟨61, _⟩ => ⟨S32768, .i32⟩
  | .hbm, ⟨62, _⟩ => ⟨S32768, .i1⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S32768, .i32⟩
  | .hbm, ⟨67, _⟩ => ⟨S32768x1, .i32⟩
  | .hbm, ⟨68, _⟩ => ⟨S32768x1, .i32⟩
  | .hbm, ⟨69, _⟩ => ⟨S32768x2, .i32⟩
  | .hbm, ⟨70, _⟩ => ⟨S1024x1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024x1024, .i32⟩
  | .hbm, ⟨75, _⟩ => ⟨S1024x1024, .i32⟩
  | .hbm, ⟨76, _⟩ => ⟨S_, .i32⟩
  | .hbm, ⟨77, _⟩ => ⟨S1024x1024, .i32⟩
  | .hbm, ⟨78, _⟩ => ⟨S1024x1024, .i32⟩
  | .hbm, ⟨79, _⟩ => ⟨S1024x1024, .i1⟩
  | .hbm, ⟨80, _⟩ => ⟨S1024x1, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1024x64, .f32⟩
  | .hbm, ⟨90, _⟩ => ⟨S1024x64, .f32⟩
  | .hbm, ⟨91, _⟩ => ⟨S_, .f32⟩
  | .hbm, ⟨92, _⟩ => ⟨S64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x4, .f32⟩
  | .hbm, ⟨97, _⟩ => ⟨S1024x1024x4, .f32⟩
  | .local _ .vmem, ⟨0, _⟩ => ⟨S1024x256, .f32⟩
  | .local _ .vmem, ⟨1, _⟩ => ⟨S1024x1024, .f32⟩
  | .local _ .vmem, ⟨2, _⟩ => ⟨S256x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1024x64, .f32⟩
  | .local _ .vmem, ⟨9, _⟩ => ⟨S1024x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x4, .f32⟩
  | .local _ .vmem, ⟨19, _⟩ => ⟨S1x4, .f32⟩
  | .local _ .vmem, ⟨20, _⟩ => ⟨S128x128x4, .f32⟩
  | .local _ .vmem, ⟨21, _⟩ => ⟨S128x128x4, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_c_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_10 : Ref sig .tc := ⟨.hbm, 60, rfl⟩
abbrev main_v33 : Ref sig .tc := ⟨.hbm, 61, rfl⟩
abbrev main_v34 : Ref sig .tc := ⟨.hbm, 62, rfl⟩
abbrev main_c_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_c : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_cst_0 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48_0 : Ref sig .tc := ⟨.hbm, 89, rfl⟩
abbrev main_v48_1 : Ref sig .tc := ⟨.hbm, 90, rfl⟩
abbrev main_cst_12 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S128x128x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  bcast_S_S1024 : S_.BroadcastsInDim S1024 (![] : Fin 0 → Fin S1024.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S1024x1024 : S_.BroadcastsInDim S1024x1024 (![] : Fin 0 → Fin S1024x1024.rank)
  concatenates_S32768x1_S32768x1_S32768x2_d1 : Shape.Concatenates [S32768x1, S32768x1] S32768x2 1
  pads_S1024_S1024_000 : S1024.Pads (![0] : Fin 1 → Nat) ![0] ![0] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  shapeCasts_S64_S1x64 : S64.ShapeCasts S1x64
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  reducesTo_S4x64_S64_d0 : S4x64.ReducesTo [0] S64
  shapeCasts_S4_S1x4 : S4.ShapeCasts S1x4
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S128x64_p1_0_S64x128 : S128x64.Transposes [1, 0] S64x128
  shapeCasts_S1x64_S1x1x64 : S1x64.ShapeCasts S1x1x64
  shapeCasts_S128x128_S128x128x1 : S128x128.ShapeCasts S128x128x1
  broadcasts_S128x128x1_S128x128x64 : S128x128x1.Broadcasts S128x128x64
  broadcasts_S1x1x64_S128x128x64 : S1x1x64.Broadcasts S128x128x64
  shapeCasts_S128x128x64_S16384x64 : S128x128x64.ShapeCasts S16384x64
  broadcasts_S1x64_S16384x64 : S1x64.Broadcasts S16384x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S16384x4 : S1x4.Broadcasts S16384x4
  shapeCasts_S16384x4_S128x128x4 : S16384x4.ShapeCasts S128x128x4
  inb_S128x128x4_S128x128x4_0_0_0 : ∀ a, (![0, 0, 0] : Fin 3 → Nat) a + S128x128x4.size a ≤ S128x128x4.size a
  h_S128x128x4 : 0 < S128x128x4.numel
  scatter_S1024_S32768x1_S32768_n_0_0_1_wf : ScatterDims.WF S1024 S32768x1 S32768 [] [0] [0] 1
  gather_S1024_S32768x1_S32768_n_0_n_n_0_1_1_wf : GatherDims.WF S1024 S32768x1 S32768 [] [0] [] [0] [] 1 ![1]
  scatter_S1024x1024_S32768x2_S32768_n_01_01_1_wf : ScatterDims.WF S1024x1024 S32768x2 S32768 [] [0, 1] [0, 1] 1
  dot_S1024x256_S256x64_S1024x64_1_0_0_1_n_n_wf : DotDims.WF S1024x256 S256x64 S1024x64 [1] [0] [0] [1] [] []
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []
  dot_S128x64_S64x128_S128x128_1_0_0_1_n_n_wf : DotDims.WF S128x64 S64x128 S128x128 [1] [0] [0] [1] [] []
  dot_S16384x64_S64x64_S16384x64_1_0_0_1_n_n_wf : DotDims.WF S16384x64 S64x64 S16384x64 [1] [0] [0] [1] [] []
  dot_S16384x64_S64x4_S16384x4_1_0_0_1_n_n_wf : DotDims.WF S16384x64 S64x4 S16384x4 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S1024x64.size a
  hwx0_8 : ∀ i : grid0.Coords, EltTy.bits .f32 = 32 ∨ (Rect.block (s := S1024x64) S1024x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S1024x64.size a
  hwx0_9 : ∀ i : grid0.Coords, EltTy.bits .f32 = 32 ∨ (Rect.block (s := S1024x64) S1024x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S1024x64.size a
  hwx1_0 : ∀ i : grid1.Coords, EltTy.bits .f32 = 32 ∨ (Rect.block (s := S1024x64) S128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S1024x64.size a
  hwx1_1 : ∀ i : grid1.Coords, EltTy.bits .f32 = 32 ∨ (Rect.block (s := S1024x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x4.size a ≤ S64x4.size a
  hwx1_6 : ∀ i : grid1.Coords, EltTy.bits .f32 = 32 ∨ (Rect.block (s := S64x4) S64x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4.size a ≤ S1x4.size a
  hwx1_7 : ∀ i : grid1.Coords, EltTy.bits .f32 = 32 ∨ (Rect.block (s := S1x4) S1x4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x128x4.size a ≤ S1024x1024x4.size a
  hwx1_8 : ∀ i : grid1.Coords, EltTy.bits .f32 = 32 ∨ (Rect.block (s := S1024x1024x4) S128x128x4.size (cc1_transform_8 i) (hinb1_8 i)).WholeWords (EltTy.packing .f32)

variable [Facts₀]

def scatter_S1024_S32768x1_S32768_n_0_0_1 : ScatterDims S1024 S32768x1 S32768 where
  updateWindowDims := []
  insertedWindowDims := [0]
  scatterDimsToOperandDims := [0]
  indexVectorDim := 1
  wf := scatter_S1024_S32768x1_S32768_n_0_0_1_wf
def gather_S1024_S32768x1_S32768_n_0_n_n_0_1_1 : GatherDims S1024 S32768x1 S32768 where
  offsetDims := []
  collapsedSliceDims := [0]
  operandBatchingDims := []
  startIndicesBatchingDims := []
  startIndexMap := [0]
  indexVectorDim := 1
  sliceSizes := ![1]
  wf := gather_S1024_S32768x1_S32768_n_0_n_n_0_1_1_wf
def scatter_S1024x1024_S32768x2_S32768_n_01_01_1 : ScatterDims S1024x1024 S32768x2 S32768 where
  updateWindowDims := []
  insertedWindowDims := [0, 1]
  scatterDimsToOperandDims := [0, 1]
  indexVectorDim := 1
  wf := scatter_S1024x1024_S32768x2_S32768_n_01_01_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x4_S16384x4_1_0_0_1_n_n : DotDims S16384x64 S64x4 S16384x4 where
  lhsContracting := [1]
  rhsContracting := [0]
  lhsNonContracting := [0]
  rhsNonContracting := [1]
  lhsBatch := []
  rhsBatch := []
  wf := dot_S16384x64_S64x4_S16384x4_1_0_0_1_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48_0) S1024x64.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48_1) S1024x64.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v48_0) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48_0) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S128x128x4.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1024x256 : Shape := ⟨2, ![1024, 256]⟩
abbrev S32768 : Shape := ⟨1, ![32768]⟩
abbrev S256x64 : Shape := ⟨2, ![256, 64]⟩
abbrev S64 : Shape := ⟨1, ![64]⟩
abbrev S64x64 : Shape := ⟨2, ![64, 64]⟩
abbrev S4x64 : Shape := ⟨2, ![4, 64]⟩
abbrev S64x4 : Shape := ⟨2, ![64, 4]⟩
abbrev S4 : Shape := ⟨1, ![4]⟩
abbrev S1024x64 : Shape := ⟨2, ![1024, 64]⟩
abbrev S_ : Shape := ⟨0, ![]⟩
abbrev S1024 : Shape := ⟨1, ![1024]⟩
abbrev S32768x1 : Shape := ⟨2, ![32768, 1]⟩
abbrev S32768x64 : Shape := ⟨2, ![32768, 64]⟩
abbrev S1024x1 : Shape := ⟨2, ![1024, 1]⟩
abbrev S1x64 : Shape := ⟨2, ![1, 64]⟩
abbrev S64x1024 : Shape := ⟨2, ![64, 1024]⟩
abbrev S1024x1024 : Shape := ⟨2, ![1024, 1024]⟩
abbrev S1024x1024x1 : Shape := ⟨3, ![1024, 1024, 1]⟩
abbrev S1x1x64 : Shape := ⟨3, ![1, 1, 64]⟩
abbrev S1024x1024x64 : Shape := ⟨3, ![1024, 1024, 64]⟩
abbrev S1024x1024x4 : Shape := ⟨3, ![1024, 1024, 4]⟩
abbrev S1x1x4 : Shape := ⟨3, ![1, 1, 4]⟩

abbrev nBuf : Space → Nat
  | .hbm => 252
  | .vmem => 0
  | .smem => 0
  | _ => 0

abbrev hbmTy0_0 (i : Nat) : BufTy := match i % 128 with
  | 0 => ⟨S1024x256, .f32⟩
  | 1 => ⟨S32768, .i32⟩
  | 2 => ⟨S32768, .i32⟩
  | 3 => ⟨S256x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S4x64, .f32⟩
  | 10 => ⟨S64, .f32⟩
  | 11 => ⟨S64x64, .f32⟩
  | 12 => ⟨S64, .f32⟩
  | 13 => ⟨S64x4, .f32⟩
  | 14 => ⟨S4, .f32⟩
  | 15 => ⟨S1024x64, .f32⟩
  | 16 => ⟨S_, .f32⟩
  | 17 => ⟨S1024, .f32⟩
  | 18 => ⟨S_, .i32⟩
  | 19 => ⟨S32768, .i32⟩
  | 20 => ⟨S32768, .i1⟩
  | 21 => ⟨S_, .i32⟩
  | 22 => ⟨S32768, .i32⟩
  | 23 => ⟨S32768, .i32⟩
  | 24 => ⟨S32768, .i32⟩
  | 25 => ⟨S32768x1, .i32⟩
  | 26 => ⟨S_, .f32⟩
  | 27 => ⟨S32768, .f32⟩
  | 28 => ⟨S1024, .f32⟩
  | 29 => ⟨S1024, .f32⟩
  | 30 => ⟨S_, .i32⟩
  | 31 => ⟨S32768, .i32⟩
  | 32 => ⟨S32768, .i1⟩
  | 33 => ⟨S_, .i32⟩
  | 34 => ⟨S32768, .i32⟩
  | 35 => ⟨S32768, .i32⟩
  | 36 => ⟨S32768, .i32⟩
  | 37 => ⟨S32768x1, .i32⟩
  | 38 => ⟨S32768, .f32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .i32⟩
  | 46 => ⟨S32768x1, .i32⟩
  | 47 => ⟨S32768, .f32⟩
  | 48 => ⟨S32768, .f32⟩
  | 49 => ⟨S32768x1, .f32⟩
  | 50 => ⟨S_, .f32⟩
  | 51 => ⟨S1024x64, .f32⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S32768x1, .i32⟩
  | 60 => ⟨S32768x64, .f32⟩
  | 61 => ⟨S32768x64, .f32⟩
  | 62 => ⟨S32768x64, .f32⟩
  | 63 => ⟨S_, .i32⟩
  | 64 => ⟨S32768, .i32⟩
  | 65 => ⟨S32768, .i1⟩
  | 66 => ⟨S_, .i32⟩
  | 67 => ⟨S32768, .i32⟩
  | 68 => ⟨S32768, .i32⟩
  | 69 => ⟨S32768, .i32⟩
  | 70 => ⟨S32768x1, .i32⟩
  | 71 => ⟨S1024x64, .f32⟩
  | 72 => ⟨S1024, .f32⟩
  | 73 => ⟨S1024x1, .f32⟩
  | 74 => ⟨S1024x64, .f32⟩
  | 75 => ⟨S1024x64, .f32⟩
  | 76 => ⟨S1024x64, .f32⟩
  | 77 => ⟨S1x64, .f32⟩
  | 78 => ⟨S1024x64, .f32⟩
  | 79 => ⟨S1024x64, .f32⟩
  | 80 => ⟨S1024x64, .f32⟩
  | 81 => ⟨S_, .f32⟩
  | 82 => ⟨S1024, .f32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S32768x1, .i32⟩
  | 91 => ⟨S_, .f32⟩
  | 92 => ⟨S32768, .f32⟩
  | 93 => ⟨S1024, .f32⟩
  | 94 => ⟨S1024, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768, .f32⟩
  | 104 => ⟨S_, .i32⟩
  | 105 => ⟨S32768, .i32⟩
  | 106 => ⟨S32768, .i1⟩
  | 107 => ⟨S_, .i32⟩
  | 108 => ⟨S32768, .i32⟩
  | 109 => ⟨S32768, .i32⟩
  | 110 => ⟨S32768, .i32⟩
  | 111 => ⟨S32768x1, .i32⟩
  | 112 => ⟨S32768, .f32⟩
  | 113 => ⟨S32768, .f32⟩
  | 114 => ⟨S32768x1, .f32⟩
  | 115 => ⟨S_, .f32⟩
  | 116 => ⟨S1024x64, .f32⟩
  | 117 => ⟨S_, .i32⟩
  | 118 => ⟨S32768, .i32⟩
  | 119 => ⟨S32768, .i1⟩
  | 120 => ⟨S_, .i32⟩
  | 121 => ⟨S32768, .i32⟩
  | 122 => ⟨S32768, .i32⟩
  | 123 => ⟨S32768, .i32⟩
  | 124 => ⟨S32768x1, .i32⟩
  | 125 => ⟨S32768x64, .f32⟩
  | 126 => ⟨S32768x64, .f32⟩
  | 127 => ⟨S32768x64, .f32⟩
  | _ => ⟨S1024x256, .f32⟩

abbrev hbmTy0_1 (i : Nat) : BufTy := match i % 128 with
  | 0 => ⟨S_, .i32⟩
  | 1 => ⟨S32768, .i32⟩
  | 2 => ⟨S32768, .i1⟩
  | 3 => ⟨S_, .i32⟩
  | 4 => ⟨S32768, .i32⟩
  | 5 => ⟨S32768, .i32⟩
  | 6 => ⟨S32768, .i32⟩
  | 7 => ⟨S32768x1, .i32⟩
  | 8 => ⟨S1024x64, .f32⟩
  | 9 => ⟨S1024, .f32⟩
  | 10 => ⟨S1024x1, .f32⟩
  | 11 => ⟨S1024x64, .f32⟩
  | 12 => ⟨S1024x64, .f32⟩
  | 13 => ⟨S1024x64, .f32⟩
  | 14 => ⟨S1x64, .f32⟩
  | 15 => ⟨S1024x64, .f32⟩
  | 16 => ⟨S1024x64, .f32⟩
  | 17 => ⟨S1024x64, .f32⟩
  | 18 => ⟨S_, .f32⟩
  | 19 => ⟨S1024, .f32⟩
  | 20 => ⟨S_, .i32⟩
  | 21 => ⟨S32768, .i32⟩
  | 22 => ⟨S32768, .i1⟩
  | 23 => ⟨S_, .i32⟩
  | 24 => ⟨S32768, .i32⟩
  | 25 => ⟨S32768, .i32⟩
  | 26 => ⟨S32768, .i32⟩
  | 27 => ⟨S32768x1, .i32⟩
  | 28 => ⟨S_, .f32⟩
  | 29 => ⟨S32768, .f32⟩
  | 30 => ⟨S1024, .f32⟩
  | 31 => ⟨S1024, .f32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S32768, .f32⟩
  | 41 => ⟨S_, .i32⟩
  | 42 => ⟨S32768, .i32⟩
  | 43 => ⟨S32768, .i1⟩
  | 44 => ⟨S_, .i32⟩
  | 45 => ⟨S32768, .i32⟩
  | 46 => ⟨S32768, .i32⟩
  | 47 => ⟨S32768, .i32⟩
  | 48 => ⟨S32768x1, .i32⟩
  | 49 => ⟨S32768, .f32⟩
  | 50 => ⟨S32768, .f32⟩
  | 51 => ⟨S32768x1, .f32⟩
  | 52 => ⟨S_, .f32⟩
  | 53 => ⟨S1024x64, .f32⟩
  | 54 => ⟨S_, .i32⟩
  | 55 => ⟨S32768, .i32⟩
  | 56 => ⟨S32768, .i1⟩
  | 57 => ⟨S_, .i32⟩
  | 58 => ⟨S32768, .i32⟩
  | 59 => ⟨S32768, .i32⟩
  | 60 => ⟨S32768, .i32⟩
  | 61 => ⟨S32768x1, .i32⟩
  | 62 => ⟨S32768x64, .f32⟩
  | 63 => ⟨S32768x64, .f32⟩
  | 64 => ⟨S32768x64, .f32⟩
  | 65 => ⟨S_, .i32⟩
  | 66 => ⟨S32768, .i32⟩
  | 67 => ⟨S32768, .i1⟩
  | 68 => ⟨S_, .i32⟩
  | 69 => ⟨S32768, .i32⟩
  | 70 => ⟨S32768, .i32⟩
  | 71 => ⟨S32768, .i32⟩
  | 72 => ⟨S32768x1, .i32⟩
  | 73 => ⟨S1024x64, .f32⟩
  | 74 => ⟨S1024, .f32⟩
  | 75 => ⟨S1024x1, .f32⟩
  | 76 => ⟨S1024x64, .f32⟩
  | 77 => ⟨S1024x64, .f32⟩
  | 78 => ⟨S1024x64, .f32⟩
  | 79 => ⟨S1x64, .f32⟩
  | 80 => ⟨S1024x64, .f32⟩
  | 81 => ⟨S1024x64, .f32⟩
  | 82 => ⟨S64x1024, .f32⟩
  | 83 => ⟨S1024x1024, .f32⟩
  | 84 => ⟨S1024x1024, .f32⟩
  | 85 => ⟨S1024x1024, .f32⟩
  | 86 => ⟨S_, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x1024x1, .f32⟩
  | 93 => ⟨S_, .f32⟩
  | 94 => ⟨S64, .f32⟩
  | 95 => ⟨S1x1x64, .f32⟩
  | 96 => ⟨S1024x1024x64, .f32⟩
  | 97 => ⟨S1024x1024x64, .f32⟩
  | 98 => ⟨S1024x1024x64, .f32⟩
  | 99 => ⟨S1x1x64, .f32⟩
  | 100 => ⟨S1024x1024x64, .f32⟩
  | 101 => ⟨S1024x1024x64, .f32⟩
  | 102 => ⟨S_, .f32⟩
  | 103 => ⟨S1024x1024x64, .f32⟩
  | 104 => ⟨S1024x1024x64, .f32⟩
  | 105 => ⟨S1024x1024x64, .f32⟩
  | 106 => ⟨S1x1x64, .f32⟩
  | 107 => ⟨S1024x1024x64, .f32⟩
  | 108 => ⟨S1024x1024x64, .f32⟩
  | 109 => ⟨S_, .f32⟩
  | 110 => ⟨S1024x1024x64, .f32⟩
  | 111 => ⟨S1024x1024x64, .f32⟩
  | 112 => ⟨S1024x1024x4, .f32⟩
  | 113 => ⟨S1x1x4, .f32⟩
  | 114 => ⟨S1024x1024x4, .f32⟩
  | 115 => ⟨S1024x1024x4, .f32⟩
  | 116 => ⟨S1024x1024x4, .f32⟩
  | 117 => ⟨S1024x1024x4, .f32⟩
  | 118 => ⟨S_, .f32⟩
  | 119 => ⟨S1024x1024x4, .f32⟩
  | 120 => ⟨S1024x1024x4, .f32⟩
  | 121 => ⟨S_, .f32⟩
  | 122 => ⟨S1024x1024x4, .f32⟩
  | 123 => ⟨S1024x1024x4, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_17 : Ref sig .tc := ⟨.hbm, 104, rfl⟩
abbrev main_v70 : Ref sig .tc := ⟨.hbm, 105, rfl⟩
abbrev main_v71 : Ref sig .tc := ⟨.hbm, 106, rfl⟩
abbrev main_c_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_c_21 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_22 : Ref sig .tc := ⟨.hbm, 128, rfl⟩
abbrev main_v89 : Ref sig .tc := ⟨.hbm, 129, rfl⟩
abbrev main_v90 : Ref sig .tc := ⟨.hbm, 130, rfl⟩
abbrev main_c_23 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_24 : Ref sig .tc := ⟨.hbm, 146, rfl⟩
abbrev main_v105 : Ref sig .tc := ⟨.hbm, 147, rfl⟩
abbrev main_c_25 : Ref sig .tc := ⟨.hbm, 148, rfl⟩
abbrev main_v106 : Ref sig .tc := ⟨.hbm, 149, rfl⟩
abbrev main_v107 : Ref sig .tc := ⟨.hbm, 150, rfl⟩
abbrev main_c_26 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_27 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_28 : Ref sig .tc := ⟨.hbm, 160, rfl⟩
abbrev main_v115 : Ref sig .tc := ⟨.hbm, 161, rfl⟩
abbrev main_v116 : Ref sig .tc := ⟨.hbm, 162, rfl⟩
abbrev main_c_29 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_30 : Ref sig .tc := ⟨.hbm, 169, rfl⟩
abbrev main_v122 : Ref sig .tc := ⟨.hbm, 170, rfl⟩
abbrev main_v123 : Ref sig .tc := ⟨.hbm, 171, rfl⟩
abbrev main_c_31 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_32 : Ref sig .tc := ⟨.hbm, 180, rfl⟩
abbrev main_v131 : Ref sig .tc := ⟨.hbm, 181, rfl⟩
abbrev main_c_33 : Ref sig .tc := ⟨.hbm, 182, rfl⟩
abbrev main_v132 : Ref sig .tc := ⟨.hbm, 183, rfl⟩
abbrev main_v133 : Ref sig .tc := ⟨.hbm, 184, rfl⟩
abbrev main_c_34 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_35 : Ref sig .tc := ⟨.hbm, 193, rfl⟩
abbrev main_v141 : Ref sig .tc := ⟨.hbm, 194, rfl⟩
abbrev main_v142 : Ref sig .tc := ⟨.hbm, 195, rfl⟩
abbrev main_c_36 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_37 : Ref sig .tc := ⟨.hbm, 214, rfl⟩
abbrev main_v160 : Ref sig .tc := ⟨.hbm, 215, rfl⟩
abbrev main_v161 : Ref sig .tc := ⟨.hbm, 216, rfl⟩
abbrev main_cst_38 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_39 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_call0_cst : Ref sig .tc := ⟨.hbm, 230, rfl⟩
abbrev main_call0_v0 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_call1_cst : Ref sig .tc := ⟨.hbm, 237, rfl⟩
abbrev main_call1_v0 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_cst_40 : Ref sig .tc := ⟨.hbm, 246, rfl⟩
abbrev main_v185 : Ref sig .tc := ⟨.hbm, 247, rfl⟩
abbrev main_v186 : Ref sig .tc := ⟨.hbm, 248, rfl⟩
abbrev main_cst_41 : Ref sig .tc := ⟨.hbm, 249, rfl⟩
abbrev main_v187 : Ref sig .tc := ⟨.hbm, 250, rfl⟩
abbrev main_v188 : Ref sig .tc := ⟨.hbm, 251, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S1024x64 : S_.BroadcastsInDim S1024x64 (![] : Fin 0 → Fin S1024x64.rank)
  bcast_S32768x1_S32768x64_0_1 : S32768x1.BroadcastsInDim S32768x64 (![0, 1] : Fin 2 → Fin S32768x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S1024x64_S64x1024_1_0 : S1024x64.Transposes [1, 0] S64x1024
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  reducesTo_S4x64_S64_d0 : S4x64.ReducesTo [0] S64
  h_S_ : 0 < S_.numel
  bcast_S64_S1x1x64_2 : S64.BroadcastsInDim S1x1x64 (![2] : Fin 1 → Fin S1x1x64.rank)
  bcast_S1024x1024x1_S1024x1024x64_0_1_2 : S1024x1024x1.BroadcastsInDim S1024x1024x64 (![0, 1, 2] : Fin 3 → Fin S1024x1024x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S4_S1x1x4_2 : S4.BroadcastsInDim S1x1x4 (![2] : Fin 1 → Fin S1x1x4.rank)
  bcast_S1x1x4_S1024x1024x4_0_1_2 : S1x1x4.BroadcastsInDim S1024x1024x4 (![0, 1, 2] : Fin 3 → Fin S1024x1024x4.rank)
  bcast_S_S1024x1024x4 : S_.BroadcastsInDim S1024x1024x4 (![] : Fin 0 → Fin S1024x1024x4.rank)
  dot_S1024x256_S256x64_S1024x64_1_0_0_1_n_n_wf : DotDims.WF S1024x256 S256x64 S1024x64 [1] [0] [0] [1] [] []
  scatter_S1024_S32768x1_S32768_n_0_0_1_wf : ScatterDims.WF S1024 S32768x1 S32768 [] [0] [0] 1
  gather_S1024_S32768x1_S32768_n_0_n_n_0_1_1_wf : GatherDims.WF S1024 S32768x1 S32768 [] [0] [] [0] [] 1 ![1]
  gather_S1024x64_S32768x1_S32768x64_1_0_n_n_0_1_164_wf : GatherDims.WF S1024x64 S32768x1 S32768x64 [1] [0] [] [0] [] 1 ![1, 64]
  scatter_S1024x64_S32768x1_S32768x64_1_0_0_1_wf : ScatterDims.WF S1024x64 S32768x1 S32768x64 [1] [0] [0] 1
  dot_S1024x64_S64x64_S1024x64_1_0_0_1_n_n_wf : DotDims.WF S1024x64 S64x64 S1024x64 [1] [0] [0] [1] [] []
  dot_S1024x64_S64x1024_S1024x1024_1_0_0_1_n_n_wf : DotDims.WF S1024x64 S64x1024 S1024x1024 [1] [0] [0] [1] [] []
  dot_S1024x1024x64_S64x64_S1024x1024x64_2_0_01_1_n_n_wf : DotDims.WF S1024x1024x64 S64x64 S1024x1024x64 [2] [0] [0, 1] [1] [] []
  dot_S1024x1024x64_S64x4_S1024x1024x4_2_0_01_1_n_n_wf : DotDims.WF S1024x1024x64 S64x4 S1024x1024x4 [2] [0] [0, 1] [1] [] []

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def scatter_S1024_S32768x1_S32768_n_0_0_1 : ScatterDims S1024 S32768x1 S32768 where
  updateWindowDims := []
  insertedWindowDims := [0]
  scatterDimsToOperandDims := [0]
  indexVectorDim := 1
  wf := scatter_S1024_S32768x1_S32768_n_0_0_1_wf
def gather_S1024_S32768x1_S32768_n_0_n_n_0_1_1 : GatherDims S1024 S32768x1 S32768 where
  offsetDims := []
  collapsedSliceDims := [0]
  operandBatchingDims := []
  startIndicesBatchingDims := []
  startIndexMap := [0]
  indexVectorDim := 1
  sliceSizes := ![1]
  wf := gather_S1024_S32768x1_S32768_n_0_n_n_0_1_1_wf
def gather_S1024x64_S32768x1_S32768x64_1_0_n_n_0_1_164 : GatherDims S1024x64 S32768x1 S32768x64 where
  offsetDims := [1]
  collapsedSliceDims := [0]
  operandBatchingDims := []
  startIndicesBatchingDims := []
  startIndexMap := [0]
  indexVectorDim := 1
  sliceSizes := ![1, 64]
  wf := gather_S1024x64_S32768x1_S32768x64_1_0_n_n_0_1_164_wf
def scatter_S1024x64_S32768x1_S32768x64_1_0_0_1 : ScatterDims S1024x64 S32768x1 S32768x64 where
  updateWindowDims := [1]
  insertedWindowDims := [0]
  scatterDimsToOperandDims := [0]
  indexVectorDim := 1
  wf := scatter_S1024x64_S32768x1_S32768x64_1_0_0_1_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024x64_S64x64_S1024x1024x64_2_0_01_1_n_n : DotDims S1024x1024x64 S64x64 S1024x1024x64 where
  lhsContracting := [2]
  rhsContracting := [0]
  lhsNonContracting := [0, 1]
  rhsNonContracting := [1]
  lhsBatch := []
  rhsBatch := []
  wf := dot_S1024x1024x64_S64x64_S1024x1024x64_2_0_01_1_n_n_wf
def dot_S1024x1024x64_S64x4_S1024x1024x4_2_0_01_1_n_n : DotDims S1024x1024x64 S64x4 S1024x1024x4 where
  lhsContracting := [2]
  rhsContracting := [0]
  lhsNonContracting := [0, 1]
  rhsNonContracting := [1]
  lhsBatch := []
  rhsBatch := []
  wf := dot_S1024x1024x64_S64x4_S1024x1024x4_2_0_01_1_n_n_wf

class Facts : Prop extends Facts₀ where

variable [Facts]
-- ==== Proof.KB.Region0.lean ====
/-
  Region 0 (the encoder's pallas_call, one grid point, ten windows each holding its whole array): each window's block
  read off its array as the region finds it, what the body leaves in the two output windows' buffers as functions of
  the eight input blocks (the body's two stores, over the generated payload terms), the pipeline's proof data, and the
  body obligation at the one point.
-/
import proofs.«418623_j62843961475769_1_alg».proof.Proof.Gen.Kernel.Launch
import proofs.«418623_j62843961475769_1_alg».proof.Proof.Gen.Kernel.Skeleton
import proofs.«418623_j62843961475769_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole buffer -/

abbrev rX : Rect S1024x256 := Rect.unit (s := S1024x256) ![0, 0] S1024x256.size inb_S1024x256_S1024x256_0_0
abbrev rA : Rect S1024x1024 := Rect.unit (s := S1024x1024) ![0, 0] S1024x1024.size inb_S1024x1024_S1024x1024_0_0
abbrev rW1 : Rect S256x64 := Rect.unit (s := S256x64) ![0, 0] S256x64.size inb_S256x64_S256x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0
abbrev rO : Rect S1024x64 := Rect.unit (s := S1024x64) ![0, 0] S1024x64.size inb_S1024x64_S1024x64_0_0

/-! ## What the body leaves in each output window's buffer -/

/-- Window 8's staging buffer after the body (the first result): its one store, of the payload over the loads of
    windows 0 to 5. -/
def out0_8 (x0 : Vec F S1024x256 .f32) (x1 : Vec F S1024x1024 .f32) (x2 : Vec F S256x64 .f32) (x3 : Vec F S1x64 .f32)
    (x4 : Vec F S64x64 .f32) (x5 : Vec F S1x64 .f32) : Vec F S1024x64 .f32 :=
  View.canon [⟨rO, k0_pay3 (View.ld x0 rX) (View.ld x1 rA) (View.ld x2 rW1) (View.ld x3 rB) (View.ld x4 rW) (View.ld x5 rB)⟩]

/-- Window 9's staging buffer after the body (the second result): its one store, of the payload over the loads of
    windows 0 to 3, 6 and 7. -/
def out0_9 (x0 : Vec F S1024x256 .f32) (x1 : Vec F S1024x1024 .f32) (x2 : Vec F S256x64 .f32) (x3 : Vec F S1x64 .f32)
    (x6 : Vec F S64x64 .f32) (x7 : Vec F S1x64 .f32) : Vec F S1024x64 .f32 :=
  View.canon [⟨rO, k0_pay4 (View.ld x0 rX) (View.ld x1 rA) (View.ld x2 rW1) (View.ld x3 rB) (View.ld x6 rW) (View.ld x7 rB)⟩]

/-- Each output's one store covers its buffer. -/
theorem cover0_O (p0 : Vec F S1024x64 .f32) (y : S1024x64.Idx) :
    ∃ pc ∈ ([⟨rO, p0⟩] : List (View.Piece (Elt F) S1024x64 .f32)), y ∈ pc.1.set :=
  View.cover_of_tiled [⟨rO, p0⟩] S1024x64.size (by rfl) y

/-! ## The pipeline's proof data -/

/-- The proof data of pipeline 0 on core `c`: the arrays as the region finds them; after the body each input's buffer
    at its block and each output's at its function of the input blocks; the class-A invariant; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t
    = out0_9 (iblk0 V c 0 t) (iblk0 V c 1 t) (iblk0 V c 2 t) (iblk0 V c 3 t) (iblk0 V c 6 t) (iblk0 V c 7 t) := by dsimp only [dat0]

/-! ## The input windows' buffers when the body is called -/

/-- Input window 0's current staging buffer holds its block at every point, fetched there or not, for any proof data
    whose array is the region-entry contents (hA) and whose body leaves the block in place (hafter): the window is
    uncut and never idle, so what a fetch puts in the buffer is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- window 2, -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- window 3, -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- window 4, -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- window 5, -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- window 6, -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- and window 7. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Under this region's proof data each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body's triple -/

set_option maxHeartbeats 1000000 in
/-- The body on whole staging memrefs, the eight inputs' at read contents x0 … x7 and the two outputs' at anything,
    runs to the continuation holding the inputs' as they were and the outputs' at out0_8 and out0_9 of the inputs'.
    The body is eight loads of the inputs, an unused load of the first output, the store of the first result, an
    unused load of the second output and the store of the second result, each of a whole buffer; what a store of
    a whole buffer leaves reads back as the one-piece canonical contents, since that piece covers the buffer. -/
theorem sound_kernel0 (c : Dev nD) (E : Set ℕ) (i : grid0.Coords)
    (arg1 : Memref sig .tc .vmem S1024x256 .f32) (harg1 : arg1.IsWhole) (arg2 : Memref sig .tc .vmem S1024x1024 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S1024x64 .f32) (harg9 : arg9.IsWhole) (arg10 : Memref sig .tc .vmem S1024x64 .f32) (harg10 : arg10.IsWhole)
    (x0 : Vec F S1024x256 .f32) (x1 : Vec F S1024x1024 .f32) (x2 : Vec F S256x64 .f32) (x3 : Vec F S1x64 .f32)
    (x4 : Vec F S64x64 .f32) (x5 : Vec F S1x64 .f32) (x6 : Vec F S64x64 .f32) (x7 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5)
            ∗ owns (c : Thread nD τ) arg10 fullShare (out0_9 x0 x1 x2 x3 x6 x7)) -∗ K ⟨⟩))
      ⊢ wp frame (wpE (defs₀ (F := F)) Variants.none c none) E
          (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_O _)
  iexists _; isplitr
  swap; · iexact H9
  ipureintro
  exact View.read_writes_eq_canon _ _ _ (cover0_O _)

/-! ## The body obligation -/

/-- What the body is called with at point t: the invariant, what the core owes, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks, so the body's triple applies at those
    blocks; the invariant and what the core owes are the same at the next point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  Region 1 (the decoder's pallas_call, an 8 × 8 grid, nine windows): windows 0 and 1 are the row blocks `i` and `j`
  of ONE array (the encoder's first result), so the two windows hold that array at the two halves of the full share;
  windows 2 to 7 hold small whole arrays fetched once; window 8 is the result's block `(i, j)`, written back at every
  point. Here: each window's block read off its array as the region finds it, what the body leaves in the output
  window's buffer as a function of the eight input blocks (the body's one store, over the generated payload terms),
  the pipeline's proof data, and the body obligation at a generic point.
-/
import proofs.«418623_j62843961475769_1_alg».proof.Proof.Gen.Kernel.Launch
import proofs.«418623_j62843961475769_1_alg».proof.Proof.Gen.Kernel.Skeleton
import proofs.«418623_j62843961475769_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store is of a whole buffer -/

abbrev rM : Rect S128x64 := Rect.unit (s := S128x64) ![0, 0] S128x64.size inb_S128x64_S128x64_0_0
abbrev rB1 : Rect S1x64 := Rect.unit (s := S1x64) ![0, 0] S1x64.size inb_S1x64_S1x64_0_0
abbrev rW2 : Rect S64x64 := Rect.unit (s := S64x64) ![0, 0] S64x64.size inb_S64x64_S64x64_0_0
abbrev rW3 : Rect S64x4 := Rect.unit (s := S64x4) ![0, 0] S64x4.size inb_S64x4_S64x4_0_0
abbrev rB3 : Rect S1x4 := Rect.unit (s := S1x4) ![0, 0] S1x4.size inb_S1x4_S1x4_0_0
abbrev rO1 : Rect S128x128x4 := Rect.unit (s := S128x128x4) ![0, 0, 0] S128x128x4.size inb_S128x128x4_S128x128x4_0_0_0

/-! ## What the body leaves in the output window's buffer -/

/-- Window 8's staging buffer after the body: its one store, of the payload over the loads of windows 0 to 7. -/
def out1_8 (x0 x1 : Vec F S128x64 .f32) (x2 x3 : Vec F S1x64 .f32) (x4 : Vec F S64x64 .f32) (x5 : Vec F S1x64 .f32)
    (x6 : Vec F S64x4 .f32) (x7 : Vec F S1x4 .f32) : Vec F S128x128x4 .f32 :=
  View.canon [⟨rO1, k1_pay1 (k1_pay2 (View.ld x0 rM) (View.ld x1 rM) (View.ld x2 rB1) (View.ld x3 rB1) (View.ld x4 rW2)
    (View.ld x5 rB1) (View.ld x6 rW3)) (View.ld x7 rB3)⟩]

/-- The output's one store covers its buffer. -/
theorem cover1_O (p0 : Vec F S128x128x4 .f32) (y : S128x128x4.Idx) :
    ∃ pc ∈ ([⟨rO1, p0⟩] : List (View.Piece (Elt F) S128x128x4 .f32)), y ∈ pc.1.set :=
  View.cover_of_tiled [⟨rO1, p0⟩] S128x128x4.size (by rfl) y

/-! ## The pipeline's proof data -/

/-- The proof data of pipeline 1 on core `c`: the arrays as the region finds them; after the body each input's buffer
    at its block and the output's at its function of the input blocks; the class-A invariant; nothing owed; the two
    windows on the shared array at the two halves of the full share, every other window at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
        (iblk1 V c 6 t) (iblk1 V c 7 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t)
        (iblk1 V c 6 t) (iblk1 V c 7 t) := by dsimp only [dat1]

/-- The shares the windows' arrays are held at. -/
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]
theorem q1_7 (c : Dev nD) : (dat1 V c).q 7 = fullShare := by dsimp only [dat1]
theorem q1_8 (c : Dev nD) : (dat1 V c).q 8 = fullShare := by dsimp only [dat1]

/-! ## What the body finds in each input window's buffer -/

/-- Input window 0's current staging buffer holds its block at every point, fetched there or not, for any proof
    data whose array is `V`'s (`hA`) and whose body leaves the block in place (`hafter`): at a point where the window is
    not fetched its block index has not moved since the point before, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): at a point where the window is
    not fetched its block index has not moved since the point before, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): at a point where the window is
    not fetched its block index has not moved since the point before, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): at a point where the window is
    not fetched its block index has not moved since the point before, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): at a point where the window is
    not fetched its block index has not moved since the point before, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): at a point where the window is
    not fetched its block index has not moved since the point before, the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): at a point where the window is
    not fetched its block index has not moved since the point before, the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): at a point where the window is
    not fetched its block index has not moved since the point before, the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point of the grid. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body's triple -/

set_option maxHeartbeats 1000000 in
/-- The kernel body at any grid coordinates, on whole staging memrefs, the inputs' at read contents `x0` … `x7` and the
    output's at anything, runs to the continuation holding the inputs' as they were and the output's at `out1_8` of the
    inputs': the body is eight whole-buffer loads (seven in its part, which returns the decoder's pre-activation), a load
    of the output buffer whose value is not used, and one whole-buffer store of the payload over the loads. -/
theorem sound_kernel1 (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole)
    (arg8 : Memref sig .tc .vmem S64x4 .f32) (harg8 : arg8.IsWhole) (arg9 : Memref sig .tc .vmem S1x4 .f32) (harg9 : arg9.IsWhole) (arg10 : Memref sig .tc .vmem S128x128x4 .f32) (harg10 : arg10.IsWhole)
    (x0 x1 : Vec F S128x64 .f32) (x2 x3 : Vec F S1x64 .f32) (x4 : Vec F S64x64 .f32) (x5 : Vec F S1x64 .f32)
    (x6 : Vec F S64x4 .f32) (x7 : Vec F S1x4 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out1_8 x0 x1 x2 x3 x4 x5 x6 x7)) -∗ K ⟨⟩))
      ⊢ wp frame (wpE (defs₀ (F := F)) Variants.none c none) E (cc1__decode_classify_kernel i arg2 harg2 arg3 harg3 arg4 harg4 arg5 harg5 arg6 harg6 arg7 harg7 arg8 harg8 arg9 harg9 arg10 harg10) K := by
  simp only [cc1__decode_classify_kernel_eq_skeleton]; unfold cc1__decode_classify_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_O _)

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point of the 8 × 8 grid: the inputs' buffers hold their blocks (`before1_0` … `before1_7`), so
    `sound_kernel1` applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The body obligation -/

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Fold.lean ====
/-
  The contents of a core's buffers at each boundary of @main, as a fold from the launch memory: after each stretch of
  host operations the operations applied (`StableHlo.after`); after a region its arrays at what the pipeline's
  write-backs leave (the inputs as entered, each output's blocks folded in: `Dat.arrAt … N`), every other buffer as
  entered. Region 1's windows 0 and 1 read ONE array and write nothing, so its exit changes the result's array only.
-/
import proofs.«418623_j62843961475769_1_alg».proof.Proof.KB.Region0
import proofs.«418623_j62843961475769_1_alg».proof.Proof.KB.Region1

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
/-- After the diagonal's stretch. -/
abbrev W2 : Dev nD → Valuation τ sig (Elt F) := fun c => StableHlo.after hostOps0_1 (W1 m ρ c)
/-- After the third stretch: region 0's entry. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit. -/
def W4 (c : Dev nD) : Valuation τ sig (Elt F) :=
  Pipeline.withArrays spec0 c (W3 m ρ c) fun w => (dat0 (V3 m ρ) c).arrAt w cfg0.N
/-- After the stretch between the regions: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: the result's array at what the write-backs leave, every other buffer as entered. -/
def W6 (c : Dev nD) : Valuation τ sig (Elt F) :=
  Function.update (W5 m ρ c) (Proc.devRef .tc main_v54) ((dat1 (V5 m ρ) c).arrAt 8 cfg1.N)

theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W6_out (c : Dev nD) : W6 m ρ c (Proc.devRef .tc main_v54) = (dat1 (V5 m ρ) c).arrAt 8 cfg1.N := by
  unfold W6; exact Function.update_self ..
theorem W6_of_ne (c : Dev nD) (b : Ref sig .tc) (hb : b ≠ main_v54) :
    W6 m ρ c (Proc.devRef .tc b) = W5 m ρ c (Proc.devRef .tc b) := by
  unfold W6; exact Function.update_of_ne (StableHlo.devRef_ne_of_ne hb) _ _

end Cert.Kernel.Hand

end
-- ==== Proof.KB.Run.lean ====
/-
  The run of @main on the TensorCores, from the launch to the return: three stretches of host operations, the
  encoder's region, one more stretch, the decoder's region. Between two items a core holds every unscoped buffer
  whole at the contents of that boundary (`W0` … `W6`), its generator register at some state, and owes nothing.
  A stretch of host operations runs from one boundary's contents to the next by applying its operations; a region
  takes its windows' arrays out of the unscoped buffers, runs its pipeline, and puts them back at what the
  write-backs leave. The decoder's windows 0 and 1 read ONE array: its full share is cut into its two halves when
  the region is entered, one half per window, and the halves are joined again when it is left, both windows being
  inputs and so holding the array at the contents they found. The launch over these six items gives the final
  memory at `W6` on every unscoped buffer; no item writes an argument array, so each ends as launched.
-/
import proofs.«418623_j62843961475769_1_alg».proof.Proof.KB.Fold
import proofs.«418623_j62843961475769_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch of host operations leaves unchanged -/

/-- A reference no operation of the first stretch writes holds after it what it held before. -/
private theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
private theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
private theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
private theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- The contents at region 0's exit and at region 1's exit, read at the TensorCore's references. -/
private abbrev V4 : (c : Dev nD) → (b : Ref sig .tc) → Buf (Elt F) ((c : Thread nD τ).loc b) := fun c b => W4 m ρ c b
private abbrev V6 : (c : Dev nD) → (b : Ref sig .tc) → Buf (Elt F) ((c : Thread nD τ).loc b) := fun c b => W6 m ρ c b

/-- At region 0's exit each of its arrays holds what the pipeline leaves and every other buffer what it held at entry. -/
private theorem hF0 (c : Dev nD) (w : Fin cfg0.W) : (dat0 (V3 m ρ) c).arrAt w cfg0.N = V4 m ρ c (Pipeline.arrRef spec0 w) :=
  (W4_arr m ρ c w).symm
private theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-! ## No item writes an argument array

A host stretch writes its results only; region 0 reads arguments 0, 3, 5 and 7 through input windows, whose arrays
the pipeline never writes back; region 1 changes the result's array only. So the fold at an argument's buffer walks
back to the launch memory. -/
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <|
    ((W4_arr m ρ c 0).trans (((dat0 (V3 m ρ) c).arrAt_in 0 rfl _).trans (A_eq0 (V3 m ρ) c 0))).trans <|
    (W3_of m ρ c main_arg0 (by decide)).trans <|
    (W2_of m ρ c main_arg0 (by decide)).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <|
    (W4_of_ne m ρ c main_arg1 (by decide)).trans <| (W3_of m ρ c main_arg1 (by decide)).trans <|
    (W2_of m ρ c main_arg1 (by decide)).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <|
    (W4_of_ne m ρ c main_arg2 (by decide)).trans <| (W3_of m ρ c main_arg2 (by decide)).trans <|
    (W2_of m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <|
    ((W4_arr m ρ c 2).trans (((dat0 (V3 m ρ) c).arrAt_in 2 rfl _).trans (A_eq0 (V3 m ρ) c 2))).trans <|
    (W3_of m ρ c main_arg3 (by decide)).trans <|
    (W2_of m ρ c main_arg3 (by decide)).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <|
    (W4_of_ne m ρ c main_arg4 (by decide)).trans <| (W3_of m ρ c main_arg4 (by decide)).trans <|
    (W2_of m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <|
    ((W4_arr m ρ c 4).trans (((dat0 (V3 m ρ) c).arrAt_in 4 rfl _).trans (A_eq0 (V3 m ρ) c 4))).trans <|
    (W3_of m ρ c main_arg5 (by decide)).trans <|
    (W2_of m ρ c main_arg5 (by decide)).trans <| (W1_of m ρ c main_arg5 (by decide)).trans rfl
theorem W6_main_arg6 (c : Dev nD) : W6 m ρ c (Proc.devRef .tc main_arg6) = m ((c : Thread nD τ).loc main_arg6) :=
  (W6_of_ne m ρ c main_arg6 (by decide)).trans <| (W5_of m ρ c main_arg6 (by decide)).trans <|
    (W4_of_ne m ρ c main_arg6 (by decide)).trans <| (W3_of m ρ c main_arg6 (by decide)).trans <|
    (W2_of m ρ c main_arg6 (by decide)).trans <| (W1_of m ρ c main_arg6 (by decide)).trans rfl
theorem W6_main_arg7 (c : Dev nD) : W6 m ρ c (Proc.devRef .tc main_arg7) = m ((c : Thread nD τ).loc main_arg7) :=
  (W6_of_ne m ρ c main_arg7 (by decide)).trans <| (W5_of m ρ c main_arg7 (by decide)).trans <|
    ((W4_arr m ρ c 6).trans (((dat0 (V3 m ρ) c).arrAt_in 6 rfl _).trans (A_eq0 (V3 m ρ) c 6))).trans <|
    (W3_of m ρ c main_arg7 (by decide)).trans <|
    (W2_of m ρ c main_arg7 (by decide)).trans <| (W1_of m ρ c main_arg7 (by decide)).trans rfl
theorem W6_main_arg8 (c : Dev nD) : W6 m ρ c (Proc.devRef .tc main_arg8) = m ((c : Thread nD τ).loc main_arg8) :=
  (W6_of_ne m ρ c main_arg8 (by decide)).trans <| (W5_of m ρ c main_arg8 (by decide)).trans <|
    (W4_of_ne m ρ c main_arg8 (by decide)).trans <| (W3_of m ρ c main_arg8 (by decide)).trans <|
    (W2_of m ρ c main_arg8 (by decide)).trans <| (W1_of m ρ c main_arg8 (by decide)).trans rfl
theorem W6_main_arg9 (c : Dev nD) : W6 m ρ c (Proc.devRef .tc main_arg9) = m ((c : Thread nD τ).loc main_arg9) :=
  (W6_of_ne m ρ c main_arg9 (by decide)).trans <| (W5_of m ρ c main_arg9 (by decide)).trans <|
    (W4_of_ne m ρ c main_arg9 (by decide)).trans <| (W3_of m ρ c main_arg9 (by decide)).trans <|
    (W2_of m ρ c main_arg9 (by decide)).trans <| (W1_of m ρ c main_arg9 (by decide)).trans rfl
theorem W6_main_arg10 (c : Dev nD) : W6 m ρ c (Proc.devRef .tc main_arg10) = m ((c : Thread nD τ).loc main_arg10) :=
  (W6_of_ne m ρ c main_arg10 (by decide)).trans <| (W5_of m ρ c main_arg10 (by decide)).trans <|
    (W4_of_ne m ρ c main_arg10 (by decide)).trans <| (W3_of m ρ c main_arg10 (by decide)).trans <|
    (W2_of m ρ c main_arg10 (by decide)).trans <| (W1_of m ρ c main_arg10 (by decide)).trans rfl
theorem W6_main_arg11 (c : Dev nD) : W6 m ρ c (Proc.devRef .tc main_arg11) = m ((c : Thread nD τ).loc main_arg11) :=
  (W6_of_ne m ρ c main_arg11 (by decide)).trans <| (W5_of m ρ c main_arg11 (by decide)).trans <|
    (W4_of_ne m ρ c main_arg11 (by decide)).trans <| (W3_of m ρ c main_arg11 (by decide)).trans <|
    (W2_of m ρ c main_arg11 (by decide)).trans <| (W1_of m ρ c main_arg11 (by decide)).trans rfl
theorem W6_main_arg12 (c : Dev nD) : W6 m ρ c (Proc.devRef .tc main_arg12) = m ((c : Thread nD τ).loc main_arg12) :=
  (W6_of_ne m ρ c main_arg12 (by decide)).trans <| (W5_of m ρ c main_arg12 (by decide)).trans <|
    (W4_of_ne m ρ c main_arg12 (by decide)).trans <| (W3_of m ρ c main_arg12 (by decide)).trans <|
    (W2_of m ρ c main_arg12 (by decide)).trans <| (W1_of m ρ c main_arg12 (by decide)).trans rfl
theorem W6_main_arg13 (c : Dev nD) : W6 m ρ c (Proc.devRef .tc main_arg13) = m ((c : Thread nD τ).loc main_arg13) :=
  (W6_of_ne m ρ c main_arg13 (by decide)).trans <| (W5_of m ρ c main_arg13 (by decide)).trans <|
    (W4_of_ne m ρ c main_arg13 (by decide)).trans <| (W3_of m ρ c main_arg13 (by decide)).trans <|
    (W2_of m ρ c main_arg13 (by decide)).trans <| (W1_of m ρ c main_arg13 (by decide)).trans rfl
theorem W6_main_arg14 (c : Dev nD) : W6 m ρ c (Proc.devRef .tc main_arg14) = m ((c : Thread nD τ).loc main_arg14) :=
  (W6_of_ne m ρ c main_arg14 (by decide)).trans <| (W5_of m ρ c main_arg14 (by decide)).trans <|
    (W4_of_ne m ρ c main_arg14 (by decide)).trans <| (W3_of m ρ c main_arg14 (by decide)).trans <|
    (W2_of m ρ c main_arg14 (by decide)).trans <| (W1_of m ρ c main_arg14 (by decide)).trans rfl

/-- The encoder's two results reach the end as region 0 leaves them, and the first of them is what region 1 reads. -/
theorem V5_main_v48_0 (c : Dev nD) : V5 m ρ c main_v48_0 = (dat0 (V3 m ρ) c).arrAt 8 cfg0.N :=
  (W5_of m ρ c main_v48_0 (by decide)).trans (W4_arr m ρ c 8)
theorem W6_main_v48_0 (c : Dev nD) : W6 m ρ c (Proc.devRef .tc main_v48_0) = (dat0 (V3 m ρ) c).arrAt 8 cfg0.N :=
  (W6_of_ne m ρ c main_v48_0 (by decide)).trans (V5_main_v48_0 m ρ c)
theorem W6_main_v48_1 (c : Dev nD) : W6 m ρ c (Proc.devRef .tc main_v48_1) = (dat0 (V3 m ρ) c).arrAt 9 cfg0.N :=
  (W6_of_ne m ρ c main_v48_1 (by decide)).trans <| (W5_of m ρ c main_v48_1 (by decide)).trans (W4_arr m ρ c 9)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)
/-- A stretch of host operations over the unscoped references from the contents `W`, `R` riding along: it runs to
    those references at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`. Its ten arrays are
    distinct buffers: they are split out of the unscoped buffers at entry and put back at the exit contents; the
    generator register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1's arrays in and out of the unscoped buffers

Windows 0 and 1 are on one array, so the region's arrays are eight distinct buffers for nine windows. -/

/-- The buffers behind region 1's nine windows are eight: window 1's is window 0's. -/
private abbrev arrList1 : List (Ref sig .tc) :=
  [Pipeline.arrRef spec1 (0 : Fin 9),
      Pipeline.arrRef spec1 (2 : Fin 9),
      Pipeline.arrRef spec1 (3 : Fin 9),
      Pipeline.arrRef spec1 (4 : Fin 9),
      Pipeline.arrRef spec1 (5 : Fin 9),
      Pipeline.arrRef spec1 (6 : Fin 9),
      Pipeline.arrRef spec1 (7 : Fin 9),
      Pipeline.arrRef spec1 (8 : Fin 9)]
private theorem arrImage1 : Finset.univ.image (Pipeline.arrRef spec1) = arrList1.toFinset := by decide
private theorem arrNodup1 : arrList1.Nodup := by decide

/-- Those eight buffers, each whole at the full share at contents `V`, one by one. -/
private theorem arrBufs1_open (c : Dev nD) (V : (b : Ref sig .tc) → Buf (Elt F) ((c.tc : Thread nD τ).loc b)) :
    (Pipeline.arrBufs spec1 c V : sProp 𝕄)
      = iprop(((c.tc : Thread nD τ).loc (Pipeline.arrRef spec1 (0 : Fin 9)) ↦{fullShare} V (Pipeline.arrRef spec1 (0 : Fin 9)))
        ∗ ((c.tc : Thread nD τ).loc (Pipeline.arrRef spec1 (2 : Fin 9)) ↦{fullShare} V (Pipeline.arrRef spec1 (2 : Fin 9)))
        ∗ ((c.tc : Thread nD τ).loc (Pipeline.arrRef spec1 (3 : Fin 9)) ↦{fullShare} V (Pipeline.arrRef spec1 (3 : Fin 9)))
        ∗ ((c.tc : Thread nD τ).loc (Pipeline.arrRef spec1 (4 : Fin 9)) ↦{fullShare} V (Pipeline.arrRef spec1 (4 : Fin 9)))
        ∗ ((c.tc : Thread nD τ).loc (Pipeline.arrRef spec1 (5 : Fin 9)) ↦{fullShare} V (Pipeline.arrRef spec1 (5 : Fin 9)))
        ∗ ((c.tc : Thread nD τ).loc (Pipeline.arrRef spec1 (6 : Fin 9)) ↦{fullShare} V (Pipeline.arrRef spec1 (6 : Fin 9)))
        ∗ ((c.tc : Thread nD τ).loc (Pipeline.arrRef spec1 (7 : Fin 9)) ↦{fullShare} V (Pipeline.arrRef spec1 (7 : Fin 9)))
        ∗ ((c.tc : Thread nD τ).loc (Pipeline.arrRef spec1 (8 : Fin 9)) ↦{fullShare} V (Pipeline.arrRef spec1 (8 : Fin 9)))) := by
  unfold Pipeline.arrBufs
  exact bigSep_eq_bigSepL_of_eq arrList1 arrImage1 arrNodup1 _

section
variable (V : (c : Dev nD) → (b : Ref sig .tc) → Buf (Elt F) ((c : Thread nD τ).loc b))

/-- The share each window's array is held at: the two halves for the two windows on the shared array, the full
    share for the other inputs (their proof data's) and for the output (an output's always). -/
private theorem share1_0 (c : Dev nD) : (dat1 V c).share 0 = fullShare.left := by
  unfold Dat.share; exact (if_neg (by decide)).trans (q1_0 V c)
private theorem share1_1 (c : Dev nD) : (dat1 V c).share 1 = fullShare.right := by
  unfold Dat.share; exact (if_neg (by decide)).trans (q1_1 V c)
private theorem share1_2 (c : Dev nD) : (dat1 V c).share 2 = fullShare := by
  unfold Dat.share; exact (if_neg (by decide)).trans (q1_2 V c)
private theorem share1_3 (c : Dev nD) : (dat1 V c).share 3 = fullShare := by
  unfold Dat.share; exact (if_neg (by decide)).trans (q1_3 V c)
private theorem share1_4 (c : Dev nD) : (dat1 V c).share 4 = fullShare := by
  unfold Dat.share; exact (if_neg (by decide)).trans (q1_4 V c)
private theorem share1_5 (c : Dev nD) : (dat1 V c).share 5 = fullShare := by
  unfold Dat.share; exact (if_neg (by decide)).trans (q1_5 V c)
private theorem share1_6 (c : Dev nD) : (dat1 V c).share 6 = fullShare := by
  unfold Dat.share; exact (if_neg (by decide)).trans (q1_6 V c)
private theorem share1_7 (c : Dev nD) : (dat1 V c).share 7 = fullShare := by
  unfold Dat.share; exact (if_neg (by decide)).trans (q1_7 V c)
private theorem share1_8 (c : Dev nD) : (dat1 V c).share 8 = fullShare := by
  unfold Dat.share; exact if_pos (by decide)

/-- Every window's array is a whole buffer: its view's elements are all of them. -/
private theorem set1 (w : Fin cfg1.W) : (cfg1.win w).arr.view.set = Finset.univ := (arr_whole1 w).set_eq_univ

/-- Region 1's windowed arrays at contents `G`, window by window: each a whole buffer at its share. -/
private theorem arrays1_open (c : Dev nD) (G : (w : Fin 9) → Buf (Elt F) ((c.tc : Thread nD τ).loc (Pipeline.arrRef spec1 w))) :
    ((dat1 V c).arrays G : sProp 𝕄)
      = iprop(((c.tc : Thread nD τ).loc (Pipeline.arrRef spec1 (0 : Fin 9)) ↦{fullShare.left} G (0 : Fin 9))
        ∗ ((c.tc : Thread nD τ).loc (Pipeline.arrRef spec1 (1 : Fin 9)) ↦{fullShare.right} G (1 : Fin 9))
        ∗ ((c.tc : Thread nD τ).loc (Pipeline.arrRef spec1 (2 : Fin 9)) ↦{fullShare} G (2 : Fin 9))
        ∗ ((c.tc : Thread nD τ).loc (Pipeline.arrRef spec1 (3 : Fin 9)) ↦{fullShare} G (3 : Fin 9))
        ∗ ((c.tc : Thread nD τ).loc (Pipeline.arrRef spec1 (4 : Fin 9)) ↦{fullShare} G (4 : Fin 9))
        ∗ ((c.tc : Thread nD τ).loc (Pipeline.arrRef spec1 (5 : Fin 9)) ↦{fullShare} G (5 : Fin 9))
        ∗ ((c.tc : Thread nD τ).loc (Pipeline.arrRef spec1 (6 : Fin 9)) ↦{fullShare} G (6 : Fin 9))
        ∗ ((c.tc : Thread nD τ).loc (Pipeline.arrRef spec1 (7 : Fin 9)) ↦{fullShare} G (7 : Fin 9))
        ∗ ((c.tc : Thread nD τ).loc (Pipeline.arrRef spec1 (8 : Fin 9)) ↦{fullShare} G (8 : Fin 9))) := by
  have h : ((dat1 V c).arrays G : sProp 𝕄)
      = bigSep Finset.univ fun w : Fin 9 => ((c.tc : Thread nD τ).loc (Pipeline.arrRef spec1 w) ↦{(dat1 V c).share w} G w) := by
    unfold Dat.arrays; exact bigSep_congr fun w _ => by rw [set1 w]
  rewrite [h, bigSep_W1, share1_0, share1_1, share1_2, share1_3, share1_4, share1_5, share1_6, share1_7, share1_8]
  rfl

/-- An input window's array is never written back: at every point it holds what the region found in it. -/
private theorem arrAt1_in (c : Dev nD) (w : Fin 9) (hin : (cfg1.win w).isOut = false) (t : Nat) :
    (dat1 V c).arrAt w t = V c (Pipeline.arrRef spec1 w) :=
  ((dat1 V c).arrAt_in w hin t).trans (A_eq1 V c w)
end

set_option maxHeartbeats 400000 in
/-- ENTRY: the unscoped buffers at region 1's entry contents are its windows' arrays at the proof data's entry
    contents, the shared array's full share cut into its two halves, and the unscoped rest. -/
theorem entry1 (c : Dev nD) :
    (unscopedBufs c (V5 m ρ c) : sProp 𝕄)
      ⊢ iprop((dat1 (V5 m ρ) c).arrays ((dat1 (V5 m ρ) c).arrAt · 0)
          ∗ Pipeline.unscopedRest (Ix := Unit) (Name := ℕ) (U := UR sig nD τ) (Lvl := ℕ) spec1 c (V5 m ρ c)) := by
  refine (Entails.of_eq (Pipeline.unscopedBufs_split₀ (Ix := Unit) (Name := ℕ) (U := UR sig nD τ) (Lvl := ℕ)
    cfgs 1 winFacts₀1.arr_unscoped c (V5 m ρ c))).trans (sep_mono ?_ .rfl)
  refine (Entails.of_eq (arrBufs1_open c (V5 m ρ c))).trans
    (BIBase.Entails.trans ?_ (Entails.of_eq (arrays1_open (V5 m ρ) c fun w => V5 m ρ c (Pipeline.arrRef spec1 w)).symm))
  iintro ⟨H0, H2, H3, H4, H5, H6, H7, H8⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Region 1 changes the result's array only: every other buffer holds at its exit what it held at its entry. -/
private theorem V6_in (c : Dev nD) (b : Ref sig .tc) (hb : b ≠ main_v54) : V6 m ρ c b = V5 m ρ c b := W6_of_ne m ρ c b hb

set_option maxHeartbeats 2000000 in
/-- What the pipeline leaves in each window's array is the exit contents there: an input's array as found, which the
    exit contents keep; the result's array at its write-backs folded in, which the exit contents are defined to hold. -/
private theorem arrAt1_N (c : Dev nD) : ∀ w : Fin 9, (dat1 (V5 m ρ) c).arrAt w cfg1.N = V6 m ρ c (Pipeline.arrRef spec1 w)
  | 0 => (arrAt1_in (V5 m ρ) c 0 rfl _).trans (V6_in m ρ c _ (by decide)).symm
  | 1 => (arrAt1_in (V5 m ρ) c 1 rfl _).trans (V6_in m ρ c _ (by decide)).symm
  | 2 => (arrAt1_in (V5 m ρ) c 2 rfl _).trans (V6_in m ρ c _ (by decide)).symm
  | 3 => (arrAt1_in (V5 m ρ) c 3 rfl _).trans (V6_in m ρ c _ (by decide)).symm
  | 4 => (arrAt1_in (V5 m ρ) c 4 rfl _).trans (V6_in m ρ c _ (by decide)).symm
  | 5 => (arrAt1_in (V5 m ρ) c 5 rfl _).trans (V6_in m ρ c _ (by decide)).symm
  | 6 => (arrAt1_in (V5 m ρ) c 6 rfl _).trans (V6_in m ρ c _ (by decide)).symm
  | 7 => (arrAt1_in (V5 m ρ) c 7 rfl _).trans (V6_in m ρ c _ (by decide)).symm
  | 8 => (W6_out m ρ c).symm
  | ⟨_ + 9, h⟩ => absurd h (Nat.not_lt.2 (Nat.le_add_left _ _))

set_option maxHeartbeats 400000 in
/-- EXIT: the windows' arrays at what the pipeline leaves, the two halves of the shared array joined again, and the
    unscoped rest are the unscoped buffers at region 1's exit contents. -/
theorem exit1 (c : Dev nD) :
    iprop((dat1 (V5 m ρ) c).arrays ((dat1 (V5 m ρ) c).arrAt · cfg1.N)
        ∗ Pipeline.unscopedRest (Ix := Unit) (Name := ℕ) (U := UR sig nD τ) (Lvl := ℕ) spec1 c (V5 m ρ c))
      ⊢ (unscopedBufs c (V6 m ρ c) : sProp 𝕄) := by
  refine BIBase.Entails.trans (BIClass.sep_mono ?_ ?_) (Entails.of_eq (Pipeline.unscopedBufs_split₀ (Ix := Unit) (Name := ℕ) (U := UR sig nD τ) (Lvl := ℕ)
    cfgs 1 winFacts₀1.arr_unscoped c (V6 m ρ c)).symm)
  · rw [show ((dat1 (V5 m ρ) c).arrAt · cfg1.N) = fun w => V6 m ρ c (Pipeline.arrRef spec1 w) from funext (arrAt1_N m ρ c)]
    refine (Entails.of_eq (arrays1_open (V5 m ρ) c fun w => V6 m ρ c (Pipeline.arrRef spec1 w))).trans
      (BIBase.Entails.trans ?_ (Entails.of_eq (arrBufs1_open c (V6 m ρ c)).symm))
    iintro ⟨H0, H1, H2, H3, H4, H5, H6, H7, H8⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    iexact H8
  · unfold Pipeline.unscopedRest
    exact Entails.of_eq (bigSep_congr fun b hb => by
      rw [V6_in m ρ c b fun e => (Finset.mem_sdiff.mp hb).2 (e ▸ Finset.mem_image.mpr ⟨8, Finset.mem_univ _, rfl⟩)])

set_option backward.isDefEq.respectTransparency.types false in
/-- Region 1 over the thread state: entered from every unscoped buffer at `W5`, left at `W6` (what the launch reads
    at the end). Its arrays go out of the unscoped buffers by `entry1` and back by `exit1`; the generator register
    goes into the invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's six items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

/-- @main is the run of the segments: it is the chain of its six items, and so is the segments' run. -/
theorem main_run (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()) ] from rfl]
  rfl

set_option backward.isDefEq.respectTransparency.types false in
/-- THE RUN: from any memory with zero counters, every weakly fair execution of @main on the TensorCores terminates,
    nothing faulting, and every final memory holds each unscoped buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every weakly fair execution of @main terminates and every final memory has the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩) (run_main m ρ)

end Cert.Kernel.Hand

end
-- ==== Proof.KI.Region0.lean ====
/-
  Region 0 (the encoder's pallas_call, one grid point, ten windows each holding its whole array): each window's block
  read off its array as the region finds it, what the body leaves in the two output windows' buffers as functions of
  the eight input blocks (the body's two stores, over the generated payload terms), the pipeline's proof data, and the
  body obligation at the one point.
-/
import proofs.«418623_j62843961475769_1_alg».proof.Proof.Gen.KernelIdeal.Launch
import proofs.«418623_j62843961475769_1_alg».proof.Proof.Gen.KernelIdeal.Skeleton
import proofs.«418623_j62843961475769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and store is of a whole buffer -/

abbrev rX : Rect S1024x256 := Rect.unit (s := S1024x256) ![0, 0] S1024x256.size inb_S1024x256_S1024x256_0_0
abbrev rA : Rect S1024x1024 := Rect.unit (s := S1024x1024) ![0, 0] S1024x1024.size inb_S1024x1024_S1024x1024_0_0
abbrev rW1 : Rect S256x64 := Rect.unit (s := S256x64) ![0, 0] S256x64.size inb_S256x64_S256x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0
abbrev rO : Rect S1024x64 := Rect.unit (s := S1024x64) ![0, 0] S1024x64.size inb_S1024x64_S1024x64_0_0

/-! ## What the body leaves in each output window's buffer -/

/-- Window 8's staging buffer after the body (the first result): its one store, of the payload over the loads of
    windows 0 to 5. -/
def out0_8 (x0 : Vec F S1024x256 .f32) (x1 : Vec F S1024x1024 .f32) (x2 : Vec F S256x64 .f32) (x3 : Vec F S1x64 .f32)
    (x4 : Vec F S64x64 .f32) (x5 : Vec F S1x64 .f32) : Vec F S1024x64 .f32 :=
  View.canon [⟨rO, k0_pay3 (View.ld x0 rX) (View.ld x1 rA) (View.ld x2 rW1) (View.ld x3 rB) (View.ld x4 rW) (View.ld x5 rB)⟩]

/-- Window 9's staging buffer after the body (the second result): its one store, of the payload over the loads of
    windows 0 to 3, 6 and 7. -/
def out0_9 (x0 : Vec F S1024x256 .f32) (x1 : Vec F S1024x1024 .f32) (x2 : Vec F S256x64 .f32) (x3 : Vec F S1x64 .f32)
    (x6 : Vec F S64x64 .f32) (x7 : Vec F S1x64 .f32) : Vec F S1024x64 .f32 :=
  View.canon [⟨rO, k0_pay4 (View.ld x0 rX) (View.ld x1 rA) (View.ld x2 rW1) (View.ld x3 rB) (View.ld x6 rW) (View.ld x7 rB)⟩]

/-- Each output's one store covers its buffer. -/
theorem cover0_O (p0 : Vec F S1024x64 .f32) (y : S1024x64.Idx) :
    ∃ pc ∈ ([⟨rO, p0⟩] : List (View.Piece (Elt F) S1024x64 .f32)), y ∈ pc.1.set :=
  View.cover_of_tiled [⟨rO, p0⟩] S1024x64.size (by rfl) y

/-! ## The pipeline's proof data -/

/-- The proof data of pipeline 0 on core `c`: the arrays as the region finds them; after the body each input's buffer
    at its block and each output's at its function of the input blocks; the class-A invariant; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t
    = out0_9 (iblk0 V c 0 t) (iblk0 V c 1 t) (iblk0 V c 2 t) (iblk0 V c 3 t) (iblk0 V c 6 t) (iblk0 V c 7 t) := by dsimp only [dat0]

/-! ## The input windows' buffers when the body is called -/

/-- Input window 0's current staging buffer holds its block at every point, fetched there or not, for any proof data
    whose array is the region-entry contents (hA) and whose body leaves the block in place (hafter): the window is
    uncut and never idle, so what a fetch puts in the buffer is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- window 2, -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- window 3, -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- window 4, -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- window 5, -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- window 6, -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- and window 7. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Under this region's proof data each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body's triple -/

set_option maxHeartbeats 1000000 in
/-- The body on whole staging memrefs, the eight inputs' at read contents x0 … x7 and the two outputs' at anything,
    runs to the continuation holding the inputs' as they were and the outputs' at out0_8 and out0_9 of the inputs'.
    The body is eight loads of the inputs, an unused load of the first output, the store of the first result, an
    unused load of the second output and the store of the second result, each of a whole buffer; what a store of
    a whole buffer leaves reads back as the one-piece canonical contents, since that piece covers the buffer. -/
theorem sound_kernel0 (c : Dev nD) (E : Set ℕ) (i : grid0.Coords)
    (arg1 : Memref sig .tc .vmem S1024x256 .f32) (harg1 : arg1.IsWhole) (arg2 : Memref sig .tc .vmem S1024x1024 .f32) (harg2 : arg2.IsWhole)
    (arg3 : Memref sig .tc .vmem S256x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S64x64 .f32) (harg7 : arg7.IsWhole) (arg8 : Memref sig .tc .vmem S1x64 .f32) (harg8 : arg8.IsWhole)
    (arg9 : Memref sig .tc .vmem S1024x64 .f32) (harg9 : arg9.IsWhole) (arg10 : Memref sig .tc .vmem S1024x64 .f32) (harg10 : arg10.IsWhole)
    (x0 : Vec F S1024x256 .f32) (x1 : Vec F S1024x1024 .f32) (x2 : Vec F S256x64 .f32) (x3 : Vec F S1x64 .f32)
    (x4 : Vec F S64x64 .f32) (x5 : Vec F S1x64 .f32) (x6 : Vec F S64x64 .f32) (x7 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5)
            ∗ owns (c : Thread nD τ) arg10 fullShare (out0_9 x0 x1 x2 x3 x6 x7)) -∗ K ⟨⟩))
      ⊢ wp frame (wpE (defs₀ (F := F)) Variants.none c none) E
          (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_O _)
  iexists _; isplitr
  swap; · iexact H9
  ipureintro
  exact View.read_writes_eq_canon _ _ _ (cover0_O _)

/-! ## The body obligation -/

/-- What the body is called with at point t: the invariant, what the core owes, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' staging buffers hold their blocks, so the body's triple applies at those
    blocks; the invariant and what the core owes are the same at the next point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 (the decoder's pallas_call, an 8 × 8 grid, nine windows): windows 0 and 1 are the row blocks `i` and `j`
  of ONE array (the encoder's first result), so the two windows hold that array at the two halves of the full share;
  windows 2 to 7 hold small whole arrays fetched once; window 8 is the result's block `(i, j)`, written back at every
  point. Here: each window's block read off its array as the region finds it, what the body leaves in the output
  window's buffer as a function of the eight input blocks (the body's one store, over the generated payload terms),
  the pipeline's proof data, and the body obligation at a generic point.
-/
import proofs.«418623_j62843961475769_1_alg».proof.Proof.Gen.KernelIdeal.Launch
import proofs.«418623_j62843961475769_1_alg».proof.Proof.Gen.KernelIdeal.Skeleton
import proofs.«418623_j62843961475769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store is of a whole buffer -/

abbrev rM : Rect S128x64 := Rect.unit (s := S128x64) ![0, 0] S128x64.size inb_S128x64_S128x64_0_0
abbrev rB1 : Rect S1x64 := Rect.unit (s := S1x64) ![0, 0] S1x64.size inb_S1x64_S1x64_0_0
abbrev rW2 : Rect S64x64 := Rect.unit (s := S64x64) ![0, 0] S64x64.size inb_S64x64_S64x64_0_0
abbrev rW3 : Rect S64x4 := Rect.unit (s := S64x4) ![0, 0] S64x4.size inb_S64x4_S64x4_0_0
abbrev rB3 : Rect S1x4 := Rect.unit (s := S1x4) ![0, 0] S1x4.size inb_S1x4_S1x4_0_0
abbrev rO1 : Rect S128x128x4 := Rect.unit (s := S128x128x4) ![0, 0, 0] S128x128x4.size inb_S128x128x4_S128x128x4_0_0_0

/-! ## What the body leaves in the output window's buffer -/

/-- Window 8's staging buffer after the body: its one store, of the payload over the loads of windows 0 to 7. -/
def out1_8 (x0 x1 : Vec F S128x64 .f32) (x2 x3 : Vec F S1x64 .f32) (x4 : Vec F S64x64 .f32) (x5 : Vec F S1x64 .f32)
    (x6 : Vec F S64x4 .f32) (x7 : Vec F S1x4 .f32) : Vec F S128x128x4 .f32 :=
  View.canon [⟨rO1, k1_pay1 (k1_pay2 (View.ld x0 rM) (View.ld x1 rM) (View.ld x2 rB1) (View.ld x3 rB1) (View.ld x4 rW2)
    (View.ld x5 rB1) (View.ld x6 rW3)) (View.ld x7 rB3)⟩]

/-- The output's one store covers its buffer. -/
theorem cover1_O (p0 : Vec F S128x128x4 .f32) (y : S128x128x4.Idx) :
    ∃ pc ∈ ([⟨rO1, p0⟩] : List (View.Piece (Elt F) S128x128x4 .f32)), y ∈ pc.1.set :=
  View.cover_of_tiled [⟨rO1, p0⟩] S128x128x4.size (by rfl) y

/-! ## The pipeline's proof data -/

/-- The proof data of pipeline 1 on core `c`: the arrays as the region finds them; after the body each input's buffer
    at its block and the output's at its function of the input blocks; the class-A invariant; nothing owed; the two
    windows on the shared array at the two halves of the full share, every other window at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t)
        (iblk1 V c 6 t) (iblk1 V c 7 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t)
        (iblk1 V c 6 t) (iblk1 V c 7 t) := by dsimp only [dat1]

/-- The shares the windows' arrays are held at. -/
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]
theorem q1_7 (c : Dev nD) : (dat1 V c).q 7 = fullShare := by dsimp only [dat1]
theorem q1_8 (c : Dev nD) : (dat1 V c).q 8 = fullShare := by dsimp only [dat1]

/-! ## What the body finds in each input window's buffer -/

/-- Input window 0's current staging buffer holds its block at every point, fetched there or not, for any proof
    data whose array is `V`'s (`hA`) and whose body leaves the block in place (`hafter`): at a point where the window is
    not fetched its block index has not moved since the point before, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): at a point where the window is
    not fetched its block index has not moved since the point before, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): at a point where the window is
    not fetched its block index has not moved since the point before, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): at a point where the window is
    not fetched its block index has not moved since the point before, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): at a point where the window is
    not fetched its block index has not moved since the point before, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): at a point where the window is
    not fetched its block index has not moved since the point before, the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): at a point where the window is
    not fetched its block index has not moved since the point before, the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): at a point where the window is
    not fetched its block index has not moved since the point before, the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point of the grid. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body's triple -/

set_option maxHeartbeats 1000000 in
/-- The kernel body at any grid coordinates, on whole staging memrefs, the inputs' at read contents `x0` … `x7` and the
    output's at anything, runs to the continuation holding the inputs' as they were and the output's at `out1_8` of the
    inputs': the body is eight whole-buffer loads (seven in its part, which returns the decoder's pre-activation), a load
    of the output buffer whose value is not used, and one whole-buffer store of the payload over the loads. -/
theorem sound_kernel1 (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole)
    (arg8 : Memref sig .tc .vmem S64x4 .f32) (harg8 : arg8.IsWhole) (arg9 : Memref sig .tc .vmem S1x4 .f32) (harg9 : arg9.IsWhole) (arg10 : Memref sig .tc .vmem S128x128x4 .f32) (harg10 : arg10.IsWhole)
    (x0 x1 : Vec F S128x64 .f32) (x2 x3 : Vec F S1x64 .f32) (x4 : Vec F S64x64 .f32) (x5 : Vec F S1x64 .f32)
    (x6 : Vec F S64x4 .f32) (x7 : Vec F S1x4 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out1_8 x0 x1 x2 x3 x4 x5 x6 x7)) -∗ K ⟨⟩))
      ⊢ wp frame (wpE (defs₀ (F := F)) Variants.none c none) E (cc1__decode_classify_kernel i arg2 harg2 arg3 harg3 arg4 harg4 arg5 harg5 arg6 harg6 arg7 harg7 arg8 harg8 arg9 harg9 arg10 harg10) K := by
  simp only [cc1__decode_classify_kernel_eq_skeleton]; unfold cc1__decode_classify_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_O _)

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point of the 8 × 8 grid: the inputs' buffers hold their blocks (`before1_0` … `before1_7`), so
    `sound_kernel1` applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The body obligation -/

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Fold.lean ====
/-
  The contents of a core's buffers at each boundary of @main, as a fold from the launch memory: after each stretch of
  host operations the operations applied (`StableHlo.after`); after a region its arrays at what the pipeline's
  write-backs leave (the inputs as entered, each output's blocks folded in: `Dat.arrAt … N`), every other buffer as
  entered. Region 1's windows 0 and 1 read ONE array and write nothing, so its exit changes the result's array only.
-/
import proofs.«418623_j62843961475769_1_alg».proof.Proof.KI.Region0
import proofs.«418623_j62843961475769_1_alg».proof.Proof.KI.Region1

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
/-- After the diagonal's stretch. -/
abbrev W2 : Dev nD → Valuation τ sig (Elt F) := fun c => StableHlo.after hostOps0_1 (W1 m ρ c)
/-- After the third stretch: region 0's entry. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit. -/
def W4 (c : Dev nD) : Valuation τ sig (Elt F) :=
  Pipeline.withArrays spec0 c (W3 m ρ c) fun w => (dat0 (V3 m ρ) c).arrAt w cfg0.N
/-- After the stretch between the regions: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: the result's array at what the write-backs leave, every other buffer as entered. -/
def W6 (c : Dev nD) : Valuation τ sig (Elt F) :=
  Function.update (W5 m ρ c) (Proc.devRef .tc main_v54) ((dat1 (V5 m ρ) c).arrAt 8 cfg1.N)

theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W6_out (c : Dev nD) : W6 m ρ c (Proc.devRef .tc main_v54) = (dat1 (V5 m ρ) c).arrAt 8 cfg1.N := by
  unfold W6; exact Function.update_self ..
theorem W6_of_ne (c : Dev nD) (b : Ref sig .tc) (hb : b ≠ main_v54) :
    W6 m ρ c (Proc.devRef .tc b) = W5 m ρ c (Proc.devRef .tc b) := by
  unfold W6; exact Function.update_of_ne (StableHlo.devRef_ne_of_ne hb) _ _

end Cert.KernelIdeal.Hand

end
-- ==== Proof.KI.Run.lean ====
/-
  The run of @main on the TensorCores, from the launch to the return: three stretches of host operations, the
  encoder's region, one more stretch, the decoder's region. Between two items a core holds every unscoped buffer
  whole at the contents of that boundary (`W0` … `W6`), its generator register at some state, and owes nothing.
  A stretch of host operations runs from one boundary's contents to the next by applying its operations; a region
  takes its windows' arrays out of the unscoped buffers, runs its pipeline, and puts them back at what the
  write-backs leave. The decoder's windows 0 and 1 read ONE array: its full share is cut into its two halves when
  the region is entered, one half per window, and the halves are joined again when it is left, both windows being
  inputs and so holding the array at the contents they found. The launch over these six items gives the final
  memory at `W6` on every unscoped buffer; no item writes an argument array, so each ends as launched.
-/
import proofs.«418623_j62843961475769_1_alg».proof.Proof.KI.Fold
import proofs.«418623_j62843961475769_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each stretch of host operations leaves unchanged -/

/-- A reference no operation of the first stretch writes holds after it what it held before. -/
private theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
private theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
private theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
private theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- The contents at region 0's exit and at region 1's exit, read at the TensorCore's references. -/
private abbrev V4 : (c : Dev nD) → (b : Ref sig .tc) → Buf (Elt F) ((c : Thread nD τ).loc b) := fun c b => W4 m ρ c b
private abbrev V6 : (c : Dev nD) → (b : Ref sig .tc) → Buf (Elt F) ((c : Thread nD τ).loc b) := fun c b => W6 m ρ c b

/-- At region 0's exit each of its arrays holds what the pipeline leaves and every other buffer what it held at entry. -/
private theorem hF0 (c : Dev nD) (w : Fin cfg0.W) : (dat0 (V3 m ρ) c).arrAt w cfg0.N = V4 m ρ c (Pipeline.arrRef spec0 w) :=
  (W4_arr m ρ c w).symm
private theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-! ## No item writes an argument array

A host stretch writes its results only; region 0 reads arguments 0, 3, 5 and 7 through input windows, whose arrays
the pipeline never writes back; region 1 changes the result's array only. So the fold at an argument's buffer walks
back to the launch memory. -/
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <|
    ((W4_arr m ρ c 0).trans (((dat0 (V3 m ρ) c).arrAt_in 0 rfl _).trans (A_eq0 (V3 m ρ) c 0))).trans <|
    (W3_of m ρ c main_arg0 (by decide)).trans <|
    (W2_of m ρ c main_arg0 (by decide)).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <|
    (W4_of_ne m ρ c main_arg1 (by decide)).trans <| (W3_of m ρ c main_arg1 (by decide)).trans <|
    (W2_of m ρ c main_arg1 (by decide)).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <|
    (W4_of_ne m ρ c main_arg2 (by decide)).trans <| (W3_of m ρ c main_arg2 (by decide)).trans <|
    (W2_of m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <|
    ((W4_arr m ρ c 2).trans (((dat0 (V3 m ρ) c).arrAt_in 2 rfl _).trans (A_eq0 (V3 m ρ) c 2))).trans <|
    (W3_of m ρ c main_arg3 (by decide)).trans <|
    (W2_of m ρ c main_arg3 (by decide)).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <|
    (W4_of_ne m ρ c main_arg4 (by decide)).trans <| (W3_of m ρ c main_arg4 (by decide)).trans <|
    (W2_of m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <|
    ((W4_arr m ρ c 4).trans (((dat0 (V3 m ρ) c).arrAt_in 4 rfl _).trans (A_eq0 (V3 m ρ) c 4))).trans <|
    (W3_of m ρ c main_arg5 (by decide)).trans <|
    (W2_of m ρ c main_arg5 (by decide)).trans <| (W1_of m ρ c main_arg5 (by decide)).trans rfl
theorem W6_main_arg6 (c : Dev nD) : W6 m ρ c (Proc.devRef .tc main_arg6) = m ((c : Thread nD τ).loc main_arg6) :=
  (W6_of_ne m ρ c main_arg6 (by decide)).trans <| (W5_of m ρ c main_arg6 (by decide)).trans <|
    (W4_of_ne m ρ c main_arg6 (by decide)).trans <| (W3_of m ρ c main_arg6 (by decide)).trans <|
    (W2_of m ρ c main_arg6 (by decide)).trans <| (W1_of m ρ c main_arg6 (by decide)).trans rfl
theorem W6_main_arg7 (c : Dev nD) : W6 m ρ c (Proc.devRef .tc main_arg7) = m ((c : Thread nD τ).loc main_arg7) :=
  (W6_of_ne m ρ c main_arg7 (by decide)).trans <| (W5_of m ρ c main_arg7 (by decide)).trans <|
    ((W4_arr m ρ c 6).trans (((dat0 (V3 m ρ) c).arrAt_in 6 rfl _).trans (A_eq0 (V3 m ρ) c 6))).trans <|
    (W3_of m ρ c main_arg7 (by decide)).trans <|
    (W2_of m ρ c main_arg7 (by decide)).trans <| (W1_of m ρ c main_arg7 (by decide)).trans rfl
theorem W6_main_arg8 (c : Dev nD) : W6 m ρ c (Proc.devRef .tc main_arg8) = m ((c : Thread nD τ).loc main_arg8) :=
  (W6_of_ne m ρ c main_arg8 (by decide)).trans <| (W5_of m ρ c main_arg8 (by decide)).trans <|
    (W4_of_ne m ρ c main_arg8 (by decide)).trans <| (W3_of m ρ c main_arg8 (by decide)).trans <|
    (W2_of m ρ c main_arg8 (by decide)).trans <| (W1_of m ρ c main_arg8 (by decide)).trans rfl
theorem W6_main_arg9 (c : Dev nD) : W6 m ρ c (Proc.devRef .tc main_arg9) = m ((c : Thread nD τ).loc main_arg9) :=
  (W6_of_ne m ρ c main_arg9 (by decide)).trans <| (W5_of m ρ c main_arg9 (by decide)).trans <|
    (W4_of_ne m ρ c main_arg9 (by decide)).trans <| (W3_of m ρ c main_arg9 (by decide)).trans <|
    (W2_of m ρ c main_arg9 (by decide)).trans <| (W1_of m ρ c main_arg9 (by decide)).trans rfl
theorem W6_main_arg10 (c : Dev nD) : W6 m ρ c (Proc.devRef .tc main_arg10) = m ((c : Thread nD τ).loc main_arg10) :=
  (W6_of_ne m ρ c main_arg10 (by decide)).trans <| (W5_of m ρ c main_arg10 (by decide)).trans <|
    (W4_of_ne m ρ c main_arg10 (by decide)).trans <| (W3_of m ρ c main_arg10 (by decide)).trans <|
    (W2_of m ρ c main_arg10 (by decide)).trans <| (W1_of m ρ c main_arg10 (by decide)).trans rfl
theorem W6_main_arg11 (c : Dev nD) : W6 m ρ c (Proc.devRef .tc main_arg11) = m ((c : Thread nD τ).loc main_arg11) :=
  (W6_of_ne m ρ c main_arg11 (by decide)).trans <| (W5_of m ρ c main_arg11 (by decide)).trans <|
    (W4_of_ne m ρ c main_arg11 (by decide)).trans <| (W3_of m ρ c main_arg11 (by decide)).trans <|
    (W2_of m ρ c main_arg11 (by decide)).trans <| (W1_of m ρ c main_arg11 (by decide)).trans rfl
theorem W6_main_arg12 (c : Dev nD) : W6 m ρ c (Proc.devRef .tc main_arg12) = m ((c : Thread nD τ).loc main_arg12) :=
  (W6_of_ne m ρ c main_arg12 (by decide)).trans <| (W5_of m ρ c main_arg12 (by decide)).trans <|
    (W4_of_ne m ρ c main_arg12 (by decide)).trans <| (W3_of m ρ c main_arg12 (by decide)).trans <|
    (W2_of m ρ c main_arg12 (by decide)).trans <| (W1_of m ρ c main_arg12 (by decide)).trans rfl
theorem W6_main_arg13 (c : Dev nD) : W6 m ρ c (Proc.devRef .tc main_arg13) = m ((c : Thread nD τ).loc main_arg13) :=
  (W6_of_ne m ρ c main_arg13 (by decide)).trans <| (W5_of m ρ c main_arg13 (by decide)).trans <|
    (W4_of_ne m ρ c main_arg13 (by decide)).trans <| (W3_of m ρ c main_arg13 (by decide)).trans <|
    (W2_of m ρ c main_arg13 (by decide)).trans <| (W1_of m ρ c main_arg13 (by decide)).trans rfl
theorem W6_main_arg14 (c : Dev nD) : W6 m ρ c (Proc.devRef .tc main_arg14) = m ((c : Thread nD τ).loc main_arg14) :=
  (W6_of_ne m ρ c main_arg14 (by decide)).trans <| (W5_of m ρ c main_arg14 (by decide)).trans <|
    (W4_of_ne m ρ c main_arg14 (by decide)).trans <| (W3_of m ρ c main_arg14 (by decide)).trans <|
    (W2_of m ρ c main_arg14 (by decide)).trans <| (W1_of m ρ c main_arg14 (by decide)).trans rfl

/-- The encoder's two results reach the end as region 0 leaves them, and the first of them is what region 1 reads. -/
theorem V5_main_v48_0 (c : Dev nD) : V5 m ρ c main_v48_0 = (dat0 (V3 m ρ) c).arrAt 8 cfg0.N :=
  (W5_of m ρ c main_v48_0 (by decide)).trans (W4_arr m ρ c 8)
theorem W6_main_v48_0 (c : Dev nD) : W6 m ρ c (Proc.devRef .tc main_v48_0) = (dat0 (V3 m ρ) c).arrAt 8 cfg0.N :=
  (W6_of_ne m ρ c main_v48_0 (by decide)).trans (V5_main_v48_0 m ρ c)
theorem W6_main_v48_1 (c : Dev nD) : W6 m ρ c (Proc.devRef .tc main_v48_1) = (dat0 (V3 m ρ) c).arrAt 9 cfg0.N :=
  (W6_of_ne m ρ c main_v48_1 (by decide)).trans <| (W5_of m ρ c main_v48_1 (by decide)).trans (W4_arr m ρ c 9)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)
/-- A stretch of host operations over the unscoped references from the contents `W`, `R` riding along: it runs to
    those references at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W3`, left at `W4`. Its ten arrays are
    distinct buffers: they are split out of the unscoped buffers at entry and put back at the exit contents; the
    generator register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1's arrays in and out of the unscoped buffers

Windows 0 and 1 are on one array, so the region's arrays are eight distinct buffers for nine windows. -/

/-- The buffers behind region 1's nine windows are eight: window 1's is window 0's. -/
private abbrev arrList1 : List (Ref sig .tc) :=
  [Pipeline.arrRef spec1 (0 : Fin 9),
      Pipeline.arrRef spec1 (2 : Fin 9),
      Pipeline.arrRef spec1 (3 : Fin 9),
      Pipeline.arrRef spec1 (4 : Fin 9),
      Pipeline.arrRef spec1 (5 : Fin 9),
      Pipeline.arrRef spec1 (6 : Fin 9),
      Pipeline.arrRef spec1 (7 : Fin 9),
      Pipeline.arrRef spec1 (8 : Fin 9)]
private theorem arrImage1 : Finset.univ.image (Pipeline.arrRef spec1) = arrList1.toFinset := by decide
private theorem arrNodup1 : arrList1.Nodup := by decide

/-- Those eight buffers, each whole at the full share at contents `V`, one by one. -/
private theorem arrBufs1_open (c : Dev nD) (V : (b : Ref sig .tc) → Buf (Elt F) ((c.tc : Thread nD τ).loc b)) :
    (Pipeline.arrBufs spec1 c V : sProp 𝕄)
      = iprop(((c.tc : Thread nD τ).loc (Pipeline.arrRef spec1 (0 : Fin 9)) ↦{fullShare} V (Pipeline.arrRef spec1 (0 : Fin 9)))
        ∗ ((c.tc : Thread nD τ).loc (Pipeline.arrRef spec1 (2 : Fin 9)) ↦{fullShare} V (Pipeline.arrRef spec1 (2 : Fin 9)))
        ∗ ((c.tc : Thread nD τ).loc (Pipeline.arrRef spec1 (3 : Fin 9)) ↦{fullShare} V (Pipeline.arrRef spec1 (3 : Fin 9)))
        ∗ ((c.tc : Thread nD τ).loc (Pipeline.arrRef spec1 (4 : Fin 9)) ↦{fullShare} V (Pipeline.arrRef spec1 (4 : Fin 9)))
        ∗ ((c.tc : Thread nD τ).loc (Pipeline.arrRef spec1 (5 : Fin 9)) ↦{fullShare} V (Pipeline.arrRef spec1 (5 : Fin 9)))
        ∗ ((c.tc : Thread nD τ).loc (Pipeline.arrRef spec1 (6 : Fin 9)) ↦{fullShare} V (Pipeline.arrRef spec1 (6 : Fin 9)))
        ∗ ((c.tc : Thread nD τ).loc (Pipeline.arrRef spec1 (7 : Fin 9)) ↦{fullShare} V (Pipeline.arrRef spec1 (7 : Fin 9)))
        ∗ ((c.tc : Thread nD τ).loc (Pipeline.arrRef spec1 (8 : Fin 9)) ↦{fullShare} V (Pipeline.arrRef spec1 (8 : Fin 9)))) := by
  unfold Pipeline.arrBufs
  exact bigSep_eq_bigSepL_of_eq arrList1 arrImage1 arrNodup1 _

section
variable (V : (c : Dev nD) → (b : Ref sig .tc) → Buf (Elt F) ((c : Thread nD τ).loc b))

/-- The share each window's array is held at: the two halves for the two windows on the shared array, the full
    share for the other inputs (their proof data's) and for the output (an output's always). -/
private theorem share1_0 (c : Dev nD) : (dat1 V c).share 0 = fullShare.left := by
  unfold Dat.share; exact (if_neg (by decide)).trans (q1_0 V c)
private theorem share1_1 (c : Dev nD) : (dat1 V c).share 1 = fullShare.right := by
  unfold Dat.share; exact (if_neg (by decide)).trans (q1_1 V c)
private theorem share1_2 (c : Dev nD) : (dat1 V c).share 2 = fullShare := by
  unfold Dat.share; exact (if_neg (by decide)).trans (q1_2 V c)
private theorem share1_3 (c : Dev nD) : (dat1 V c).share 3 = fullShare := by
  unfold Dat.share; exact (if_neg (by decide)).trans (q1_3 V c)
private theorem share1_4 (c : Dev nD) : (dat1 V c).share 4 = fullShare := by
  unfold Dat.share; exact (if_neg (by decide)).trans (q1_4 V c)
private theorem share1_5 (c : Dev nD) : (dat1 V c).share 5 = fullShare := by
  unfold Dat.share; exact (if_neg (by decide)).trans (q1_5 V c)
private theorem share1_6 (c : Dev nD) : (dat1 V c).share 6 = fullShare := by
  unfold Dat.share; exact (if_neg (by decide)).trans (q1_6 V c)
private theorem share1_7 (c : Dev nD) : (dat1 V c).share 7 = fullShare := by
  unfold Dat.share; exact (if_neg (by decide)).trans (q1_7 V c)
private theorem share1_8 (c : Dev nD) : (dat1 V c).share 8 = fullShare := by
  unfold Dat.share; exact if_pos (by decide)

/-- Every window's array is a whole buffer: its view's elements are all of them. -/
private theorem set1 (w : Fin cfg1.W) : (cfg1.win w).arr.view.set = Finset.univ := (arr_whole1 w).set_eq_univ

/-- Region 1's windowed arrays at contents `G`, window by window: each a whole buffer at its share. -/
private theorem arrays1_open (c : Dev nD) (G : (w : Fin 9) → Buf (Elt F) ((c.tc : Thread nD τ).loc (Pipeline.arrRef spec1 w))) :
    ((dat1 V c).arrays G : sProp 𝕄)
      = iprop(((c.tc : Thread nD τ).loc (Pipeline.arrRef spec1 (0 : Fin 9)) ↦{fullShare.left} G (0 : Fin 9))
        ∗ ((c.tc : Thread nD τ).loc (Pipeline.arrRef spec1 (1 : Fin 9)) ↦{fullShare.right} G (1 : Fin 9))
        ∗ ((c.tc : Thread nD τ).loc (Pipeline.arrRef spec1 (2 : Fin 9)) ↦{fullShare} G (2 : Fin 9))
        ∗ ((c.tc : Thread nD τ).loc (Pipeline.arrRef spec1 (3 : Fin 9)) ↦{fullShare} G (3 : Fin 9))
        ∗ ((c.tc : Thread nD τ).loc (Pipeline.arrRef spec1 (4 : Fin 9)) ↦{fullShare} G (4 : Fin 9))
        ∗ ((c.tc : Thread nD τ).loc (Pipeline.arrRef spec1 (5 : Fin 9)) ↦{fullShare} G (5 : Fin 9))
        ∗ ((c.tc : Thread nD τ).loc (Pipeline.arrRef spec1 (6 : Fin 9)) ↦{fullShare} G (6 : Fin 9))
        ∗ ((c.tc : Thread nD τ).loc (Pipeline.arrRef spec1 (7 : Fin 9)) ↦{fullShare} G (7 : Fin 9))
        ∗ ((c.tc : Thread nD τ).loc (Pipeline.arrRef spec1 (8 : Fin 9)) ↦{fullShare} G (8 : Fin 9))) := by
  have h : ((dat1 V c).arrays G : sProp 𝕄)
      = bigSep Finset.univ fun w : Fin 9 => ((c.tc : Thread nD τ).loc (Pipeline.arrRef spec1 w) ↦{(dat1 V c).share w} G w) := by
    unfold Dat.arrays; exact bigSep_congr fun w _ => by rw [set1 w]
  rewrite [h, bigSep_W1, share1_0, share1_1, share1_2, share1_3, share1_4, share1_5, share1_6, share1_7, share1_8]
  rfl

/-- An input window's array is never written back: at every point it holds what the region found in it. -/
private theorem arrAt1_in (c : Dev nD) (w : Fin 9) (hin : (cfg1.win w).isOut = false) (t : Nat) :
    (dat1 V c).arrAt w t = V c (Pipeline.arrRef spec1 w) :=
  ((dat1 V c).arrAt_in w hin t).trans (A_eq1 V c w)
end

set_option maxHeartbeats 400000 in
/-- ENTRY: the unscoped buffers at region 1's entry contents are its windows' arrays at the proof data's entry
    contents, the shared array's full share cut into its two halves, and the unscoped rest. -/
theorem entry1 (c : Dev nD) :
    (unscopedBufs c (V5 m ρ c) : sProp 𝕄)
      ⊢ iprop((dat1 (V5 m ρ) c).arrays ((dat1 (V5 m ρ) c).arrAt · 0)
          ∗ Pipeline.unscopedRest (Ix := Unit) (Name := ℕ) (U := UR sig nD τ) (Lvl := ℕ) spec1 c (V5 m ρ c)) := by
  refine (Entails.of_eq (Pipeline.unscopedBufs_split₀ (Ix := Unit) (Name := ℕ) (U := UR sig nD τ) (Lvl := ℕ)
    cfgs 1 winFacts₀1.arr_unscoped c (V5 m ρ c))).trans (sep_mono ?_ .rfl)
  refine (Entails.of_eq (arrBufs1_open c (V5 m ρ c))).trans
    (BIBase.Entails.trans ?_ (Entails.of_eq (arrays1_open (V5 m ρ) c fun w => V5 m ρ c (Pipeline.arrRef spec1 w)).symm))
  iintro ⟨H0, H2, H3, H4, H5, H6, H7, H8⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Region 1 changes the result's array only: every other buffer holds at its exit what it held at its entry. -/
private theorem V6_in (c : Dev nD) (b : Ref sig .tc) (hb : b ≠ main_v54) : V6 m ρ c b = V5 m ρ c b := W6_of_ne m ρ c b hb

set_option maxHeartbeats 2000000 in
/-- What the pipeline leaves in each window's array is the exit contents there: an input's array as found, which the
    exit contents keep; the result's array at its write-backs folded in, which the exit contents are defined to hold. -/
private theorem arrAt1_N (c : Dev nD) : ∀ w : Fin 9, (dat1 (V5 m ρ) c).arrAt w cfg1.N = V6 m ρ c (Pipeline.arrRef spec1 w)
  | 0 => (arrAt1_in (V5 m ρ) c 0 rfl _).trans (V6_in m ρ c _ (by decide)).symm
  | 1 => (arrAt1_in (V5 m ρ) c 1 rfl _).trans (V6_in m ρ c _ (by decide)).symm
  | 2 => (arrAt1_in (V5 m ρ) c 2 rfl _).trans (V6_in m ρ c _ (by decide)).symm
  | 3 => (arrAt1_in (V5 m ρ) c 3 rfl _).trans (V6_in m ρ c _ (by decide)).symm
  | 4 => (arrAt1_in (V5 m ρ) c 4 rfl _).trans (V6_in m ρ c _ (by decide)).symm
  | 5 => (arrAt1_in (V5 m ρ) c 5 rfl _).trans (V6_in m ρ c _ (by decide)).symm
  | 6 => (arrAt1_in (V5 m ρ) c 6 rfl _).trans (V6_in m ρ c _ (by decide)).symm
  | 7 => (arrAt1_in (V5 m ρ) c 7 rfl _).trans (V6_in m ρ c _ (by decide)).symm
  | 8 => (W6_out m ρ c).symm
  | ⟨_ + 9, h⟩ => absurd h (Nat.not_lt.2 (Nat.le_add_left _ _))

set_option maxHeartbeats 400000 in
/-- EXIT: the windows' arrays at what the pipeline leaves, the two halves of the shared array joined again, and the
    unscoped rest are the unscoped buffers at region 1's exit contents. -/
theorem exit1 (c : Dev nD) :
    iprop((dat1 (V5 m ρ) c).arrays ((dat1 (V5 m ρ) c).arrAt · cfg1.N)
        ∗ Pipeline.unscopedRest (Ix := Unit) (Name := ℕ) (U := UR sig nD τ) (Lvl := ℕ) spec1 c (V5 m ρ c))
      ⊢ (unscopedBufs c (V6 m ρ c) : sProp 𝕄) := by
  refine BIBase.Entails.trans (BIClass.sep_mono ?_ ?_) (Entails.of_eq (Pipeline.unscopedBufs_split₀ (Ix := Unit) (Name := ℕ) (U := UR sig nD τ) (Lvl := ℕ)
    cfgs 1 winFacts₀1.arr_unscoped c (V6 m ρ c)).symm)
  · rw [show ((dat1 (V5 m ρ) c).arrAt · cfg1.N) = fun w => V6 m ρ c (Pipeline.arrRef spec1 w) from funext (arrAt1_N m ρ c)]
    refine (Entails.of_eq (arrays1_open (V5 m ρ) c fun w => V6 m ρ c (Pipeline.arrRef spec1 w))).trans
      (BIBase.Entails.trans ?_ (Entails.of_eq (arrBufs1_open c (V6 m ρ c)).symm))
    iintro ⟨H0, H1, H2, H3, H4, H5, H6, H7, H8⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    iexact H8
  · unfold Pipeline.unscopedRest
    exact Entails.of_eq (bigSep_congr fun b hb => by
      rw [V6_in m ρ c b fun e => (Finset.mem_sdiff.mp hb).2 (e ▸ Finset.mem_image.mpr ⟨8, Finset.mem_univ _, rfl⟩)])

set_option backward.isDefEq.respectTransparency.types false in
/-- Region 1 over the thread state: entered from every unscoped buffer at `W5`, left at `W6` (what the launch reads
    at the end). Its arrays go out of the unscoped buffers by `entry1` and back by `exit1`; the generator register
    goes into the invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's six items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]

/-- @main is the run of the segments: it is the chain of its six items, and so is the segments' run. -/
theorem main_run (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()) ] from rfl]
  rfl

set_option backward.isDefEq.respectTransparency.types false in
/-- THE RUN: from any memory with zero counters, every weakly fair execution of @main on the TensorCores terminates,
    nothing faulting, and every final memory holds each unscoped buffer at the last boundary's contents `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every weakly fair execution of @main terminates and every final memory has the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩) (run_main m ρ)

end Cert.KernelIdeal.Hand

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.Spec.lean ====
/-
  The mathematics of the certificate, over curried index types: a graph-convolution encoder in two arrangements and
  the pairwise decoder.

  An edge list is two arrays of 32-bit words, `src` and `dst`, of 32768 entries over 1024 nodes. A word is read signed,
  a negative word wraps once by 1024 (`wrapW`), and then it either names a node (`tgt`, the word in `[0, 1024)`) or, as a
  read position, is clamped into the node range (`cl`). The in-degree with a self loop is `deg`, its reciprocal square
  root `dis`, an edge's weight `nrm`.

  A layer in the MESSAGE form (`layerR`): node `i` receives, from every edge that names it as destination, the source
  row scaled by the edge's weight, plus its own row scaled by `dis i * dis i`, plus the bias. A layer in the MATRIX form
  (`layerK`): the row of a dense normalised adjacency matrix (`AhatK`: the weights of the edges `j → i`, added up, plus the
  diagonal `dis i * dis i`) times the feature matrix, plus the bias. When every source word names a node and the features
  are real numbers the two forms are one function (`layer_eq`): the product distributes over the finite sums.

  The decoder (`dec`) is pointwise in the pair of nodes: a logistic of an inner product, two affine maps each followed
  by a maximum with zero, a last affine map and a logistic.
-/
import Idealize.ShloMosaic.PureOps.Ideal
import Idealize.ShloMosaic.PureOps.Ideal.Laws
import Idealize.ShloMosaic.Lib.ValueIdx
import proofs.«418623_j62843961475769_1_alg».proof.Proof.LibAllReal

noncomputable section

namespace Cert.Spec

open Idealize.ShloMosaic Idealize.ShloMosaic.ValueIdx
open scoped BigOperators

/-! ## Edge words -/

/-- A word read signed, a negative one wrapped once by the number of nodes. -/
def wrapW (v : BitVec 32) : Int := if v.toInt < 0 then v.toInt + 1024 else v.toInt

/-- The node an edge word names, when it names one. -/
def tgt (v : (⟨1, ![32768]⟩ : Shape).Idx → BitVec 32) (e : Fin 32768) : Option (Fin 1024) :=
  if h : 0 ≤ wrapW (v (ix1 e)) ∧ wrapW (v (ix1 e)) < 1024 then some ⟨(wrapW (v (ix1 e))).toNat, by omega⟩ else none

/-- The node an edge word reads: the wrapped word clamped into the node range. -/
def cl (v : (⟨1, ![32768]⟩ : Shape).Idx → BitVec 32) (e : Fin 32768) : Fin 1024 :=
  ⟨min (wrapW (v (ix1 e))).toNat 1023, by omega⟩

/-- Every word of the array names a node without wrapping. -/
def InRange (v : (⟨1, ![32768]⟩ : Shape).Idx → BitVec 32) : Prop := ∀ e : Fin 32768, 0 ≤ (v (ix1 e)).toInt ∧ (v (ix1 e)).toInt < 1024

theorem tgt_of_inRange {v : (⟨1, ![32768]⟩ : Shape).Idx → BitVec 32} (h : InRange v) (e : Fin 32768) : tgt v e = some (cl v e) := by
  obtain ⟨h0, h1⟩ := h e
  -- a non-negative word is not wrapped
  have hw : wrapW (v (ix1 e)) = (v (ix1 e)).toInt := by
    unfold wrapW
    rw [if_neg (not_lt.mpr h0)]
  unfold tgt
  split
  · -- the word names a node: below 1024 the clamp does nothing
    rename_i hc
    simp only [cl, Option.some.injEq, Fin.mk.injEq]
    omega
  · rename_i hc
    exact absurd ⟨hw ▸ h0, hw ▸ h1⟩ hc

/-! ## Degrees and weights -/

variable (src dst : (⟨1, ![32768]⟩ : Shape).Idx → BitVec 32)

/-- In-degree plus the self loop. -/
def deg (i : Fin 1024) : EReal := 1 + ∑ _e ∈ Finset.univ.filter (fun e : Fin 32768 => tgt dst e = some i), (1 : EReal)

def dis (i : Fin 1024) : EReal := Ideal.rsqrt (deg dst i)

def nrm (e : Fin 32768) : EReal := dis dst (cl src e) * dis dst (cl dst e)

/-- A finite sum of ones is a non-negative real number. -/
theorem sum_ones_real {ι : Type} (s : Finset ι) : ∃ r : ℝ, 0 ≤ r ∧ ∑ _e ∈ s, (1 : EReal) = (r : EReal) := by
  classical
  induction s using Finset.induction_on with
  | empty => exact ⟨0, le_refl _, by simp⟩
  | insert a s ha ih =>
    obtain ⟨r, hr, hs⟩ := ih
    exact ⟨1 + r, by linarith, by rw [Finset.sum_insert ha, hs, EReal.coe_add, EReal.coe_one]⟩

/-- The degree is a positive real number: one plus a count. -/
theorem deg_pos (i : Fin 1024) : ∃ r : ℝ, 0 < r ∧ deg dst i = (r : EReal) := by
  obtain ⟨r, hr, hs⟩ := sum_ones_real (Finset.univ.filter (fun e : Fin 32768 => tgt dst e = some i))
  exact ⟨1 + r, by linarith, by unfold deg; rw [hs, EReal.coe_add, EReal.coe_one]⟩

/-- The reciprocal square root of a positive real `r` is the positive real `(√r)⁻¹`. -/
theorem dis_pos (i : Fin 1024) : ∃ r : ℝ, 0 < r ∧ dis dst i = (r : EReal) := by
  obtain ⟨r, hr, hd⟩ := deg_pos dst i
  refine ⟨(Real.sqrt r)⁻¹, inv_pos.mpr (Real.sqrt_pos.mpr hr), ?_⟩
  unfold dis
  rw [hd, Ideal.rsqrt_coe, if_neg (not_lt.mpr hr.le), if_neg hr.ne']

theorem dis_real (i : Fin 1024) : ∃ r : ℝ, dis dst i = (r : EReal) := by
  obtain ⟨r, _, hr⟩ := dis_pos dst i
  exact ⟨r, hr⟩

theorem nrm_real (e : Fin 32768) : ∃ r : ℝ, nrm src dst e = (r : EReal) := by
  obtain ⟨a, ha⟩ := dis_real dst (cl src e)
  obtain ⟨b, hb⟩ := dis_real dst (cl dst e)
  exact ⟨a * b, by unfold nrm; rw [ha, hb, EReal.coe_mul]⟩

/-! ## A layer, in its two forms -/

/-- Message form. -/
def layerR (h : Fin 1024 → Fin 64 → EReal) (b : Fin 64 → EReal) (i : Fin 1024) (k : Fin 64) : EReal :=
  ((0 + ∑ e ∈ Finset.univ.filter (fun e : Fin 32768 => tgt dst e = some i), h (cl src e) k * nrm src dst e)
      + h i k * (dis dst i * dis dst i)) + b k

/-- The dense normalised adjacency matrix. -/
def AhatK (i j : Fin 1024) : EReal :=
  (0 + ∑ e ∈ Finset.univ.filter (fun e : Fin 32768 => tgt dst e = some i ∧ tgt src e = some j), nrm src dst e)
    + (if i = j then dis dst i * dis dst i else 0)

/-- Matrix form. -/
def layerK (A : Fin 1024 → Fin 1024 → EReal) (h : Fin 1024 → Fin 64 → EReal) (b : Fin 64 → EReal) (i : Fin 1024) (k : Fin 64) : EReal :=
  (∑ j : Fin 1024, A i j * h j k) + b k

/-- Real-valued tables. -/
def Real2 {p q : Nat} (h : Fin p → Fin q → EReal) : Prop := ∀ i k, ∃ r : ℝ, h i k = (r : EReal)
def Real1 {q : Nat} (b : Fin q → EReal) : Prop := ∀ k, ∃ r : ℝ, b k = (r : EReal)

/-- The inclusion of the reals in the extended reals carries a finite sum to the finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Regrouping by fibres, in the reals: a sum over the edges `e` with `P e` of `g (c e) * n e` is the sum over the
    values `j` of `c` of (the sum of `n e` over the edges with `P e` and `c e = j`) times `g j`. -/
theorem fibre_sum {ε ν : Type} [Fintype ε] [Fintype ν] [DecidableEq ν] (P : ε → Prop) [DecidablePred P]
    (c : ε → ν) (n : ε → ℝ) (g : ν → ℝ) :
    ∑ j : ν, (∑ e ∈ Finset.univ.filter (fun e => P e ∧ c e = j), n e) * g j
      = ∑ e ∈ Finset.univ.filter P, g (c e) * n e := by
  rw [← Finset.sum_fiberwise (Finset.univ.filter P) c (fun e => g (c e) * n e)]
  refine Finset.sum_congr rfl (fun j _ => ?_)
  rw [Finset.sum_mul, Finset.filter_filter]
  refine Finset.sum_congr rfl (fun e he => ?_)
  rw [(Finset.mem_filter.mp he).2.2, mul_comm]

/-- THE LAW: with every source word naming a node and real features, the matrix form is the message form. -/
theorem layer_eq (hs : InRange src) {h : Fin 1024 → Fin 64 → EReal} (hh : Real2 h) (b : Fin 64 → EReal) :
    layerK (AhatK src dst) h b = layerR src dst h b := by
  funext i k
  -- real witnesses for the features, the edge weights and the diagonal weight
  choose hr hhr using hh
  choose nr hnr using nrm_real src dst
  obtain ⟨d, hd⟩ := dis_real dst i
  -- an edge's source word names `j` exactly when it reads `j`
  have hF : ∀ j : Fin 1024, Finset.univ.filter (fun e : Fin 32768 => tgt dst e = some i ∧ tgt src e = some j)
      = Finset.univ.filter (fun e : Fin 32768 => tgt dst e = some i ∧ cl src e = j) := by
    intro j
    refine Finset.filter_congr (fun e _ => ?_)
    rw [tgt_of_inRange hs e, Option.some.injEq]
  -- the matrix entry times the feature, as a real number
  have L : ∀ j : Fin 1024, AhatK src dst i j * h j k
      = (((∑ e ∈ Finset.univ.filter (fun e : Fin 32768 => tgt dst e = some i ∧ cl src e = j), nr e)
          + (if i = j then d * d else 0)) * hr j k : ℝ) := by
    intro j
    unfold AhatK
    rw [zero_add, hF j, Finset.sum_congr rfl (fun e _ => hnr e), ← coe_sum, hd, hhr j k]
    by_cases hij : i = j
    · rw [if_pos hij, if_pos hij, ← EReal.coe_mul, ← EReal.coe_add, ← EReal.coe_mul]
    · rw [if_neg hij, if_neg hij, add_zero, add_zero, ← EReal.coe_mul]
  -- a message, as a real number
  have R : ∀ e : Fin 32768, h (cl src e) k * nrm src dst e = ((hr (cl src e) k * nr e : ℝ) : EReal) := by
    intro e
    rw [hhr, hnr, EReal.coe_mul]
  unfold layerK layerR
  refine congrArg (fun t => t + b k) ?_
  rw [Finset.sum_congr rfl (fun j _ => L j), ← coe_sum, zero_add, Finset.sum_congr rfl (fun e _ => R e), ← coe_sum,
    hhr i k, hd, ← EReal.coe_mul, ← EReal.coe_mul, ← EReal.coe_add, EReal.coe_eq_coe_iff]
  -- the identity in the reals: distribute, regroup the double sum by the node an edge reads, collapse the diagonal
  simp only [add_mul, Finset.sum_add_distrib]
  rw [fibre_sum (fun e : Fin 32768 => tgt dst e = some i) (cl src) nr (fun j => hr j k), add_right_inj]
  simp only [ite_mul, zero_mul, Finset.sum_ite_eq, Finset.mem_univ, if_true]
  ring

theorem layerR_real {h : Fin 1024 → Fin 64 → EReal} (hh : Real2 h) {b : Fin 64 → EReal} (hb : Real1 b) :
    Real2 (layerR src dst h b) := by
  intro i k
  obtain ⟨s, hs⟩ := exists_real_sum (Finset.univ.filter (fun e : Fin 32768 => tgt dst e = some i))
    (fun e => h (cl src e) k * nrm src dst e) (fun e _ => by
      obtain ⟨a, ha⟩ := hh (cl src e) k
      obtain ⟨n, hn⟩ := nrm_real src dst e
      exact ⟨a * n, by rw [ha, hn, EReal.coe_mul]⟩)
  obtain ⟨a, ha⟩ := hh i k
  obtain ⟨d, hd⟩ := dis_real dst i
  obtain ⟨c, hc⟩ := hb k
  exact ⟨s + a * (d * d) + c, by
    unfold layerR
    rw [zero_add, hs, ha, hd, hc, EReal.coe_add, EReal.coe_add, EReal.coe_mul, EReal.coe_mul]⟩

/-! ## The encoder -/

/-- A feature matrix times a weight matrix. -/
def mm {K : Nat} (x : Fin 1024 → Fin K → EReal) (W : Fin K → Fin 64 → EReal) (i : Fin 1024) (k : Fin 64) : EReal :=
  ∑ f : Fin K, x i f * W f k

theorem mm_real {K : Nat} {x : Fin 1024 → Fin K → EReal} (hx : Real2 x) {W : Fin K → Fin 64 → EReal} (hW : Real2 W) : Real2 (mm x W) := by
  intro i k
  unfold mm
  refine exists_real_sum _ _ (fun f _ => ?_)
  obtain ⟨a, ha⟩ := hx i f
  obtain ⟨w, hw⟩ := hW f k
  exact ⟨a * w, by rw [ha, hw, EReal.coe_mul]⟩

variable (x : Fin 1024 → Fin 256 → EReal) (W1 : Fin 256 → Fin 64 → EReal) (b1 : Fin 64 → EReal)
  (W2 : Fin 64 → Fin 64 → EReal) (b2 : Fin 64 → EReal)

def z1R := layerR src dst (mm x W1) b1
def outR := layerR src dst (mm (z1R src dst x W1 b1) W2) b2
def z1K := layerK (AhatK src dst) (mm x W1) b1
def outK := layerK (AhatK src dst) (mm (z1K src dst x W1 b1) W2) b2

/-- The two-layer encoder in matrix form is the one in message form (used for `mu` and, with the third weight
    matrix and bias, for `logvar`). -/
theorem out_eq (hs : InRange src) (hx : Real2 x) (hW1 : Real2 W1) (hb1 : Real1 b1) (hW2 : Real2 W2) :
    outK src dst x W1 b1 W2 b2 = outR src dst x W1 b1 W2 b2 := by
  -- the first layer's two forms agree, and its message form is real-valued: so the second layer's forms agree
  have h1 : z1K src dst x W1 b1 = z1R src dst x W1 b1 := layer_eq src dst hs (mm_real hx hW1) b1
  have hz : Real2 (z1R src dst x W1 b1) := layerR_real src dst (mm_real hx hW1) hb1
  unfold outK outR
  rw [h1]
  exact layer_eq src dst hs (mm_real hz hW2) b2

/-! ## The decoder -/

/-- The first classifier weight summed over its four rows. -/
def wsum (Wc1 : Fin 4 → Fin 64 → EReal) (h : Fin 64) : EReal := 0 + ∑ r : Fin 4, Wc1 r h

def dec (mu : Fin 1024 → Fin 64 → EReal) (w1 bc1 : Fin 64 → EReal) (Wc2 : Fin 64 → Fin 64 → EReal) (bc2 : Fin 64 → EReal)
    (Wc3 : Fin 64 → Fin 4 → EReal) (bc3 : Fin 4 → EReal) (n m : Fin 1024) (c : Fin 4) : EReal :=
  Ideal.logistic ((∑ k : Fin 64,
      max ((∑ h : Fin 64, max (Ideal.logistic (∑ g : Fin 64, mu n g * mu m g) * w1 h + bc1 h) 0 * Wc2 h k) + bc2 k) 0 * Wc3 k c)
    + bc3 c)

end Cert.Spec

end
-- ==== Proof.Cur.lean ====
/-
  Arrays over literal shapes read as curried tables, the form the certificate's mathematics is stated over.
-/
import proofs.«418623_j62843961475769_1_alg».proof.Proof.Spec

noncomputable section

namespace Cert.Spec

open Idealize.ShloMosaic Idealize.ShloMosaic.ValueIdx

/-- A rank-2 array as a table of its two coordinates. -/
def cur2 {α : Type} {p q : Nat} (a : (⟨2, ![p, q]⟩ : Shape).Idx → α) : Fin p → Fin q → α := fun i j => a (ix2 i j)
/-- A rank-1 array as a table of its coordinate. -/
def cur1 {α : Type} {q : Nat} (a : (⟨1, ![q]⟩ : Shape).Idx → α) : Fin q → α := fun j => a (ix1 j)
/-- The one row of a [1 × q] array. -/
def row1 {α : Type} {q : Nat} (a : (⟨2, ![1, q]⟩ : Shape).Idx → α) : Fin q → α := fun j => a (ix2 (0 : Fin 1) j)

theorem cur2_apply {α : Type} {p q : Nat} (a : (⟨2, ![p, q]⟩ : Shape).Idx → α) (i : Fin p) (j : Fin q) : cur2 a i j = a (ix2 i j) := rfl
theorem cur1_apply {α : Type} {q : Nat} (a : (⟨1, ![q]⟩ : Shape).Idx → α) (j : Fin q) : cur1 a j = a (ix1 j) := rfl
theorem row1_apply {α : Type} {q : Nat} (a : (⟨2, ![1, q]⟩ : Shape).Idx → α) (j : Fin q) : row1 a j = a (ix2 (0 : Fin 1) j) := rfl

end Cert.Spec

end
-- ==== Proof.KVal.Enc.lean ====
/-
  What region 0 (the encoder's one-point pipeline) leaves in its two result arrays, as the certificate's curried
  mathematics, at the ideal instance and for any entry contents: each result is a matrix-form layer of the adjacency
  array applied to (the first matrix-form layer of the features times the first weights, plus the first bias) times the
  result's own weights, plus the result's own bias.
-/
import proofs.«418623_j62843961475769_1_alg».proof.Proof.KI.Region0
import proofs.«418623_j62843961475769_1_alg».proof.Proof.Cur
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)
open scoped BigOperators

/-! ## The three matrix products, read at an index

Each contracts the left operand's second axis with the right operand's first; into a zero accumulator the element at
row p, column q is the sum over the contracted coordinate of the left operand at (p, k) times the right at (k, q). -/

/-! ### features times weights: [1024 × 256] by [256 × 64] -/

theorem lhs_xw_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs_xw_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_xw_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_xw_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

theorem matmul_xw_apply {φ₁ φ₂ : FTy} (a : FVec Ideal S1024x256 φ₁) (b : FVec Ideal S256x64 φ₂) (p : Fin 1024) (q : Fin 64) :
    matmul dot_S1024x256_S256x64_S1024x64_1_0_0_1_n_n none a b (constant (F := Ideal) S1024x64 .f32 0x00000000#32) (ix2 p q)
      = ∑ k : Fin 256, a (ix2 p k) * b (ix2 k q) := by
  show FloatOps.matmul dot_S1024x256_S256x64_S1024x64_1_0_0_1_n_n none a b (constant (F := Ideal) S1024x64 .f32 0x00000000#32) (ix2 p q) = _
  rw [Ideal.matmul_constant_zero_apply, ← Equiv.sum_comp (ValueIdx.contrEquiv1 dot_S1024x256_S256x64_S1024x64_1_0_0_1_n_n 256 rfl rfl).symm]
  refine Finset.sum_congr rfl fun k _ => ?_
  have hk := ValueIdx.contrEquiv1_symm_val dot_S1024x256_S256x64_S1024x64_1_0_0_1_n_n 256 rfl rfl k
  have el : dot_S1024x256_S256x64_S1024x64_1_0_0_1_n_n.lhsIdx (ix2 p q) ((ValueIdx.contrEquiv1 dot_S1024x256_S256x64_S1024x64_1_0_0_1_n_n 256 rfl rfl).symm k) = ix2 p k := funext fun a => Fin.ext (by
    match a with
    | ⟨0, _⟩ => exact lhs_xw_0 _ _
    | ⟨1, _⟩ => exact (lhs_xw_1 _ _).trans hk)
  have er : dot_S1024x256_S256x64_S1024x64_1_0_0_1_n_n.rhsIdx (ix2 p q) ((ValueIdx.contrEquiv1 dot_S1024x256_S256x64_S1024x64_1_0_0_1_n_n 256 rfl rfl).symm k) = ix2 k q := funext fun a => Fin.ext (by
    match a with
    | ⟨0, _⟩ => exact (rhs_xw_0 _ _).trans hk
    | ⟨1, _⟩ => exact rhs_xw_1 _ _)
  rw [el, er]

/-! ### adjacency times hidden: [1024 × 1024] by [1024 × 64] -/

theorem lhs_adj_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_adj_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_adj_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_adj_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem matmul_adj_apply {φ₁ φ₂ : FTy} (a : FVec Ideal S1024x1024 φ₁) (b : FVec Ideal S1024x64 φ₂) (p : Fin 1024) (q : Fin 64) :
    matmul dot_S1024x1024_S1024x64_S1024x64_1_0_0_1_n_n none a b (constant (F := Ideal) S1024x64 .f32 0x00000000#32) (ix2 p q)
      = ∑ k : Fin 1024, a (ix2 p k) * b (ix2 k q) := by
  show FloatOps.matmul dot_S1024x1024_S1024x64_S1024x64_1_0_0_1_n_n none a b (constant (F := Ideal) S1024x64 .f32 0x00000000#32) (ix2 p q) = _
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p q) ((ValueIdx.contrEquiv1 dot_S1024x1024_S1024x64_S1024x64_1_0_0_1_n_n 1024 rfl rfl).symm k) = ix2 p k := funext fun a => Fin.ext (by
    match a with
    | ⟨0, _⟩ => exact lhs_adj_0 _ _
    | ⟨1, _⟩ => exact (lhs_adj_1 _ _).trans hk)
  have er : dot_S1024x1024_S1024x64_S1024x64_1_0_0_1_n_n.rhsIdx (ix2 p q) ((ValueIdx.contrEquiv1 dot_S1024x1024_S1024x64_S1024x64_1_0_0_1_n_n 1024 rfl rfl).symm k) = ix2 k q := funext fun a => Fin.ext (by
    match a with
    | ⟨0, _⟩ => exact (rhs_adj_0 _ _).trans hk
    | ⟨1, _⟩ => exact rhs_adj_1 _ _)
  rw [el, er]

/-! ### hidden times weights: [1024 × 64] by [64 × 64] -/

theorem lhs_hw_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_hw_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_hw_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_hw_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

theorem matmul_hw_apply {φ₁ φ₂ : FTy} (a : FVec Ideal S1024x64 φ₁) (b : FVec Ideal S64x64 φ₂) (p : Fin 1024) (q : Fin 64) :
    matmul dot_S1024x64_S64x64_S1024x64_1_0_0_1_n_n none a b (constant (F := Ideal) S1024x64 .f32 0x00000000#32) (ix2 p q)
      = ∑ k : Fin 64, a (ix2 p k) * b (ix2 k q) := by
  show FloatOps.matmul dot_S1024x64_S64x64_S1024x64_1_0_0_1_n_n none a b (constant (F := Ideal) S1024x64 .f32 0x00000000#32) (ix2 p q) = _
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact lhs_hw_0 _ _
    | ⟨1, _⟩ => exact (lhs_hw_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (rhs_hw_0 _ _).trans hk
    | ⟨1, _⟩ => exact rhs_hw_1 _ _)
  rw [el, er]

/-! ## The bias row laid along every row -/

/-- A [1 × 64] row cast to its own shape and broadcast to [1024 × 64] reads, at (p, q), the row's entry q. -/
theorem bias_apply {α : Type} (b : S1x64.Idx → α) (p : Fin 1024) (q : Fin 64) :
    broadcastTo S1024x64 (shapeCast S1x64 b shapeCasts_S1x64_S1x64) broadcasts_S1x64_S1024x64 (ix2 p q) = b (ix2 (0 : Fin 1) q) := by
  rw [broadcastTo_apply _ _ (ix2 p q) (ix2 (0 : Fin 1) q) (fun a => by match a with | ⟨0, _⟩ => rfl | ⟨1, _⟩ => rfl), shapeCast_self]

/-! ## The body's payloads, read at an index

At the ideal instance a change of format is the identity and a cast of a shape to itself is the identity, so the
payloads are sums of products plus a bias row. -/

/-- The adjacency operand of every product is the adjacency block itself. -/
theorem pay1_eq (x1 : Vec Ideal S1024x1024 .f32) : k0_pay1 x1 = x1 := by
  unfold k0_pay1
  rw [shapeCast_self]
  rfl

/-- The hidden layer: the matrix-form layer of the adjacency block applied to features times first weights, plus
    the first bias. -/
theorem pay2_apply (x0 : Vec Ideal S1024x256 .f32) (x1 : Vec Ideal S1024x1024 .f32) (x2 : Vec Ideal S256x64 .f32)
    (x3 : Vec Ideal S1x64 .f32) (j : Fin 1024) (k : Fin 64) :
    k0_pay2 x0 x1 x2 x3 (ix2 j k) = layerK (cur2 x1) (mm (cur2 x0) (cur2 x2)) (row1 x3) j k := by
  unfold k0_pay2
  rw [truncf_apply, addf_apply, matmul_adj_apply, bias_apply, pay1_eq]
  unfold layerK
  refine congrArg (fun s => s + row1 x3 k) (Finset.sum_congr rfl fun j' _ => ?_)
  rw [truncf_apply, matmul_xw_apply]
  rfl

/-- A result: the matrix-form layer of the adjacency block applied to the hidden layer times the result's weights,
    plus the result's bias. The first result, -/
theorem pay3_apply (x0 : Vec Ideal S1024x256 .f32) (x1 : Vec Ideal S1024x1024 .f32) (x2 : Vec Ideal S256x64 .f32)
    (x3 : Vec Ideal S1x64 .f32) (x4 : Vec Ideal S64x64 .f32) (x5 : Vec Ideal S1x64 .f32) (p : Fin 1024) (q : Fin 64) :
    k0_pay3 x0 x1 x2 x3 x4 x5 (ix2 p q)
      = layerK (cur2 x1) (mm (layerK (cur2 x1) (mm (cur2 x0) (cur2 x2)) (row1 x3)) (cur2 x4)) (row1 x5) p q := by
  unfold k0_pay3
  rw [addf_apply, matmul_adj_apply, bias_apply, pay1_eq]
  unfold layerK
  refine congrArg (fun s => s + row1 x5 q) (Finset.sum_congr rfl fun j _ => ?_)
  rw [truncf_apply, matmul_hw_apply]
  unfold mm
  refine congrArg (fun s => cur2 x1 p j * s) (Finset.sum_congr rfl fun g _ => ?_)
  rw [pay2_apply]
  rfl

/-- and the second, the same with its own weights and bias. -/
theorem pay4_apply (x0 : Vec Ideal S1024x256 .f32) (x1 : Vec Ideal S1024x1024 .f32) (x2 : Vec Ideal S256x64 .f32)
    (x3 : Vec Ideal S1x64 .f32) (x6 : Vec Ideal S64x64 .f32) (x7 : Vec Ideal S1x64 .f32) (p : Fin 1024) (q : Fin 64) :
    k0_pay4 x0 x1 x2 x3 x6 x7 (ix2 p q)
      = layerK (cur2 x1) (mm (layerK (cur2 x1) (mm (cur2 x0) (cur2 x2)) (row1 x3)) (cur2 x6)) (row1 x7) p q := by
  unfold k0_pay4
  rw [addf_apply, matmul_adj_apply, bias_apply, pay1_eq]
  unfold layerK
  refine congrArg (fun s => s + row1 x7 q) (Finset.sum_congr rfl fun j _ => ?_)
  rw [truncf_apply, matmul_hw_apply]
  unfold mm
  refine congrArg (fun s => cur2 x1 p j * s) (Finset.sum_congr rfl fun g _ => ?_)
  rw [pay2_apply]
  rfl

/-! ## What the body leaves in each result's buffer, from the loaded blocks -/

theorem hz : (![0, 0] : Fin 2 → Nat) = fun _ => 0 := funext fun a => by fin_cases a <;> rfl

/-- Every load and the one store are of the whole buffer at offset zero: the first result's buffer holds the first
    result's payload of the blocks themselves. -/
theorem out0_8_eq (x0 : Vec Ideal S1024x256 .f32) (x1 : Vec Ideal S1024x1024 .f32) (x2 : Vec Ideal S256x64 .f32)
    (x3 : Vec Ideal S1x64 .f32) (x4 : Vec Ideal S64x64 .f32) (x5 : Vec Ideal S1x64 .f32) :
    (out0_8 x0 x1 x2 x3 x4 x5 : S1024x64.Idx → EReal) = fun i =>
      layerK (cur2 x1) (mm (layerK (cur2 x1) (mm (cur2 x0) (cur2 x2)) (row1 x3)) (cur2 x4)) (row1 x5) (i 0) (i 1) := by
  unfold out0_8
  rw [View.canon_unit_zero hz]
  simp only [View.ld_unit_zero (S := S1024x256) hz, View.ld_unit_zero (S := S1024x1024) hz, View.ld_unit_zero (S := S256x64) hz,
    View.ld_unit_zero (S := S1x64) hz, View.ld_unit_zero (S := S64x64) hz]
  funext i
  obtain ⟨p, q, rfl⟩ : ∃ (p : Fin 1024) (q : Fin 64), i = ix2 p q := ⟨i 0, i 1, eq_ix2 i⟩
  exact pay3_apply x0 x1 x2 x3 x4 x5 p q

/-- The same for the second result. -/
theorem out0_9_eq (x0 : Vec Ideal S1024x256 .f32) (x1 : Vec Ideal S1024x1024 .f32) (x2 : Vec Ideal S256x64 .f32)
    (x3 : Vec Ideal S1x64 .f32) (x6 : Vec Ideal S64x64 .f32) (x7 : Vec Ideal S1x64 .f32) :
    (out0_9 x0 x1 x2 x3 x6 x7 : S1024x64.Idx → EReal) = fun i =>
      layerK (cur2 x1) (mm (layerK (cur2 x1) (mm (cur2 x0) (cur2 x2)) (row1 x3)) (cur2 x6)) (row1 x7) (i 0) (i 1) := by
  unfold out0_9
  rw [View.canon_unit_zero hz]
  simp only [View.ld_unit_zero (S := S1024x256) hz, View.ld_unit_zero (S := S1024x1024) hz, View.ld_unit_zero (S := S256x64) hz,
    View.ld_unit_zero (S := S1x64) hz, View.ld_unit_zero (S := S64x64) hz]
  funext i
  obtain ⟨p, q, rfl⟩ : ∃ (p : Fin 1024) (q : Fin 64), i = ix2 p q := ⟨i 0, i 1, eq_ix2 i⟩
  exact pay4_apply x0 x1 x2 x3 x6 x7 p q

/-! ## From the one block to the arrays -/

-- the TensorCore's buffer contents when the region is entered
variable (V : (c : Dev nD) → (b : Ref sig .tc) → Buf (Elt Ideal) ((c : Thread nD τ).loc b))

/-- The printed index maps, decided over the one-point grid: every window's block index is zero on both axes. -/
theorem idx0_0 : ∀ t : Fin cfg0.N, win0_0.index t (0 : Fin 2) = 0 ∧ win0_0.index t (1 : Fin 2) = 0 := (by decide +kernel : ∀ t : Fin grid0.N, _)
theorem idx0_1 : ∀ t : Fin cfg0.N, win0_1.index t (0 : Fin 2) = 0 ∧ win0_1.index t (1 : Fin 2) = 0 := (by decide +kernel : ∀ t : Fin grid0.N, _)
theorem idx0_2 : ∀ t : Fin cfg0.N, win0_2.index t (0 : Fin 2) = 0 ∧ win0_2.index t (1 : Fin 2) = 0 := (by decide +kernel : ∀ t : Fin grid0.N, _)
theorem idx0_3 : ∀ t : Fin cfg0.N, win0_3.index t (0 : Fin 2) = 0 ∧ win0_3.index t (1 : Fin 2) = 0 := (by decide +kernel : ∀ t : Fin grid0.N, _)
theorem idx0_4 : ∀ t : Fin cfg0.N, win0_4.index t (0 : Fin 2) = 0 ∧ win0_4.index t (1 : Fin 2) = 0 := (by decide +kernel : ∀ t : Fin grid0.N, _)
theorem idx0_5 : ∀ t : Fin cfg0.N, win0_5.index t (0 : Fin 2) = 0 ∧ win0_5.index t (1 : Fin 2) = 0 := (by decide +kernel : ∀ t : Fin grid0.N, _)
theorem idx0_6 : ∀ t : Fin cfg0.N, win0_6.index t (0 : Fin 2) = 0 ∧ win0_6.index t (1 : Fin 2) = 0 := (by decide +kernel : ∀ t : Fin grid0.N, _)
theorem idx0_7 : ∀ t : Fin cfg0.N, win0_7.index t (0 : Fin 2) = 0 ∧ win0_7.index t (1 : Fin 2) = 0 := (by decide +kernel : ∀ t : Fin grid0.N, _)
theorem idx0_8 : ∀ t : Fin cfg0.N, win0_8.index t (0 : Fin 2) = 0 ∧ win0_8.index t (1 : Fin 2) = 0 := (by decide +kernel : ∀ t : Fin grid0.N, _)
theorem idx0_9 : ∀ t : Fin cfg0.N, win0_9.index t (0 : Fin 2) = 0 ∧ win0_9.index t (1 : Fin 2) = 0 := (by decide +kernel : ∀ t : Fin grid0.N, _)

/-! ### Each input block is its whole array: a block's coordinate is block index × extent + the coordinate inside
    the block, and the block index is zero. -/

theorem iblk0_0_eq (c : Dev nD) (t : Fin cfg0.N) : (iblk0 V c 0 t : S1024x256.Idx → EReal) = V c main_arg0 := by
  obtain ⟨e0, e1⟩ := idx0_0 t
  funext y
  show V c main_arg0 (((cfg0.win 0).blk t).view.emb y) = V c main_arg0 y
  refine congrArg (V c main_arg0) (funext fun a => Fin.ext ?_)
  match a with
  | ⟨0, _⟩ => show win0_0.index t (0 : Fin 2) * 1024 + 1 * (y 0).val = (y 0).val; omega
  | ⟨1, _⟩ => show win0_0.index t (1 : Fin 2) * 256 + 1 * (y 1).val = (y 1).val; omega

theorem iblk0_1_eq (c : Dev nD) (t : Fin cfg0.N) : (iblk0 V c 1 t : S1024x1024.Idx → EReal) = V c main_v44 := by
  obtain ⟨e0, e1⟩ := idx0_1 t
  funext y
  show V c main_v44 (((cfg0.win 1).blk t).view.emb y) = V c main_v44 y
  refine congrArg (V c main_v44) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk0_2_eq (c : Dev nD) (t : Fin cfg0.N) : (iblk0 V c 2 t : S256x64.Idx → EReal) = V c main_arg3 := by
  obtain ⟨e0, e1⟩ := idx0_2 t
  funext y
  show V c main_arg3 (((cfg0.win 2).blk t).view.emb y) = V c main_arg3 y
  refine congrArg (V c main_arg3) (funext fun a => Fin.ext ?_)
  match a with
  | ⟨0, _⟩ => show win0_2.index t (0 : Fin 2) * 256 + 1 * (y 0).val = (y 0).val; omega
  | ⟨1, _⟩ => show win0_2.index t (1 : Fin 2) * 64 + 1 * (y 1).val = (y 1).val; omega

theorem iblk0_3_eq (c : Dev nD) (t : Fin cfg0.N) : (iblk0 V c 3 t : S1x64.Idx → EReal) = V c main_v45 := by
  obtain ⟨e0, e1⟩ := idx0_3 t
  funext y
  show V c main_v45 (((cfg0.win 3).blk t).view.emb y) = V c main_v45 y
  refine congrArg (V c main_v45) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem iblk0_4_eq (c : Dev nD) (t : Fin cfg0.N) : (iblk0 V c 4 t : S64x64.Idx → EReal) = V c main_arg5 := by
  obtain ⟨e0, e1⟩ := idx0_4 t
  funext y
  show V c main_arg5 (((cfg0.win 4).blk t).view.emb y) = V c main_arg5 y
  refine congrArg (V c main_arg5) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem iblk0_5_eq (c : Dev nD) (t : Fin cfg0.N) : (iblk0 V c 5 t : S1x64.Idx → EReal) = V c main_v46 := by
  obtain ⟨e0, e1⟩ := idx0_5 t
  funext y
  show V c main_v46 (((cfg0.win 5).blk t).view.emb y) = V c main_v46 y
  refine congrArg (V c main_v46) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem iblk0_6_eq (c : Dev nD) (t : Fin cfg0.N) : (iblk0 V c 6 t : S64x64.Idx → EReal) = V c main_arg7 := by
  obtain ⟨e0, e1⟩ := idx0_6 t
  funext y
  show V c main_arg7 (((cfg0.win 6).blk t).view.emb y) = V c main_arg7 y
  refine congrArg (V c main_arg7) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem iblk0_7_eq (c : Dev nD) (t : Fin cfg0.N) : (iblk0 V c 7 t : S1x64.Idx → EReal) = V c main_v47 := by
  obtain ⟨e0, e1⟩ := idx0_7 t
  funext y
  show V c main_v47 (((cfg0.win 7).blk t).view.emb y) = V c main_v47 y
  refine congrArg (V c main_v47) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-! ### The results -/

/-- A result array as a function of the six arrays it depends on. -/
abbrev encG (a0 : S1024x256.Idx → EReal) (a1 : S1024x1024.Idx → EReal) (a2 : S256x64.Idx → EReal) (a3 : S1x64.Idx → EReal)
    (a4 : S64x64.Idx → EReal) (a5 : S1x64.Idx → EReal) : S1024x64.Idx → EReal := fun i =>
  layerK (cur2 a1) (mm (layerK (cur2 a1) (mm (cur2 a0) (cur2 a2)) (row1 a3)) (cur2 a4)) (row1 a5) (i 0) (i 1)

/-- What the one point writes back for the first result is the block (the whole) of that function of the arrays as
    the region finds them. -/
theorem flushed8_eq (c : Dev nD) (t : Fin cfg0.N) :
    (dat0 (F := Ideal) V c).flushed 8 t
      = ((cfg0.win 8).blk t).view.read (Elt Ideal) (encG (V c main_arg0) (V c main_v44) (V c main_arg3) (V c main_v45) (V c main_arg5) (V c main_v46)) := by
  show (cfg0.win 8).cut (grid0.coords t) ((dat0 (F := Ideal) V c).after 8 t) = _
  rw [after0_8, iblk0_0_eq V c t, iblk0_1_eq V c t, iblk0_2_eq V c t, iblk0_3_eq V c t, iblk0_4_eq V c t, iblk0_5_eq V c t,
    out0_8_eq (V c main_arg0) (V c main_v44) (V c main_arg3) (V c main_v45) (V c main_arg5) (V c main_v46)]
  obtain ⟨e0, e1⟩ := idx0_8 t
  funext j
  show encG (V c main_arg0) (V c main_v44) (V c main_arg3) (V c main_v45) (V c main_arg5) (V c main_v46) j
    = encG (V c main_arg0) (V c main_v44) (V c main_arg3) (V c main_v45) (V c main_arg5) (V c main_v46) (((cfg0.win 8).blk t).view.emb j)
  refine congrArg (encG (V c main_arg0) (V c main_v44) (V c main_arg3) (V c main_v45) (V c main_arg5) (V c main_v46)) (funext fun a => Fin.ext ?_)
  match a with
  | ⟨0, _⟩ => show (j 0).val = win0_8.index t (0 : Fin 2) * 1024 + 1 * (j 0).val; omega
  | ⟨1, _⟩ => show (j 1).val = win0_8.index t (1 : Fin 2) * 64 + 1 * (j 1).val; omega

/-- An index of the first result's array is in the point's block iff each coordinate is in the block's range. -/
theorem mem_blk8 (t : Fin cfg0.N) (i : S1024x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v48_0).slice (win0_8.rect t)).set ↔ _
  rw [View.set_slice_whole, Rect.mem_set_unit]
  exact Iff.rfl

/-- The one block covers the array. -/
theorem cover8 (i : S1024x64.Idx) : ∃ t : Fin cfg0.N, (cfg0.win 8).flush t = true ∧ i ∈ ((cfg0.win 8).blk t).view.set := by
  refine ⟨t0_0, flush0_8 t0_0, ?_⟩
  obtain ⟨e0, e1⟩ := idx0_8 t0_0
  rw [mem_blk8]
  intro a
  have hi0 : (i 0).val < 1024 := (i 0).isLt
  have hi1 : (i 1).val < 64 := (i 1).isLt
  match a with
  | ⟨0, _⟩ => show win0_8.index t0_0 (0 : Fin 2) * 1024 ≤ (i 0).val ∧ (i 0).val < win0_8.index t0_0 (0 : Fin 2) * 1024 + 1024; omega
  | ⟨1, _⟩ => show win0_8.index t0_0 (1 : Fin 2) * 64 ≤ (i 1).val ∧ (i 1).val < win0_8.index t0_0 (1 : Fin 2) * 64 + 64; omega

/-- THE FIRST RESULT after the region: two matrix-form layers of the adjacency array. -/
theorem enc_mu (c : Dev nD) : ((dat0 (F := Ideal) V c).arrAt 8 cfg0.N : S1024x64.Idx → EReal) = fun i =>
    Spec.layerK (Spec.cur2 (V c main_v44)) (Spec.mm (Spec.layerK (Spec.cur2 (V c main_v44)) (Spec.mm (Spec.cur2 (V c main_arg0)) (Spec.cur2 (V c main_arg3))) (Spec.row1 (V c main_v45))) (Spec.cur2 (V c main_arg5))) (Spec.row1 (V c main_v46)) (i 0) (i 1) :=
  (dat0 (F := Ideal) V c).arrAt_eq_of_cover 8 (encG (V c main_arg0) (V c main_v44) (V c main_arg3) (V c main_v45) (V c main_arg5) (V c main_v46))
    (fun t _ => flushed8_eq V c t) cover8

/-- What the one point writes back for the second result: the same function, with the second result's weights and
    bias. -/
theorem flushed9_eq (c : Dev nD) (t : Fin cfg0.N) :
    (dat0 (F := Ideal) V c).flushed 9 t
      = ((cfg0.win 9).blk t).view.read (Elt Ideal) (encG (V c main_arg0) (V c main_v44) (V c main_arg3) (V c main_v45) (V c main_arg7) (V c main_v47)) := by
  show (cfg0.win 9).cut (grid0.coords t) ((dat0 (F := Ideal) V c).after 9 t) = _
  rw [after0_9, iblk0_0_eq V c t, iblk0_1_eq V c t, iblk0_2_eq V c t, iblk0_3_eq V c t, iblk0_6_eq V c t, iblk0_7_eq V c t,
    out0_9_eq (V c main_arg0) (V c main_v44) (V c main_arg3) (V c main_v45) (V c main_arg7) (V c main_v47)]
  obtain ⟨e0, e1⟩ := idx0_9 t
  funext j
  show encG (V c main_arg0) (V c main_v44) (V c main_arg3) (V c main_v45) (V c main_arg7) (V c main_v47) j
    = encG (V c main_arg0) (V c main_v44) (V c main_arg3) (V c main_v45) (V c main_arg7) (V c main_v47) (((cfg0.win 9).blk t).view.emb j)
  refine congrArg (encG (V c main_arg0) (V c main_v44) (V c main_arg3) (V c main_v45) (V c main_arg7) (V c main_v47)) (funext fun a => Fin.ext ?_)
  match a with
  | ⟨0, _⟩ => show (j 0).val = win0_9.index t (0 : Fin 2) * 1024 + 1 * (j 0).val; omega
  | ⟨1, _⟩ => show (j 1).val = win0_9.index t (1 : Fin 2) * 64 + 1 * (j 1).val; omega

/-- An index of the second result's array is in the point's block iff each coordinate is in the block's range. -/
theorem mem_blk9 (t : Fin cfg0.N) (i : S1024x64.Idx) :
    i ∈ ((cfg0.win 9).blk t).view.set ↔ ∀ a : Fin 2, win0_9.index t a * S1024x64.size a ≤ (i a).val ∧ (i a).val < win0_9.index t a * S1024x64.size a + S1024x64.size a := by
  show i ∈ ((View.whole main_v48_1).slice (win0_9.rect t)).set ↔ _
  rw [View.set_slice_whole, Rect.mem_set_unit]
  exact Iff.rfl

/-- The one block covers the array. -/
theorem cover9 (i : S1024x64.Idx) : ∃ t : Fin cfg0.N, (cfg0.win 9).flush t = true ∧ i ∈ ((cfg0.win 9).blk t).view.set := by
  refine ⟨t0_0, flush0_9 t0_0, ?_⟩
  obtain ⟨e0, e1⟩ := idx0_9 t0_0
  rw [mem_blk9]
  intro a
  have hi0 : (i 0).val < 1024 := (i 0).isLt
  have hi1 : (i 1).val < 64 := (i 1).isLt
  match a with
  | ⟨0, _⟩ => show win0_9.index t0_0 (0 : Fin 2) * 1024 ≤ (i 0).val ∧ (i 0).val < win0_9.index t0_0 (0 : Fin 2) * 1024 + 1024; omega
  | ⟨1, _⟩ => show win0_9.index t0_0 (1 : Fin 2) * 64 ≤ (i 1).val ∧ (i 1).val < win0_9.index t0_0 (1 : Fin 2) * 64 + 64; omega

/-- THE SECOND RESULT after the region: the same two layers, the second with the second result's weights and bias. -/
theorem enc_logvar (c : Dev nD) : ((dat0 (F := Ideal) V c).arrAt 9 cfg0.N : S1024x64.Idx → EReal) = fun i =>
    Spec.layerK (Spec.cur2 (V c main_v44)) (Spec.mm (Spec.layerK (Spec.cur2 (V c main_v44)) (Spec.mm (Spec.cur2 (V c main_arg0)) (Spec.cur2 (V c main_arg3))) (Spec.row1 (V c main_v45))) (Spec.cur2 (V c main_arg7))) (Spec.row1 (V c main_v47)) (i 0) (i 1) :=
  (dat0 (F := Ideal) V c).arrAt_eq_of_cover 9 (encG (V c main_arg0) (V c main_v44) (V c main_arg3) (V c main_v45) (V c main_arg7) (V c main_v47))
    (fun t _ => flushed9_eq V c t) cover9

end Cert.KernelIdeal.HandVal

end
-- ==== Proof.LibScatter.lean ====
/-
  The host's accumulating scatter and its gather, at the three index layouts jnp's `x.at[idx].add(v)`, `x.at[i, j].add(v)`
  and `x[idx]` print with, read at an index over the extended reals.

  An accumulating scatter's result at an operand index is the operand's element there plus the sum of the updates whose
  start index, read SIGNED off the index table and NOT clamped, is that index (an update whose start index is outside the
  operand contributes nothing). Stated here with the sum over the updates' first coordinate `e` alone:
  * operand [N], index table [n × 1], updates [n]: element `i` receives update `e` when word `e` reads `i`;
  * operand [N × C], index table [n × 1], updates [n × C] (whole rows): element `(i, k)` receives update `(e, k)` when word
    `e` reads `i`;
  * operand [N × M], index table [n × 2], updates [n] (points): element `(i, j)` receives update `e` when the two words of
    row `e` read `i` and `j`.
  A row gather from [N × C] by an index table [n × 1] reads, at `(e, k)`, the operand's row at word `e` read signed and
  CLAMPED into `[0, N − 1]`, column `k`. (The rank-1 gather is the library's `StableHlo.Predicate.gather_take`.)
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Idealize.ShloMosaic.Lib.ValueIdxRank1
import Idealize.ShloMosaic.Lib.StableHlo.Predicate

noncomputable section

namespace Cert.LibScatter

open Idealize.ShloMosaic Idealize.ShloMosaic.ValueIdx
open scoped BigOperators

variable {φ : FTy}

/-- The start index of update `e` on the operand's one axis: word `e` of the table, read signed. -/
theorem start_rank1 {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (a : Fin 1) :
    d.start (ix1 e) idx a = (idx (ix2 e (0 : Fin 1))).toInt := by
  obtain ⟨uw, iw, sd, ivd, wf⟩ := d
  simp only at huw hiw hsd hivd
  subst huw hiw hsd hivd
  obtain rfl : a = 0 := Subsingleton.elim _ _
  unfold ScatterDims.start
  rw [dif_pos (List.mem_singleton.mpr rfl)]
  congr 2
  funext b
  match b with
  | ⟨0, _⟩ => rfl
  | ⟨1, _⟩ => rfl

/-- The operand's one axis is inserted: an update has no window coordinate on it. -/
theorem window_rank1 {N n : Nat} (d : ScatterDims ⟨1, ![N]⟩ ⟨2, ![n, 1]⟩ ⟨1, ![n]⟩)
    (hiw : d.insertedWindowDims = [0]) (j : (⟨1, ![n]⟩ : Shape).Idx) (a : Fin 1) :
    d.window j a = 0 := by
  obtain rfl : a = 0 := Subsingleton.elim _ _
  unfold ScatterDims.window
  rw [dif_neg]
  rw [ScatterDims.sKept, hiw]
  simp [Shape.kept]

/-- Update `e` lands at operand index `i` exactly when word `e`, read signed, is `i`. -/
theorem resultIdx_rank1 {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e (0 : Fin 1))).toInt = (i.val : Int) := by
  have hs : ∀ a : Fin 1, d.start (ix1 e) idx a + d.window (ix1 e) a = (idx (ix2 e (0 : Fin 1))).toInt := fun a => by
    rw [start_rank1 d huw hiw hsd hivd, window_rank1 d hiw]; simp
  have hi := i.isLt
  unfold ScatterDims.resultIdx?
  split
  · next h =>
    rw [Option.some.injEq]
    constructor
    · intro hh
      have h0 := congrArg Fin.val (congrFun hh (0 : Fin 1))
      have h1 := (h 0).1
      rw [hs 0] at h1
      simp only [hs] at h0
      change _ = i.val at h0
      omega
    · intro hS
      funext a
      obtain rfl : a = 0 := Subsingleton.elim _ _
      apply Fin.ext
      simp only [hs, hS]
      rfl
  · next h =>
    constructor
    · intro hh; cases hh
    · intro hS
      exfalso; apply h
      intro a
      obtain rfl : a = 0 := Subsingleton.elim _ _
      rw [hs 0, hS]
      change _ ∧ (i.val : Int) < (N : Int)
      omega

/-- Accumulating scatter into a rank-1 operand by one index word per update. -/
theorem scatterAdd_rank1_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e ∈ Finset.univ.filter (fun e : Fin n => (idx (ix2 e (0 : Fin 1))).toInt = (i.val : Int)), upd (ix1 e) := by
  show x (ix1 i) + ∑ j ∈ Finset.univ.filter (fun j => d.resultIdx? j idx = some (ix1 i)), upd j = _
  congr 1
  refine Finset.sum_equiv idxEquiv1 (fun j => ?_) (fun j _ => ?_)
  · obtain ⟨e, rfl⟩ : ∃ e : Fin n, j = ix1 e := ⟨j 0, eq_ix1 j⟩
    rw [Finset.mem_filter, Finset.mem_filter, resultIdx_rank1 d huw hiw hsd hivd]
    simp only [Finset.mem_univ, true_and]
    rfl
  · obtain ⟨e, rfl⟩ : ∃ e : Fin n, j = ix1 e := ⟨j 0, eq_ix1 j⟩
    rfl

/-- Rows layout: the start index of update `(e, k')` is word `e` on the operand's first axis and `0` on the second. -/
theorem start_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k' : Fin C) :
    d.start (ix2 e k') idx 0 = (idx (ix2 e (0 : Fin 1))).toInt ∧ d.start (ix2 e k') idx 1 = 0 := by
  obtain ⟨uw, iw, sd, ivd, wf⟩ := d
  simp only at huw hiw hsd hivd
  subst huw hiw hsd hivd
  constructor
  · unfold ScatterDims.start
    rw [dif_pos (List.mem_singleton.mpr rfl)]
    congr 2
    funext b
    match b with
    | ⟨0, _⟩ => rfl
    | ⟨1, _⟩ => rfl
  · unfold ScatterDims.start
    have h10 : (1 : Fin 2) ≠ 0 := by decide
    rw [dif_neg (fun h => h10 (List.mem_singleton.mp h))]

/-- Rows layout: the window coordinate of update `(e, k')` is `0` on the first (inserted) axis and `k'` on the second. -/
theorem window_rows {N C n : Nat} (d : ScatterDims ⟨2, ![N, C]⟩ ⟨2, ![n, 1]⟩ ⟨2, ![n, C]⟩)
    (huw : d.updateWindowDims = [1]) (hiw : d.insertedWindowDims = [0]) (e : Fin n) (k' : Fin C) :
    d.window (ix2 e k') 0 = 0 ∧ d.window (ix2 e k') 1 = k'.val := by
  obtain ⟨uw, iw, sd, ivd, wf⟩ := d
  simp only at huw hiw
  subst huw hiw
  constructor
  · unfold ScatterDims.window
    rw [dif_neg (by simp [Shape.kept])]
  · unfold ScatterDims.window
    rw [dif_pos (by simp [Shape.kept])]
    rfl

/-- Update `(e, k')` lands at operand index `(i, k)` exactly when word `e`, read signed, is `i` and `k' = k`. -/
theorem resultIdx_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k' : Fin C) (i : Fin N) (k : Fin C) :
    d.resultIdx? (ix2 e k') idx = some (ix2 i k) ↔ (idx (ix2 e (0 : Fin 1))).toInt = (i.val : Int) ∧ k' = k := by
  have hs0 : d.start (ix2 e k') idx 0 + d.window (ix2 e k') 0 = (idx (ix2 e (0 : Fin 1))).toInt := by
    rw [(start_rows d huw hiw hsd hivd idx e k').1, (window_rows d huw hiw e k').1]; simp
  have hs1 : d.start (ix2 e k') idx 1 + d.window (ix2 e k') 1 = (k'.val : Int) := by
    rw [(start_rows d huw hiw hsd hivd idx e k').2, (window_rows d huw hiw e k').2]; simp
  have hi := i.isLt
  have hk := k.isLt
  have hk' := k'.isLt
  unfold ScatterDims.resultIdx?
  split
  · next h =>
    rw [Option.some.injEq]
    constructor
    · intro hh
      have h0 := congrArg Fin.val (congrFun hh (0 : Fin 2))
      have h1 := congrArg Fin.val (congrFun hh (1 : Fin 2))
      have g0 := (h 0).1
      rw [hs0] at g0
      simp only [hs0] at h0
      simp only [hs1] at h1
      change _ = i.val at h0
      change _ = k.val at h1
      refine ⟨by omega, Fin.ext (by omega)⟩
    · rintro ⟨hS, rfl⟩
      refine funext (Fin.forall_fin_two.2 ⟨?_, ?_⟩)
      · apply Fin.ext
        simp only [hs0, hS]
        rfl
      · apply Fin.ext
        simp only [hs1]
        rfl
  · next h =>
    constructor
    · intro hh; cases hh
    · rintro ⟨hS, rfl⟩
      exfalso; apply h
      refine Fin.forall_fin_two.2 ⟨?_, ?_⟩
      · rw [hs0, hS]
        change _ ∧ (i.val : Int) < (N : Int)
        omega
      · rw [hs1]
        change _ ∧ (k'.val : Int) < (C : Int)
        omega

/-- Accumulating scatter of whole rows into a rank-2 operand by one index word per row. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![n, 1]⟩ w) (upd : FVec Ideal ⟨2, ![n, C]⟩ φ) (i : Fin N) (k : Fin C) :
    Host.scatterAdd (F := Ideal) d x idx upd (ix2 i k)
      = x (ix2 i k) + ∑ e ∈ Finset.univ.filter (fun e : Fin n => (idx (ix2 e (0 : Fin 1))).toInt = (i.val : Int)), upd (ix2 e k) := by
  show x (ix2 i k) + ∑ j ∈ Finset.univ.filter (fun j => d.resultIdx? j idx = some (ix2 i k)), upd j = _
  congr 1
  rw [Finset.sum_filter, sum_idx2, Finset.sum_filter]
  refine Finset.sum_congr rfl (fun e _ => ?_)
  simp only [resultIdx_rows d huw hiw hsd hivd]
  by_cases hS : (idx (ix2 e (0 : Fin 1))).toInt = (i.val : Int)
  · simp only [hS, true_and, if_true]
    rw [Finset.sum_ite_eq']
    simp
  · simp only [hS, false_and, if_false]
    exact Finset.sum_const_zero

/-- Points layout: the start index of update `e` on operand axis `a` is word `(e, a)` of the table, read signed. -/
theorem start_points {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hivd : d.indexVectorDim = 1) (idx : IVec ⟨2, ![n, 2]⟩ w) (e : Fin n) :
    d.start (ix1 e) idx 0 = (idx (ix2 e (0 : Fin 2))).toInt ∧ d.start (ix1 e) idx 1 = (idx (ix2 e (1 : Fin 2))).toInt := by
  obtain ⟨uw, iw, sd, ivd, wf⟩ := d
  simp only at huw hiw hsd hivd
  subst huw hiw hsd hivd
  constructor
  · unfold ScatterDims.start
    rw [dif_pos (List.mem_cons_self)]
    congr 2
    funext b
    match b with
    | ⟨0, _⟩ => rfl
    | ⟨1, _⟩ => rfl
  · unfold ScatterDims.start
    rw [dif_pos (List.mem_cons_of_mem _ (List.mem_singleton.mpr rfl))]
    congr 2
    funext b
    match b with
    | ⟨0, _⟩ => rfl
    | ⟨1, _⟩ => rfl

/-- Points layout: both operand axes are inserted, so an update has no window coordinate. -/
theorem window_points {N M n : Nat} (d : ScatterDims ⟨2, ![N, M]⟩ ⟨2, ![n, 2]⟩ ⟨1, ![n]⟩)
    (hiw : d.insertedWindowDims = [0, 1]) (j : (⟨1, ![n]⟩ : Shape).Idx) (a : Fin 2) :
    d.window j a = 0 := by
  unfold ScatterDims.window
  rw [dif_neg]
  rw [ScatterDims.sKept, hiw]
  have : a = 0 ∨ a = 1 := by omega
  rcases this with rfl | rfl <;> simp [Shape.kept]

/-- Update `e` lands at operand index `(i, j)` exactly when the two words of row `e`, read signed, are `i` and `j`. -/
theorem resultIdx_points {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hivd : d.indexVectorDim = 1) (idx : IVec ⟨2, ![n, 2]⟩ w) (e : Fin n) (i : Fin N) (j : Fin M) :
    d.resultIdx? (ix1 e) idx = some (ix2 i j)
      ↔ (idx (ix2 e (0 : Fin 2))).toInt = (i.val : Int) ∧ (idx (ix2 e (1 : Fin 2))).toInt = (j.val : Int) := by
  have hs0 : d.start (ix1 e) idx 0 + d.window (ix1 e) 0 = (idx (ix2 e (0 : Fin 2))).toInt := by
    rw [(start_points d huw hiw hsd hivd idx e).1, window_points d hiw]; simp
  have hs1 : d.start (ix1 e) idx 1 + d.window (ix1 e) 1 = (idx (ix2 e (1 : Fin 2))).toInt := by
    rw [(start_points d huw hiw hsd hivd idx e).2, window_points d hiw]; simp
  have hi := i.isLt
  have hj := j.isLt
  unfold ScatterDims.resultIdx?
  split
  · next h =>
    rw [Option.some.injEq]
    constructor
    · intro hh
      have h0 := congrArg Fin.val (congrFun hh (0 : Fin 2))
      have h1 := congrArg Fin.val (congrFun hh (1 : Fin 2))
      have g0 := (h 0).1
      have g1 := (h 1).1
      rw [hs0] at g0
      rw [hs1] at g1
      simp only [hs0] at h0
      simp only [hs1] at h1
      change _ = i.val at h0
      change _ = j.val at h1
      refine ⟨by omega, by omega⟩
    · rintro ⟨hS0, hS1⟩
      refine funext (Fin.forall_fin_two.2 ⟨?_, ?_⟩)
      · apply Fin.ext
        simp only [hs0, hS0]
        rfl
      · apply Fin.ext
        simp only [hs1, hS1]
        rfl
  · next h =>
    constructor
    · intro hh; cases hh
    · rintro ⟨hS0, hS1⟩
      exfalso; apply h
      refine Fin.forall_fin_two.2 ⟨?_, ?_⟩
      · rw [hs0, hS0]
        change _ ∧ (i.val : Int) < (N : Int)
        omega
      · rw [hs1, hS1]
        change _ ∧ (j.val : Int) < (M : Int)
        omega

/-- Accumulating scatter of points into a rank-2 operand by two index words per update. -/
theorem scatterAdd_points_apply {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hivd : d.indexVectorDim = 1)
    (x : FVec Ideal ⟨2, ![N, M]⟩ φ) (idx : IVec ⟨2, ![n, 2]⟩ w) (upd : FVec Ideal ⟨1, ![n]⟩ φ) (i : Fin N) (j : Fin M) :
    Host.scatterAdd (F := Ideal) d x idx upd (ix2 i j)
      = x (ix2 i j) + ∑ e ∈ Finset.univ.filter (fun e : Fin n =>
          (idx (ix2 e (0 : Fin 2))).toInt = (i.val : Int) ∧ (idx (ix2 e (1 : Fin 2))).toInt = (j.val : Int)), upd (ix1 e) := by
  show x (ix2 i j) + ∑ u ∈ Finset.univ.filter (fun u => d.resultIdx? u idx = some (ix2 i j)), upd u = _
  congr 1
  refine Finset.sum_equiv idxEquiv1 (fun u => ?_) (fun u _ => ?_)
  · obtain ⟨e, rfl⟩ : ∃ e : Fin n, u = ix1 e := ⟨u 0, eq_ix1 u⟩
    rw [Finset.mem_filter, Finset.mem_filter, resultIdx_points d huw hiw hsd hivd]
    simp only [Finset.mem_univ, true_and]
    rfl
  · obtain ⟨e, rfl⟩ : ∃ e : Fin n, u = ix1 e := ⟨u 0, eq_ix1 u⟩
    rfl

/-- A row gather: whole rows of a rank-2 operand by one index word per row, read signed and clamped. -/
theorem gather_rows_apply {α : Type} {N C n w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![n, 1]⟩ w) (e : Fin n) (k : Fin C) :
    Host.gather d x idx (ix2 e k) = x (ix2 ⟨min (idx (ix2 e (0 : Fin 1))).toInt.toNat (N - 1), by omega⟩ k) := by
  obtain ⟨od, cd, ob, sb, sm, ivd, ss, wf⟩ := d
  simp only at hoff hcoll hob hsb hsim hivd hss
  subst hoff hcoll hob hsb hsim hivd hss
  unfold Host.gather
  congr 1
  have h10 : (1 : Fin 2) ≠ 0 := by decide
  refine funext (Fin.forall_fin_two.2 ⟨?_, ?_⟩)
  · -- the collapsed, start-indexed axis: the clamped start, no batching or offset coordinate
    apply Fin.ext
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![n, 1]⟩) (t := ⟨2, ![n, C]⟩) ⟨[1], [0], [], [], [0], 1, ![1, C], wf⟩ (ix2 e k)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- the offset axis: no start index, the result's offset coordinate
    apply Fin.ext
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start
    rw [dif_neg (fun h => h10 (List.mem_singleton.mp h))]
    unfold GatherDims.offCoord
    rw [dif_pos (by simp [Shape.kept])]
    simp only [Nat.zero_add, Nat.add_zero]
    rfl

end Cert.LibScatter

end
-- ==== Proof.KVal.Host.lean ====
/-
  The dense normalised adjacency matrix the host builds before the encoder region, read off the launch memory: the
  weights of the edges `j → i` added up by an accumulating point scatter, plus the diagonal `dis i * dis i`.

  The host wraps each edge word once (a select on "negative" between the word plus 1024 and the word), counts the
  in-degrees by scattering ones at the destination words, takes the reciprocal square root of the count plus one, gathers
  it at both words of each edge (a gather clamps), multiplies the two factors, and scatters the products at the
  (destination, source) pairs into a matrix of zeros; a scatter drops an index outside the matrix, so an edge contributes
  exactly when both wrapped words name nodes. The diagonal is a select on "row number = column number".
-/
import proofs.«418623_j62843961475769_1_alg».proof.Proof.KI.Fold
import proofs.«418623_j62843961475769_1_alg».proof.Proof.Cur
import proofs.«418623_j62843961475769_1_alg».proof.Proof.LibScatter
import proofs.«418623_j62843961475769_1_alg».proof.Proof.Gen.KernelIdeal.Regions
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.IdealHost
import Idealize.ShloMosaic.Lib.KernelVsHost
import Idealize.ShloMosaic.PureOps.Ideal
import Idealize.ShloMosaic.PureOps.Ideal.Laws

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx
open Idealize.SL Idealize.SL.Sem
open scoped BigOperators

namespace Adj

/-! ## The host's terms, as functions of the two edge-word arrays -/

/-- An edge-word array with each negative word wrapped once by 1024. -/
def wrapV (v : IVec S32768 32) : IVec S32768 32 :=
  select (cmpi .slt v (broadcastInDim S32768 ![] bcast_S_S32768 (constantI S_ 32 0#32)))
    (addi v (broadcastInDim S32768 ![] bcast_S_S32768 (constantI S_ 32 1024#32))) v

/-- The wrapped words as a column: an index table of one word per edge. -/
def colV (v : IVec S32768 32) : IVec S32768x1 32 := broadcastInDim S32768x1 ![0] bcast_S32768_S32768x1_0 (wrapV v)

/-- The in-degree count: ones scattered, accumulating, at the destination words into zeros. -/
def cntV (dst : IVec S32768 32) : FVec Ideal S1024 .f32 :=
  Host.scatterAdd (F := Ideal) scatter_S1024_S32768x1_S32768_n_0_0_1
    (broadcastInDim S1024 ![] bcast_S_S1024 (constant (F := Ideal) S_ .f32 0x00000000#32))
    (colV dst)
    (broadcastInDim S32768 ![] bcast_S_S32768 (constant (F := Ideal) S_ .f32 0x3F800000#32))

/-- The reciprocal square root of the count plus one. -/
def disV (dst : IVec S32768 32) : FVec Ideal S1024 .f32 :=
  Host.rsqrt (addf (cntV dst) (broadcastInDim S1024 ![] bcast_S_S1024 (constant (F := Ideal) S_ .f32 0x3F800000#32)))

/-- An edge's weight: the two gathered factors multiplied. -/
def nrmV (src dst : IVec S32768 32) : FVec Ideal S32768 .f32 :=
  mulf (Host.gather gather_S1024_S32768x1_S32768_n_0_n_n_0_1_1 (disV dst) (colV src))
    (Host.gather gather_S1024_S32768x1_S32768_n_0_n_n_0_1_1 (disV dst) (colV dst))

/-- The point scatter's index table: per edge the destination word, then the source word. -/
def idxV (src dst : IVec S32768 32) : IVec S32768x2 32 :=
  concatenate S32768x2 1 [⟨S32768x1, colV dst⟩, ⟨S32768x1, colV src⟩] concatenates_S32768x1_S32768x1_S32768x2_d1

/-- The edges' weights scattered, accumulating, at (destination, source) into zeros. -/
def adjV (src dst : IVec S32768 32) : FVec Ideal S1024x1024 .f32 :=
  Host.scatterAdd (F := Ideal) scatter_S1024x1024_S32768x2_S32768_n_01_01_1
    (broadcastInDim S1024x1024 ![] bcast_S_S1024x1024 (constant (F := Ideal) S_ .f32 0x00000000#32))
    (idxV src dst) (nrmV src dst)

/-- The self-loop weights. -/
def ddV (dst : IVec S32768 32) : FVec Ideal S1024 .f32 := mulf (disV dst) (disV dst)

/-- A vector laid on the diagonal of a square matrix of zeros. -/
def diagV (d : FVec Ideal S1024 .f32) : FVec Ideal S1024x1024 .f32 :=
  select
    (cmpi .eq (addi (iotaInDim S1024x1024 32 0) (broadcastInDim S1024x1024 ![] bcast_S_S1024x1024 (constantI S_ 32 0#32)))
      (iotaInDim S1024x1024 32 1))
    (broadcastInDim S1024x1024 ![0, 1] bcast_S1024x1_S1024x1024_0_1
      (broadcastInDim S1024x1 ![0] bcast_S1024_S1024x1_0
        (pad S1024 ![0] ![0] ![0] d (constant (F := Ideal) S_ .f32 0x00000000#32) pads_S1024_S1024_000 h_S_)))
    (broadcastInDim S1024x1024 ![] bcast_S_S1024x1024 (constant (F := Ideal) S_ .f32 0x00000000#32))

/-! ## The stretches of host operations, each from any contents -/

section Stretch2
variable (V : Valuation τ sig (Elt Ideal))

/-- The third stretch: the matrix is the scattered weights plus the diagonal. -/
theorem after2_v44 : @Eq (FVec Ideal S1024x1024 .f32) (StableHlo.after hostOps0_2 V (Proc.devRef .tc main_v44))
    (addf (V (Proc.devRef .tc main_v41) : FVec Ideal S1024x1024 .f32) (V (Proc.devRef .tc main_v43) : FVec Ideal S1024x1024 .f32)) := by
  after_results
end Stretch2

section Stretch01
variable (V : Valuation τ sig (Elt Ideal))

set_option maxHeartbeats 1600000 in
/-- The first stretch, from any contents: the scattered weights, as the term above of the two edge-word arrays. -/
theorem after0_v41 : @Eq (FVec Ideal S1024x1024 .f32) (StableHlo.after hostOps0 V (Proc.devRef .tc main_v41))
    (adjV (V (Proc.devRef .tc main_arg1)) (V (Proc.devRef .tc main_arg2))) := by
  after_results_simp
  rfl

set_option maxHeartbeats 1600000 in
theorem after0_v42 : @Eq (FVec Ideal S1024 .f32) (StableHlo.after hostOps0 V (Proc.devRef .tc main_v42))
    (ddV (V (Proc.devRef .tc main_arg2))) := by
  after_results_simp
  rfl

/-- The second stretch, from any contents: the self-loop weights laid on the diagonal. -/
theorem after1_v43 : @Eq (FVec Ideal S1024x1024 .f32) (StableHlo.after hostOps0_1 V (Proc.devRef .tc main_v43))
    (diagV (V (Proc.devRef .tc main_v42))) := by
  after_results
  rfl
end Stretch01

/-! ## Words -/

/-- A word selected on "negative" between itself plus 1024 and itself is, read signed, the wrapped word. -/
theorem wrap_word (v : BitVec 32) :
    (Scalar.select (IntOp.cmpi .slt v 0#32) (IntOp.addi v 1024#32) v).toInt = Spec.wrapW v := by
  have hc : IntOp.cmpi .slt v 0#32 = BitVec.ofBool (v.slt 0#32) := rfl
  rw [hc]
  unfold Scalar.select IntOp.addi Spec.wrapW
  by_cases h : v.toInt < 0
  · have hs : v.slt 0#32 = true := by
      rw [BitVec.slt]; simpa using h
    rw [hs, if_pos (by decide), if_pos h]
    -- a negative word plus 1024 does not leave the signed range
    have hb := BitVec.toInt_lt (x := v)
    have hl := BitVec.le_toInt (x := v)
    rw [BitVec.toInt_add]
    show (v.toInt + 1024).bmod (2 ^ 32) = v.toInt + 1024
    apply Int.bmod_eq_of_le <;> omega
  · have hs : v.slt 0#32 = false := by
      rw [BitVec.slt]; simpa using h
    rw [hs, if_neg (by decide), if_neg h]

/-- An edge word names node `i` exactly when its wrapped value is `i`. -/
theorem tgt_eq_some_iff (v : (⟨1, ![32768]⟩ : Shape).Idx → BitVec 32) (e : Fin 32768) (i : Fin 1024) :
    Spec.tgt v e = some i ↔ Spec.wrapW (v (ix1 e)) = (i.val : Int) := by
  unfold Spec.tgt
  have hi := i.isLt
  split
  · rename_i h
    rw [Option.some.injEq, Fin.ext_iff]
    show (Spec.wrapW (v (ix1 e))).toNat = i.val ↔ _
    omega
  · rename_i h
    constructor
    · intro h'; exact absurd h' (by simp)
    · intro h'; exfalso; apply h; omega

/-- Two node numbers as 32-bit words, the first plus zero, are equal words exactly when they are one node. -/
theorem word_eq_iff (i j : Fin 1024) :
    IntOp.cmpi .eq (IntOp.addi (BitVec.ofNat 32 i.val) 0#32) (BitVec.ofNat 32 j.val) = 1#1 ↔ i = j := by
  rw [StableHlo.Predicate.cmpi_eq_iff]
  unfold IntOp.addi
  rw [BitVec.add_zero]
  have hi := i.isLt
  have hj := j.isLt
  constructor
  · intro h
    have := congrArg BitVec.toNat h
    rw [BitVec.toNat_ofNat, BitVec.toNat_ofNat] at this
    apply Fin.ext
    omega
  · intro h; rw [h]

/-! ## Indices: the two spellings of a coordinate tuple -/

theorem ofFin_eq_ix1 {n : Nat} (p : Fin n) : (Shape.Idx.ofFin p : (⟨1, ![n]⟩ : Shape).Idx) = ix1 p := by
  funext a; match a with | ⟨0, _⟩ => exact Fin.ext rfl
theorem ixP_eq_ix2 {n : Nat} (p : Fin n) : StableHlo.Predicate.ixP p = ix2 p (0 : Fin 1) := by
  funext a; match a with | ⟨0, _⟩ => rfl | ⟨1, _⟩ => rfl
theorem ij_eq_ix2 {n k : Nat} (p : Fin n) (q : Fin k) : StableHlo.Predicate.ij p q = ix2 p q := by
  funext a; match a with | ⟨0, _⟩ => rfl | ⟨1, _⟩ => rfl

/-! ## The host's terms read at an index -/

section Reading
variable (src dst v : IVec S32768 32)

theorem wrapV_toInt (e : Fin 32768) : (wrapV v (ix1 e)).toInt = Spec.wrapW (v (ix1 e)) := wrap_word (v (ix1 e))

theorem colV_apply (e : Fin 32768) : colV v (ix2 e (0 : Fin 1)) = wrapV v (ix1 e) := by
  unfold colV
  rw [← ixP_eq_ix2, StableHlo.Predicate.bcast_col1, ofFin_eq_ix1]

/-- The count at node `i`: one per edge whose destination word names `i`. -/
theorem cntV_apply (i : Fin 1024) :
    cntV dst (ix1 i) = 0 + ∑ _e ∈ Finset.univ.filter (fun e : Fin 32768 => Spec.tgt dst e = some i), (1 : EReal) := by
  unfold cntV
  rw [LibScatter.scatterAdd_rank1_apply _ rfl rfl rfl rfl]
  have hx : (broadcastInDim S1024 ![] bcast_S_S1024 (constant (F := Ideal) S_ .f32 0x00000000#32)) (ix1 i) = 0 :=
    Ideal.ofBits_zero_f32
  have hu : ∀ e : Fin 32768,
      (broadcastInDim S32768 ![] bcast_S_S32768 (constant (F := Ideal) S_ .f32 0x3F800000#32)) (ix1 e) = 1 :=
    fun _ => Ideal.ofBits_one_f32
  rw [hx]
  refine congrArg (fun t => 0 + t) (Finset.sum_congr (Finset.filter_congr fun e _ => ?_) fun e _ => hu e)
  rw [colV_apply, wrapV_toInt, tgt_eq_some_iff]

theorem hostRsqrt_apply {s : Shape} (x : FVec Ideal s .f32) (i : s.Idx) : Host.rsqrt x i = Ideal.rsqrt (x i) := rfl

theorem disV_apply (i : Fin 1024) : disV dst (ix1 i) = Spec.dis dst i := by
  unfold disV Spec.dis Spec.deg
  have h1 : (broadcastInDim S1024 ![] bcast_S_S1024 (constant (F := Ideal) S_ .f32 0x3F800000#32)) (ix1 i) = 1 :=
    Ideal.ofBits_one_f32
  rw [hostRsqrt_apply, addf_apply, cntV_apply, h1, zero_add, add_comm]

/-- A gathered factor: the reciprocal square root at the node the edge's word reads, clamped. -/
theorem gatherV_apply (e : Fin 32768) :
    Host.gather gather_S1024_S32768x1_S32768_n_0_n_n_0_1_1 (disV dst) (colV v) (ix1 e) = Spec.dis dst (Spec.cl v e) := by
  rw [← ofFin_eq_ix1, StableHlo.Predicate.gather_take _ rfl rfl rfl rfl _ _ _ (by decide), ← disV_apply, ← ofFin_eq_ix1]
  refine congrArg (disV dst) (congrArg Shape.Idx.ofFin (Fin.ext ?_))
  show min (colV v (StableHlo.Predicate.ixP e)).toInt.toNat (1024 - 1) = min (Spec.wrapW (v (ix1 e))).toNat 1023
  rw [ixP_eq_ix2, colV_apply, wrapV_toInt]

theorem nrmV_apply (e : Fin 32768) : nrmV src dst (ix1 e) = Spec.nrm src dst e := by
  unfold nrmV Spec.nrm
  rw [mulf_apply, gatherV_apply, gatherV_apply]

/-- The index table's two columns: the destination word, then the source word. -/
theorem idxV_apply0 (e : Fin 32768) : idxV src dst (ix2 e (0 : Fin 2)) = wrapV dst (ix1 e) := by
  unfold idxV
  rw [concatenate_pair_apply_left (t := S32768x2) (s₁ := S32768x1) (s₂ := S32768x1) (1 : Fin 2) _ _ _ (ix2 e (0 : Fin 2)) rfl (ix2 e (0 : Fin 1))
    (fun b => match b with | ⟨0, _⟩ => rfl | ⟨1, _⟩ => rfl)]
  exact colV_apply dst e
theorem idxV_apply1 (e : Fin 32768) : idxV src dst (ix2 e (1 : Fin 2)) = wrapV src (ix1 e) := by
  unfold idxV
  rw [concatenate_pair_apply_right (t := S32768x2) (s₁ := S32768x1) (s₂ := S32768x1) (1 : Fin 2) _ _ _ (ix2 e (1 : Fin 2)) rfl rfl (ix2 e (0 : Fin 1))
    (fun b hb => match b, hb with | ⟨0, _⟩, _ => rfl | ⟨1, _⟩, hb => absurd rfl hb) rfl]
  exact colV_apply src e

/-- The scattered weights at `(i, j)`: the weights of the edges whose two words name `i` and `j`, added up. -/
theorem adjV_apply (i j : Fin 1024) :
    adjV src dst (ix2 i j)
      = 0 + ∑ e ∈ Finset.univ.filter (fun e : Fin 32768 => Spec.tgt dst e = some i ∧ Spec.tgt src e = some j), Spec.nrm src dst e := by
  unfold adjV
  rw [LibScatter.scatterAdd_points_apply _ rfl rfl rfl rfl]
  have hx : (broadcastInDim S1024x1024 ![] bcast_S_S1024x1024 (constant (F := Ideal) S_ .f32 0x00000000#32)) (ix2 i j) = 0 :=
    Ideal.ofBits_zero_f32
  rw [hx]
  refine congrArg (fun t => 0 + t) (Finset.sum_congr (Finset.filter_congr fun e _ => ?_) fun e _ => nrmV_apply src dst e)
  rw [idxV_apply0, idxV_apply1, wrapV_toInt, wrapV_toInt, tgt_eq_some_iff, tgt_eq_some_iff]

end Reading

/-- A vector on the diagonal: at `(i, j)` its entry `i` when `i = j`, else zero. -/
theorem diagV_apply (d : FVec Ideal S1024 .f32) (i j : Fin 1024) :
    diagV d (ix2 i j) = if i = j then d (ix1 i) else 0 := by
  unfold diagV
  rw [select_apply]
  have hc : cmpi .eq (addi (iotaInDim S1024x1024 32 0) (broadcastInDim S1024x1024 ![] bcast_S_S1024x1024 (constantI S_ 32 0#32)))
      (iotaInDim S1024x1024 32 1) (ix2 i j) = 1#1 ↔ i = j := word_eq_iff i j
  have ha : (broadcastInDim S1024x1024 ![0, 1] bcast_S1024x1_S1024x1024_0_1
      (broadcastInDim S1024x1 ![0] bcast_S1024_S1024x1_0
        (pad S1024 ![0] ![0] ![0] d (constant (F := Ideal) S_ .f32 0x00000000#32) pads_S1024_S1024_000 h_S_))) (ix2 i j)
      = d (ix1 i) := by
    rw [← ij_eq_ix2, StableHlo.Predicate.bcast_rows, ofFin_eq_ix1]
    exact pad_apply_of_inside _ _ _ d _ _ _ _ (ix1 i) (fun a => match a with | ⟨0, _⟩ => (by show i.val = 0 + i.val * (0 + 1); omega))
  have hb : (broadcastInDim S1024x1024 ![] bcast_S_S1024x1024 (constant (F := Ideal) S_ .f32 0x00000000#32)) (ix2 i j) = 0 :=
    Ideal.ofBits_zero_f32
  rw [ha, hb]
  unfold Scalar.select
  by_cases hij : i = j
  · rw [if_pos hij]; exact if_pos (hc.mpr hij)
  · rw [if_neg hij]; exact if_neg (fun h => hij (hc.mp h))

/-! ## The matrix at the region's entry -/

variable (m : (ℓ : Loc nD τ sig) → Buf (Elt Ideal) ℓ) (ρ : Dev nD → PrngReg) (c : Dev nD)

theorem W2_v41 : @Eq (FVec Ideal S1024x1024 .f32) (W2 m ρ c (Proc.devRef .tc main_v41))
    (adjV (m ((c : Thread nD τ).loc main_arg1)) (m ((c : Thread nD τ).loc main_arg2))) :=
  (StableHlo.after_of_writes_sub hostOps0_1 _ hostOps0_1_writes (by decide)).trans (after0_v41 (W0 m ρ c))

theorem W2_v43 : @Eq (FVec Ideal S1024x1024 .f32) (W2 m ρ c (Proc.devRef .tc main_v43))
    (diagV (ddV (m ((c : Thread nD τ).loc main_arg2)))) :=
  (after1_v43 (W1 m ρ c)).trans (congrArg diagV (after0_v42 (W0 m ρ c)))

end Adj

open Adj

variable (m : (ℓ : Loc nD τ sig) → Buf (Elt Ideal) ℓ) (ρ : Dev nD → PrngReg) (c : Dev nD)

theorem V3_main_v44 : (V3 m ρ c main_v44 : S1024x1024.Idx → EReal)
    = fun i => Spec.AhatK (m ((c.tc : Thread nD τ).loc main_arg1)) (m ((c.tc : Thread nD τ).loc main_arg2)) (i 0) (i 1) := by
  funext i
  obtain ⟨a, b, rfl⟩ : ∃ a b, i = ix2 a b := ⟨i 0, i 1, eq_ix2 i⟩
  refine (congrFun (after2_v44 (W2 m ρ c)) (ix2 a b)).trans ?_
  rw [addf_apply, W2_v41, W2_v43, adjV_apply, diagV_apply]
  show _ = Spec.AhatK _ _ a b
  unfold Spec.AhatK ddV
  rw [mulf_apply, disV_apply]

end Cert.KernelIdeal.HandVal

end
-- ==== Proof.KVal.Host3.lean ====
/-
  Region 0's entry contents read back to the launch memory: each bias row is its argument vector given a leading unit
  axis by the third stretch of host operations, and each argument array the region reads is as launched, no host
  operation before the region writing it.
-/
import proofs.«418623_j62843961475769_1_alg».proof.Proof.KI.Fold
import proofs.«418623_j62843961475769_1_alg».proof.Proof.Cur
import proofs.«418623_j62843961475769_1_alg».proof.Proof.Gen.KernelIdeal.Regions
import Idealize.ShloMosaic.Lib.StableHlo.Run
import Idealize.ShloMosaic.Lib.ValueLayout
import Idealize.ShloMosaic.Lib.ValueIdx

set_option maxRecDepth 16384

noncomputable section

namespace Cert.KernelIdeal.HandVal

open Cert.KernelIdeal Cert.KernelIdeal.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg) (c : Dev nD)

/-! ## The third stretch of host operations, over any valuation before it

Its four operations write the normalised adjacency sum and the three bias rows; a bias row is its argument vector
cast from [64] to [1 × 64], which at (u, q) reads the vector at q. -/

theorem stretch3_v45 (X : Valuation τ sig (Elt Ideal)) :
    (StableHlo.after (Gen.hostOps0_2 (F := Ideal)) X (Proc.devRef .tc main_v45) : S1x64.Idx → EReal)
      = fun i => (X (Proc.devRef .tc main_arg4) : S64.Idx → EReal) (ix1 (i 1)) := by
  after_results
  funext i
  obtain ⟨u, q, rfl⟩ : ∃ (u : Fin 1) (q : Fin 64), i = ix2 u q := ⟨i 0, i 1, eq_ix2 i⟩
  show shapeCast S1x64 (X (Proc.devRef .tc main_arg4) : S64.Idx → EReal) Gen.shapeCasts_S64_S1x64 (ix2 u q) = _
  exact shapeCast_a_1a_apply _ _ u q

theorem stretch3_v46 (X : Valuation τ sig (Elt Ideal)) :
    (StableHlo.after (Gen.hostOps0_2 (F := Ideal)) X (Proc.devRef .tc main_v46) : S1x64.Idx → EReal)
      = fun i => (X (Proc.devRef .tc main_arg6) : S64.Idx → EReal) (ix1 (i 1)) := by
  after_results
  funext i
  obtain ⟨u, q, rfl⟩ : ∃ (u : Fin 1) (q : Fin 64), i = ix2 u q := ⟨i 0, i 1, eq_ix2 i⟩
  show shapeCast S1x64 (X (Proc.devRef .tc main_arg6) : S64.Idx → EReal) Gen.shapeCasts_S64_S1x64 (ix2 u q) = _
  exact shapeCast_a_1a_apply _ _ u q

theorem stretch3_v47 (X : Valuation τ sig (Elt Ideal)) :
    (StableHlo.after (Gen.hostOps0_2 (F := Ideal)) X (Proc.devRef .tc main_v47) : S1x64.Idx → EReal)
      = fun i => (X (Proc.devRef .tc main_arg8) : S64.Idx → EReal) (ix1 (i 1)) := by
  after_results
  funext i
  obtain ⟨u, q, rfl⟩ : ∃ (u : Fin 1) (q : Fin 64), i = ix2 u q := ⟨i 0, i 1, eq_ix2 i⟩
  show shapeCast S1x64 (X (Proc.devRef .tc main_arg8) : S64.Idx → EReal) Gen.shapeCasts_S64_S1x64 (ix2 u q) = _
  exact shapeCast_a_1a_apply _ _ u q

/-! ## A reference no operation of a stretch writes keeps its contents across it -/

theorem W1_of (r : Ref sig .tc) (h : r ∉ Gen.hostOps0_W) : W1 (F := Ideal) m ρ c (Proc.devRef .tc r) = W0 m ρ c (Proc.devRef .tc r) :=
  StableHlo.after_of_writes_sub Gen.hostOps0 _ Gen.hostOps0_writes h
theorem W2_of (r : Ref sig .tc) (h : r ∉ Gen.hostOps0_1_W) : W2 (F := Ideal) m ρ c (Proc.devRef .tc r) = W1 m ρ c (Proc.devRef .tc r) :=
  StableHlo.after_of_writes_sub Gen.hostOps0_1 _ Gen.hostOps0_1_writes h
theorem W3_of (r : Ref sig .tc) (h : r ∉ Gen.hostOps0_2_W) : W3 (F := Ideal) m ρ c (Proc.devRef .tc r) = W2 m ρ c (Proc.devRef .tc r) :=
  StableHlo.after_of_writes_sub Gen.hostOps0_2 _ Gen.hostOps0_2_writes h

/-- An argument no operation of the first two stretches writes is, after them, as launched. -/
theorem W2_arg (r : Ref sig .tc) (h1 : r ∉ Gen.hostOps0_W) (h2 : r ∉ Gen.hostOps0_1_W) :
    W2 (F := Ideal) m ρ c (Proc.devRef .tc r) = m ((c.tc : Thread nD τ).loc r) :=
  (W2_of m ρ c r h2).trans <| (W1_of m ρ c r h1).trans rfl

/-! ## Region 0's entry contents -/

/-- The first bias row is the first bias vector along its one row; -/
theorem V3_main_v45 : (V3 m ρ c main_v45 : S1x64.Idx → EReal) = fun i => (m ((c.tc : Thread nD τ).loc main_arg4) : S64.Idx → EReal) (ValueIdx.ix1 (i 1)) :=
  (stretch3_v45 (W2 m ρ c)).trans (by rw [W2_arg m ρ c main_arg4 (by decide) (by decide)])
/-- the second, the second; -/
theorem V3_main_v46 : (V3 m ρ c main_v46 : S1x64.Idx → EReal) = fun i => (m ((c.tc : Thread nD τ).loc main_arg6) : S64.Idx → EReal) (ValueIdx.ix1 (i 1)) :=
  (stretch3_v46 (W2 m ρ c)).trans (by rw [W2_arg m ρ c main_arg6 (by decide) (by decide)])
/-- the third, the third. -/
theorem V3_main_v47 : (V3 m ρ c main_v47 : S1x64.Idx → EReal) = fun i => (m ((c.tc : Thread nD τ).loc main_arg8) : S64.Idx → EReal) (ValueIdx.ix1 (i 1)) :=
  (stretch3_v47 (W2 m ρ c)).trans (by rw [W2_arg m ρ c main_arg8 (by decide) (by decide)])

/-- The features, -/
theorem V3_main_arg0 : V3 m ρ c main_arg0 = m ((c.tc : Thread nD τ).loc main_arg0) :=
  (W3_of m ρ c main_arg0 (by decide)).trans (W2_arg m ρ c main_arg0 (by decide) (by decide))
/-- the first weights, -/
theorem V3_main_arg3 : V3 m ρ c main_arg3 = m ((c.tc : Thread nD τ).loc main_arg3) :=
  (W3_of m ρ c main_arg3 (by decide)).trans (W2_arg m ρ c main_arg3 (by decide) (by decide))
/-- the second weights -/
theorem V3_main_arg5 : V3 m ρ c main_arg5 = m ((c.tc : Thread nD τ).loc main_arg5) :=
  (W3_of m ρ c main_arg5 (by decide)).trans (W2_arg m ρ c main_arg5 (by decide) (by decide))
/-- and the third weights are as launched. -/
theorem V3_main_arg7 : V3 m ρ c main_arg7 = m ((c.tc : Thread nD τ).loc main_arg7) :=
  (W3_of m ρ c main_arg7 (by decide)).trans (W2_arg m ρ c main_arg7 (by decide) (by decide))

end Cert.KernelIdeal.HandVal

end
-- ==== Proof.KVal.Host5.lean ====
/-
  What region 1 finds at its entry, in terms of the launch contents.

  Between the two kernel regions the host runs six operations: a zero; the sum of the first classifier weight, a
  [4 × 64] table, over its four rows from that zero; that sum laid out as one row of 64; and three biases (of 64, 64
  and 4 entries), each laid out as one row. None of the operands was written on the way: they are arguments of the
  program, no host operation writes an argument, and region 0 has no window on any of them; so each still holds what
  the launch put there, and the same holds for the two weights region 1 reads whole.

  Read at an index: a vector laid out as one row has, in column j, the vector's entry j; the sum over the rows of a
  table from a start value has, at column j, the start value plus the sum over the rows r of the entry (r, j); the
  word of all zero bits denotes zero. So the summed weight at column j is 0 + Σ_r Wc1 r j, the form the decoder's
  mathematics is stated in.
-/
import proofs.«418623_j62843961475769_1_alg».proof.Proof.KI.Fold
import proofs.«418623_j62843961475769_1_alg».proof.Proof.Cur
import proofs.«418623_j62843961475769_1_alg».proof.Proof.Gen.KernelIdeal.Regions
import Idealize.ShloMosaic.Lib.ValueLayout
import Idealize.ShloMosaic.Lib.IdealHost
import Idealize.ShloMosaic.PureOps.Ideal.Laws

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx
open Idealize.SL Idealize.SL.Sem
open scoped BigOperators

/-! ## The two operations of the stretch, read at an index -/

/-- A vector of `q` entries laid out as one row: the row's entry in column `j` is the vector's entry `j`. -/
theorem shapeCast_row_apply {α : Type} {q : ℕ} (x : (⟨1, ![q]⟩ : Shape).Idx → α)
    (h : (⟨1, ![q]⟩ : Shape).ShapeCasts ⟨2, ![1, q]⟩) (i : (⟨2, ![1, q]⟩ : Shape).Idx) :
    shapeCast ⟨2, ![1, q]⟩ x h i = x (ix1 (i 1)) :=
  (congrArg (shapeCast ⟨2, ![1, q]⟩ x h) (eq_ix2 i)).trans (shapeCast_a_1a_apply x h (i 0) (i 1))

/-- The index of a [p × q] table that lies over column `j` in row `r`. -/
theorem lift_rows {p q : ℕ} (h : (⟨2, ![p, q]⟩ : Shape).Reduces [(0 : Fin 2)] ⟨1, ![q]⟩)
    (j : (⟨1, ![q]⟩ : Shape).Idx) (r : Fin p) : h.lift j r = ix2 r (j 0) := by
  funext b
  apply Fin.ext
  show Shape.Reduces.liftVal h j r.val b = (ix2 r (j 0) b).val
  unfold Shape.Reduces.liftVal
  match b with
  | ⟨0, _⟩ => simp
  | ⟨1, _⟩ => simp

/-- The sum of a [p × q] table over its rows, from a start value: at column `j`, the start value plus the sum over the
    rows `r` of the entry `(r, j)`. -/
theorem reduceRows_apply {p q : ℕ} {u : Shape} (x : FVec Ideal ⟨2, ![p, q]⟩ .f32) (init : u.Idx → Ideal .f32)
    (h' : (⟨2, ![p, q]⟩ : Shape).ReducesTo [(0 : Fin 2)] ⟨1, ![q]⟩) (hu : 0 < u.numel)
    (h : (⟨2, ![p, q]⟩ : Shape).Reduces [(0 : Fin 2)] ⟨1, ![q]⟩) (j : (⟨1, ![q]⟩ : Shape).Idx) :
    Host.reduceAdd x init h' hu j = init (Shape.Idx.first hu) + ∑ r : Fin p, x (ix2 r (j 0)) := by
  rw [hostReduceAdd_apply, Ideal.hostReduceAdd_single h' h]
  exact congrArg (fun t => init (Shape.Idx.first hu) + t) (Finset.sum_congr rfl fun r _ => congrArg x (lift_rows h j r))

variable (m : (ℓ : Loc nD τ sig) → Buf (Elt Ideal) ℓ) (ρ : Dev nD → PrngReg) (c : Dev nD)

/-! ## An argument of @main, read through the fold -/

/-- A buffer that no host operation before region 0 writes and that is no array of region 0's windows holds, at region
    0's exit, what the launch put there. -/
theorem W4_arg (r : Ref sig .tc) (h0 : r ∉ hostOps0_W) (h1 : r ∉ hostOps0_1_W) (h2 : r ∉ hostOps0_2_W)
    (hw : ∀ w, Pipeline.arrRef spec0 w ≠ r) :
    Hand.W4 m ρ c (Proc.devRef .tc r) = m ((c.tc : Thread nD τ).loc r) :=
  (Hand.W4_of_ne m ρ c r hw).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-! ## Region 1's entry -/

/-- The first classifier weight, summed over its four rows and laid out as one row. -/
theorem V5_main_v50 : (Hand.V5 m ρ c main_v50 : S1x64.Idx → EReal)
    = fun i => Spec.wsum (Spec.cur2 (m ((c.tc : Thread nD τ).loc main_arg9) : S4x64.Idx → EReal)) (i 1) := by
  have e : (Hand.V5 m ρ c main_v50 : S1x64.Idx → EReal)
      = shapeCast S1x64 (Host.reduceAdd (F := Ideal) (Hand.W4 m ρ c (Proc.devRef .tc main_arg9) : S4x64.Idx → EReal)
          (constant (F := Ideal) S_ .f32 0x00000000#32) reducesTo_S4x64_S64_d0 h_S_) shapeCasts_S64_S1x64 := by
    show StableHlo.after hostOps1 _ (Proc.devRef .tc main_v50) = _
    after_results
    rfl
  rw [e, W4_arg m ρ c main_arg9 (by decide) (by decide) (by decide) (by decide)]
  funext i
  rw [shapeCast_row_apply, reduceRows_apply _ _ _ _ (by decide)]
  show Ideal.ofBits .f32 0x00000000#32 + _ = _
  rw [Ideal.ofBits_zero_f32]
  rfl

/-- A bias of 64 entries laid out as one row. -/
theorem V5_main_v51 : (Hand.V5 m ρ c main_v51 : S1x64.Idx → EReal)
    = fun i => (m ((c.tc : Thread nD τ).loc main_arg10) : S64.Idx → EReal) (ValueIdx.ix1 (i 1)) := by
  have e : (Hand.V5 m ρ c main_v51 : S1x64.Idx → EReal)
      = shapeCast S1x64 (Hand.W4 m ρ c (Proc.devRef .tc main_arg10) : S64.Idx → EReal) shapeCasts_S64_S1x64 := by
    show StableHlo.after hostOps1 _ (Proc.devRef .tc main_v51) = _
    after_results
    rfl
  rw [e, W4_arg m ρ c main_arg10 (by decide) (by decide) (by decide) (by decide)]
  funext i
  exact shapeCast_row_apply _ _ i

theorem V5_main_v52 : (Hand.V5 m ρ c main_v52 : S1x64.Idx → EReal)
    = fun i => (m ((c.tc : Thread nD τ).loc main_arg12) : S64.Idx → EReal) (ValueIdx.ix1 (i 1)) := by
  have e : (Hand.V5 m ρ c main_v52 : S1x64.Idx → EReal)
      = shapeCast S1x64 (Hand.W4 m ρ c (Proc.devRef .tc main_arg12) : S64.Idx → EReal) shapeCasts_S64_S1x64 := by
    show StableHlo.after hostOps1 _ (Proc.devRef .tc main_v52) = _
    after_results
    rfl
  rw [e, W4_arg m ρ c main_arg12 (by decide) (by decide) (by decide) (by decide)]
  funext i
  exact shapeCast_row_apply _ _ i

/-- The last bias, of 4 entries, laid out as one row. -/
theorem V5_main_v53 : (Hand.V5 m ρ c main_v53 : S1x4.Idx → EReal)
    = fun i => (m ((c.tc : Thread nD τ).loc main_arg14) : S4.Idx → EReal) (ValueIdx.ix1 (i 1)) := by
  have e : (Hand.V5 m ρ c main_v53 : S1x4.Idx → EReal)
      = shapeCast S1x4 (Hand.W4 m ρ c (Proc.devRef .tc main_arg14) : S4.Idx → EReal) shapeCasts_S4_S1x4 := by
    show StableHlo.after hostOps1 _ (Proc.devRef .tc main_v53) = _
    after_results
    rfl
  rw [e, W4_arg m ρ c main_arg14 (by decide) (by decide) (by decide) (by decide)]
  funext i
  exact shapeCast_row_apply _ _ i

/-- The two weights region 1 reads whole are as launched: no host operation writes them, region 0 has no window on them. -/
theorem V5_main_arg11 : Hand.V5 m ρ c main_arg11 = m ((c.tc : Thread nD τ).loc main_arg11) :=
  (StableHlo.after_of_writes_sub hostOps1 _ hostOps1_writes (by decide)).trans
    (W4_arg m ρ c main_arg11 (by decide) (by decide) (by decide) (by decide))

theorem V5_main_arg13 : Hand.V5 m ρ c main_arg13 = m ((c.tc : Thread nD τ).loc main_arg13) :=
  (StableHlo.after_of_writes_sub hostOps1 _ hostOps1_writes (by decide)).trans
    (W4_arg m ρ c main_arg13 (by decide) (by decide) (by decide) (by decide))

end Cert.KernelIdeal.HandVal

end
-- ==== Proof.KVal.Dec.lean ====
/-
  The decoder's region, read: for any contents `V` the arrays hold when the region is entered, what the 8 × 8 grid of the
  decoder's pipeline leaves in its result array, as the certificate's curried mathematics. At the pair of nodes `(n, m)`
  and class `cc` it is `Spec.dec` of the encoder's first result and the six small arrays: the point `(n / 128, m / 128)`
  of the grid writes the block that holds `(n, m)`, from row block `n / 128` and row block `m / 128` of the same array.
  Here: the body's payload at an index (three matrix products over 64 terms, the reshapes between a pair `(a, b)` and the
  row `128 a + b`, the pointwise steps), each window's block read off its array, what a point writes back as a block of
  one function of the arrays, the cover of the result array by the 64 blocks, and the array after the run.
-/
import proofs.«418623_j62843961475769_1_alg».proof.Proof.KI.Region1
import proofs.«418623_j62843961475769_1_alg».proof.Proof.Cur
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)
open scoped BigOperators

/-! ## The three matrix products of the decoder, read at an index

Each contracts the left operand's second axis with the right operand's first, over 64 terms, into a zero
accumulator: the entry at `(p, q)` is the sum over `g` of the products `l (p, g) * r (g, q)`. -/

theorem lhs_sc_0 (i : S128x128.Idx) (q : dot_S128x64_S64x128_S128x128_1_0_0_1_n_n.contr.Idx) :
    (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem lhs_sc_1 (i : S128x128.Idx) (q : dot_S128x64_S64x128_S128x128_1_0_0_1_n_n.contr.Idx) :
    (dot_S128x64_S64x128_S128x128_1_0_0_1_n_n.lhsIdx i q 1).val = (q ⟨0, by decide⟩).val :=
  dot_S128x64_S64x128_S128x128_1_0_0_1_n_n.lhsIdx_val_of_single rfl i q
theorem rhs_sc_0 (i : S128x128.Idx) (q : dot_S128x64_S64x128_S128x128_1_0_0_1_n_n.contr.Idx) :
    (dot_S128x64_S64x128_S128x128_1_0_0_1_n_n.rhsIdx i q 0).val = (q ⟨0, by decide⟩).val :=
  dot_S128x64_S64x128_S128x128_1_0_0_1_n_n.rhsIdx_val_of_single rfl i q
theorem rhs_sc_1 (i : S128x128.Idx) (q : dot_S128x64_S64x128_S128x128_1_0_0_1_n_n.contr.Idx) :
    (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- The pairwise scores' product: a [128 × 64] block against a [64 × 128] one. -/
theorem mm_sc_apply {φ₁ φ₂ : FTy} (l : FVec Ideal S128x64 φ₁) (r : FVec Ideal S64x128 φ₂) (p : Fin 128) (q : Fin 128) :
    matmul dot_S128x64_S64x128_S128x128_1_0_0_1_n_n none l r (constant S128x128 .f32 0x00000000#32) (ix2 p q) = ∑ g : Fin 64, l (ix2 p g) * r (ix2 g q) := by
  refine (Ideal.matmul_constant_zero_apply dot_S128x64_S64x128_S128x128_1_0_0_1_n_n none l r (ix2 p q)).trans ?_
  rw [← Equiv.sum_comp (contrEquiv1 dot_S128x64_S64x128_S128x128_1_0_0_1_n_n 64 rfl rfl).symm]
  refine Finset.sum_congr rfl fun g _ => ?_
  have hk := contrEquiv1_symm_val dot_S128x64_S64x128_S128x128_1_0_0_1_n_n 64 rfl rfl g
  have el : dot_S128x64_S64x128_S128x128_1_0_0_1_n_n.lhsIdx (ix2 p q) ((contrEquiv1 dot_S128x64_S64x128_S128x128_1_0_0_1_n_n 64 rfl rfl).symm g) = ix2 p g := funext fun ax => Fin.ext (by
    match ax with
    | ⟨0, _⟩ => exact lhs_sc_0 _ _
    | ⟨1, _⟩ => exact (lhs_sc_1 _ _).trans hk)
  have er : dot_S128x64_S64x128_S128x128_1_0_0_1_n_n.rhsIdx (ix2 p q) ((contrEquiv1 dot_S128x64_S64x128_S128x128_1_0_0_1_n_n 64 rfl rfl).symm g) = ix2 g q := funext fun ax => Fin.ext (by
    match ax with
    | ⟨0, _⟩ => exact (rhs_sc_0 _ _).trans hk
    | ⟨1, _⟩ => exact rhs_sc_1 _ _)
  rw [el, er]

theorem lhs_hid_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhs_hid_1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
theorem rhs_hid_0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
theorem rhs_hid_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The hidden layer's product: one row per pair of nodes against the [64 × 64] weight. -/
theorem mm_hid_apply {φ₁ φ₂ : FTy} (l : FVec Ideal S16384x64 φ₁) (r : FVec Ideal S64x64 φ₂) (p : Fin 16384) (q : Fin 64) :
    matmul dot_S16384x64_S64x64_S16384x64_1_0_0_1_n_n none l r (constant S16384x64 .f32 0x00000000#32) (ix2 p q) = ∑ g : Fin 64, l (ix2 p g) * r (ix2 g q) := by
  refine (Ideal.matmul_constant_zero_apply dot_S16384x64_S64x64_S16384x64_1_0_0_1_n_n none l r (ix2 p q)).trans ?_
  rw [← Equiv.sum_comp (contrEquiv1 dot_S16384x64_S64x64_S16384x64_1_0_0_1_n_n 64 rfl rfl).symm]
  refine Finset.sum_congr rfl fun g _ => ?_
  have hk := contrEquiv1_symm_val dot_S16384x64_S64x64_S16384x64_1_0_0_1_n_n 64 rfl rfl g
  have el : dot_S16384x64_S64x64_S16384x64_1_0_0_1_n_n.lhsIdx (ix2 p q) ((contrEquiv1 dot_S16384x64_S64x64_S16384x64_1_0_0_1_n_n 64 rfl rfl).symm g) = ix2 p g := funext fun ax => Fin.ext (by
    match ax with
    | ⟨0, _⟩ => exact lhs_hid_0 _ _
    | ⟨1, _⟩ => exact (lhs_hid_1 _ _).trans hk)
  have er : dot_S16384x64_S64x64_S16384x64_1_0_0_1_n_n.rhsIdx (ix2 p q) ((contrEquiv1 dot_S16384x64_S64x64_S16384x64_1_0_0_1_n_n 64 rfl rfl).symm g) = ix2 g q := funext fun ax => Fin.ext (by
    match ax with
    | ⟨0, _⟩ => exact (rhs_hid_0 _ _).trans hk
    | ⟨1, _⟩ => exact rhs_hid_1 _ _)
  rw [el, er]

theorem lhs_cls_0 (i : S16384x4.Idx) (q : dot_S16384x64_S64x4_S16384x4_1_0_0_1_n_n.contr.Idx) :
    (dot_S16384x64_S64x4_S16384x4_1_0_0_1_n_n.lhsIdx i q 0).val = (i 0).val := by
  unfold DotDims.lhsIdx
  rw [dif_neg (show ¬(0 : Fin S16384x64.rank) ∈ dot_S16384x64_S64x4_S16384x4_1_0_0_1_n_n.lhsBatch by decide), dif_pos (show (0 : Fin S16384x64.rank) ∈ dot_S16384x64_S64x4_S16384x4_1_0_0_1_n_n.lhsNonContracting by decide)]
  rfl
theorem lhs_cls_1 (i : S16384x4.Idx) (q : dot_S16384x64_S64x4_S16384x4_1_0_0_1_n_n.contr.Idx) :
    (dot_S16384x64_S64x4_S16384x4_1_0_0_1_n_n.lhsIdx i q 1).val = (q ⟨0, by decide⟩).val :=
  dot_S16384x64_S64x4_S16384x4_1_0_0_1_n_n.lhsIdx_val_of_single rfl i q
theorem rhs_cls_0 (i : S16384x4.Idx) (q : dot_S16384x64_S64x4_S16384x4_1_0_0_1_n_n.contr.Idx) :
    (dot_S16384x64_S64x4_S16384x4_1_0_0_1_n_n.rhsIdx i q 0).val = (q ⟨0, by decide⟩).val :=
  dot_S16384x64_S64x4_S16384x4_1_0_0_1_n_n.rhsIdx_val_of_single rfl i q
theorem rhs_cls_1 (i : S16384x4.Idx) (q : dot_S16384x64_S64x4_S16384x4_1_0_0_1_n_n.contr.Idx) :
    (dot_S16384x64_S64x4_S16384x4_1_0_0_1_n_n.rhsIdx i q 1).val = (i 1).val := by
  unfold DotDims.rhsIdx
  rw [dif_neg (show ¬(1 : Fin S64x4.rank) ∈ dot_S16384x64_S64x4_S16384x4_1_0_0_1_n_n.rhsBatch by decide), dif_pos (show (1 : Fin S64x4.rank) ∈ dot_S16384x64_S64x4_S16384x4_1_0_0_1_n_n.rhsNonContracting by decide)]
  rfl

/-- The classifier's product: one row per pair of nodes against the [64 × 4] weight. -/
theorem mm_cls_apply {φ₁ φ₂ : FTy} (l : FVec Ideal S16384x64 φ₁) (r : FVec Ideal S64x4 φ₂) (p : Fin 16384) (q : Fin 4) :
    matmul dot_S16384x64_S64x4_S16384x4_1_0_0_1_n_n none l r (constant S16384x4 .f32 0x00000000#32) (ix2 p q) = ∑ g : Fin 64, l (ix2 p g) * r (ix2 g q) := by
  refine (Ideal.matmul_constant_zero_apply dot_S16384x64_S64x4_S16384x4_1_0_0_1_n_n none l r (ix2 p q)).trans ?_
  rw [← Equiv.sum_comp (contrEquiv1 dot_S16384x64_S64x4_S16384x4_1_0_0_1_n_n 64 rfl rfl).symm]
  refine Finset.sum_congr rfl fun g _ => ?_
  have hk := contrEquiv1_symm_val dot_S16384x64_S64x4_S16384x4_1_0_0_1_n_n 64 rfl rfl g
  have el : dot_S16384x64_S64x4_S16384x4_1_0_0_1_n_n.lhsIdx (ix2 p q) ((contrEquiv1 dot_S16384x64_S64x4_S16384x4_1_0_0_1_n_n 64 rfl rfl).symm g) = ix2 p g := funext fun ax => Fin.ext (by
    match ax with
    | ⟨0, _⟩ => exact lhs_cls_0 _ _
    | ⟨1, _⟩ => exact (lhs_cls_1 _ _).trans hk)
  have er : dot_S16384x64_S64x4_S16384x4_1_0_0_1_n_n.rhsIdx (ix2 p q) ((contrEquiv1 dot_S16384x64_S64x4_S16384x4_1_0_0_1_n_n 64 rfl rfl).symm g) = ix2 g q := funext fun ax => Fin.ext (by
    match ax with
    | ⟨0, _⟩ => exact (rhs_cls_0 _ _).trans hk
    | ⟨1, _⟩ => exact rhs_cls_1 _ _)
  rw [el, er]

/-! ## The reshapes between a pair of nodes `(a, b)` and the row `128 a + b` -/

/-- A [128 × 128 × 64] array flattened to [16384 × 64] reads, at row `128 a + b`, the operand at `(a, b)`. -/
theorem flatten_apply {α : Type} (x : S128x128x64.Idx → α) (hc : S128x128x64.ShapeCasts S16384x64) (a b : Fin 128) (h : Fin 64)
    (p : Fin 16384) (hp : p.val = 128 * a.val + b.val) : shapeCast S16384x64 x hc (ix2 p h) = x (ix3 a b h) :=
  shapeCast_apply x hc _ _ (by
    rw [Shape.rowMajor_val_three, Shape.rowMajor_val_two]
    show (a.val * 128 + b.val) * 64 + h.val = p.val * 64 + h.val
    omega)

/-- A [16384 × 4] array unflattened to [128 × 128 × 4] reads, at `(a, b)`, the operand at row `128 a + b`. -/
theorem unflatten_apply {α : Type} (x : S16384x4.Idx → α) (hc : S16384x4.ShapeCasts S128x128x4) (a b : Fin 128) (cc : Fin 4)
    (p : Fin 16384) (hp : p.val = 128 * a.val + b.val) : shapeCast S128x128x4 x hc (ix3 a b cc) = x (ix2 p cc) :=
  shapeCast_apply x hc _ _ (by
    rw [Shape.rowMajor_val_three, Shape.rowMajor_val_two]
    show p.val * 4 + cc.val = (a.val * 128 + b.val) * 4 + cc.val
    omega)

/-- A [128 × 128] array given a trailing unit axis and broadcast along it reads, at `(a, b, h)`, the operand at `(a, b)`. -/
theorem spread_pairs_apply {α : Type} (x : S128x128.Idx → α) (hc : S128x128.ShapeCasts S128x128x1)
    (hb : S128x128x1.Broadcasts S128x128x64) (a b : Fin 128) (h : Fin 64) :
    broadcastTo S128x128x64 (shapeCast S128x128x1 x hc) hb (ix3 a b h) = x (ix2 a b) := by
  refine (broadcastTo_apply _ hb (ix3 a b h) (ix3 a b (0 : Fin 1)) fun ax => ?_).trans ?_
  · match ax with
    | ⟨0, _⟩ => rfl
    | ⟨1, _⟩ => rfl
    | ⟨2, _⟩ => rfl
  · exact shapeCast_apply x hc _ _ (by
      rw [Shape.rowMajor_val_three, Shape.rowMajor_val_two]
      show a.val * 128 + b.val = (a.val * 128 + b.val) * 1 + 0
      omega)

/-- A [1 × 64] row given two leading unit axes and broadcast to [128 × 128 × 64] reads, at `(a, b, h)`, the row at `h`. -/
theorem spread_row_apply {α : Type} (x : S1x64.Idx → α) (hc : S1x64.ShapeCasts S1x1x64)
    (hb : S1x1x64.Broadcasts S128x128x64) (a b : Fin 128) (h : Fin 64) :
    broadcastTo S128x128x64 (shapeCast S1x1x64 x hc) hb (ix3 a b h) = x (ix2 (0 : Fin 1) h) := by
  refine (broadcastTo_apply _ hb (ix3 a b h) (ix3 (0 : Fin 1) (0 : Fin 1) h) fun ax => ?_).trans ?_
  · match ax with
    | ⟨0, _⟩ => rfl
    | ⟨1, _⟩ => rfl
    | ⟨2, _⟩ => rfl
  · exact shapeCast_apply x hc _ _ (by
      rw [Shape.rowMajor_val_three, Shape.rowMajor_val_two]
      show 0 * 64 + h.val = (0 * 1 + 0) * 64 + h.val
      omega)

/-- A [128 × 64] block transposed reads, at `(g, b)`, the block at `(b, g)`. -/
theorem transpose_rows_apply {α : Type} (x : S128x64.Idx → α) (ht : S128x64.Transposes [1, 0] S64x128) (g : Fin 64) (b : Fin 128) :
    transpose S64x128 [1, 0] x ht (ix2 g b) = x (ix2 b g) :=
  transpose_ix2_apply x ht g b

/-! ## The body's payload at an index -/

/-- The lane-by-lane logistic read at an index. -/
theorem logistic_apply {s : Shape} {φ : FTy} (v : FVec Ideal s φ) (i : s.Idx) : logistic v i = Ideal.logistic (v i) := rfl

/-- The zero word of a 32-bit float denotes zero. -/
theorem scalar_zero : (Scalar.ofBits (F := Ideal) .f32 0x00000000#32 : Ideal .f32) = 0 := Ideal.ofBits_zero_f32

/-- The decoder's last step at the pair `(a, b)` and class `cc`: the logistic of the classifier's row `128 a + b` plus the bias. -/
theorem pay1_apply (v37 : FVec Ideal S16384x4 .f32) (v38 : Vec Ideal S1x4 .f32) (a b : Fin 128) (cc : Fin 4)
    (p : Fin 16384) (hp : p.val = 128 * a.val + b.val) :
    k1_pay1 v37 v38 (ix3 a b cc) = Ideal.logistic (v37 (ix2 p cc) + v38 (ix2 (0 : Fin 1) cc)) := by
  unfold k1_pay1
  simp only [unflatten_apply _ _ a b _ p hp, logistic_apply, addf_apply, shapeCast_self, broadcastTo_1b_ab_apply]

/-- The pairwise score at `(a, b)`: the logistic of the inner product of row `a` of the first block and row `b` of the second
    (the second block transposed, the two multiplied into a zero accumulator). -/
theorem scores_apply (x0 x1 : Vec Ideal S128x64 .f32) (a b : Fin 128) :
    (logistic (matmul dot_S128x64_S64x128_S128x128_1_0_0_1_n_n none
        (truncf (F := Ideal) .bf16 (shapeCast S128x64 x0 shapeCasts_S128x64_S128x64) bitsLt_bf16_f32)
        (transpose S64x128 [1, 0] (truncf (F := Ideal) .bf16 (shapeCast S128x64 x1 shapeCasts_S128x64_S128x64) bitsLt_bf16_f32)
          transposes_S128x64_p1_0_S64x128)
        (constant S128x128 .f32 0x00000000#32)) : FVec Ideal S128x128 .f32) (ix2 a b)
      = Ideal.logistic (∑ g : Fin 64, x0 (ix2 a g) * x1 (ix2 b g)) := by
  rw [logistic_apply, mm_sc_apply]
  refine congrArg Ideal.logistic (Finset.sum_congr rfl fun g _ => ?_)
  rw [transpose_rows_apply, truncf_apply, truncf_apply, shapeCast_self, shapeCast_self]

/-- The decoder before its last step, at row `128 a + b` and class `cc`: the logistic of the inner product of rows `a` and
    `b`, then two affine maps each followed by a maximum with zero, then the classifier's product. -/
theorem dec_pay2_apply (x0 x1 : Vec Ideal S128x64 .f32) (x2 x3 : Vec Ideal S1x64 .f32) (x4 : Vec Ideal S64x64 .f32)
    (x5 : Vec Ideal S1x64 .f32) (x6 : Vec Ideal S64x4 .f32) (a b : Fin 128) (cc : Fin 4)
    (p : Fin 16384) (hp : p.val = 128 * a.val + b.val) :
    k1_pay2 x0 x1 x2 x3 x4 x5 x6 (ix2 p cc)
      = ∑ k : Fin 64, max ((∑ h : Fin 64, max (Ideal.logistic (∑ g : Fin 64, x0 (ix2 a g) * x1 (ix2 b g)) * x2 (ix2 (0 : Fin 1) h)
          + x3 (ix2 (0 : Fin 1) h)) 0 * x4 (ix2 h k)) + x5 (ix2 (0 : Fin 1) k)) 0 * x6 (ix2 k cc) := by
  unfold k1_pay2
  dsimp only
  generalize hS : (logistic (matmul dot_S128x64_S64x128_S128x128_1_0_0_1_n_n none
      (truncf (F := Ideal) .bf16 (shapeCast S128x64 x0 shapeCasts_S128x64_S128x64) bitsLt_bf16_f32)
      (transpose S64x128 [1, 0] (truncf (F := Ideal) .bf16 (shapeCast S128x64 x1 shapeCasts_S128x64_S128x64) bitsLt_bf16_f32)
        transposes_S128x64_p1_0_S64x128)
      (constant S128x128 .f32 0x00000000#32)) : FVec Ideal S128x128 .f32) = S
  have hSab : S (ix2 a b) = Ideal.logistic (∑ g : Fin 64, x0 (ix2 a g) * x1 (ix2 b g)) := by
    rw [← hS]; exact scores_apply x0 x1 a b
  simp only [mm_cls_apply, mm_hid_apply, truncf_apply, maximumf_apply, addf_apply, mulf_apply, broadcast_apply,
    scalar_zero, shapeCast_self, broadcastTo_1b_ab_apply, flatten_apply _ _ a b _ p hp,
    spread_pairs_apply, spread_row_apply, hSab]

/-- THE BODY'S RESULT AT AN INDEX: what the one store leaves at `(a, b, cc)` of the output block, from the eight loaded
    blocks. -/
theorem out1_8_apply (x0 x1 : Vec Ideal S128x64 .f32) (x2 x3 : Vec Ideal S1x64 .f32) (x4 : Vec Ideal S64x64 .f32)
    (x5 : Vec Ideal S1x64 .f32) (x6 : Vec Ideal S64x4 .f32) (x7 : Vec Ideal S1x4 .f32) (a b : Fin 128) (cc : Fin 4) :
    out1_8 x0 x1 x2 x3 x4 x5 x6 x7 (ix3 a b cc)
      = Ideal.logistic ((∑ k : Fin 64, max ((∑ h : Fin 64, max (Ideal.logistic (∑ g : Fin 64, x0 (ix2 a g) * x1 (ix2 b g)) * x2 (ix2 (0 : Fin 1) h)
          + x3 (ix2 (0 : Fin 1) h)) 0 * x4 (ix2 h k)) + x5 (ix2 (0 : Fin 1) k)) 0 * x6 (ix2 k cc)) + x7 (ix2 (0 : Fin 1) cc)) := by
  have hz3 : (![0, 0, 0] : Fin 3 → Nat) = fun _ => 0 := funext fun d => by fin_cases d <;> rfl
  have hz2 : (![0, 0] : Fin 2 → Nat) = fun _ => 0 := funext fun d => by fin_cases d <;> rfl
  unfold out1_8
  rw [View.canon_unit_zero hz3]
  simp only [View.ld_unit_zero (S := S128x64) hz2, View.ld_unit_zero (S := S1x64) hz2, View.ld_unit_zero (S := S64x64) hz2,
    View.ld_unit_zero (S := S64x4) hz2, View.ld_unit_zero (S := S1x4) hz2]
  have hp : (⟨128 * a.val + b.val, by have := a.isLt; have := b.isLt; omega⟩ : Fin 16384).val = 128 * a.val + b.val := rfl
  rw [pay1_apply _ _ a b cc _ hp, dec_pay2_apply x0 x1 x2 x3 x4 x5 x6 a b cc _ hp]

/-! ## From blocks to the array -/

-- the contents the arrays hold when the region is entered
variable (V : (c : Dev nD) → (b : Ref sig .tc) → Buf (Elt Ideal) ((c : Thread nD τ).loc b))

/-- The result array as one function of the entry contents: at `(n, m, k)` the decoder of rows `n` and `m` of the encoder's
    first result, class `k`. -/
def decArr (c : Dev nD) : S1024x1024x4.Idx → EReal := fun i =>
  Spec.dec (cur2 (V c main_v48_0)) (row1 (V c main_v50)) (row1 (V c main_v51)) (cur2 (V c main_arg11)) (row1 (V c main_v52)) (cur2 (V c main_arg13)) (row1 (V c main_v53)) (i 0) (i 1) (i 2)

/-- The printed index maps, decided over the 64 points: at point `t`, of grid coordinates `(t / 8, t % 8)`, window 0 is on row
    block `t / 8`, window 1 on row block `t % 8`, the six small windows on their one block, and the result's window on block
    `(t / 8, t % 8, 0)`. -/
theorem idx_facts : ∀ t : Fin cfg1.N,
    win1_0.index t (0 : Fin 2) = t.val / 8
    ∧ win1_0.index t (1 : Fin 2) = 0
    ∧ win1_1.index t (0 : Fin 2) = t.val % 8
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 3) = t.val / 8
    ∧ win1_8.index t (1 : Fin 3) = t.val % 8
    ∧ win1_8.index t (2 : Fin 3) = 0 :=
  (by decide +kernel : ∀ t : Fin grid1.N, _)

/-- Window 0's block at point `t` is rows `128 (t / 8) …` of the encoder's first result. -/
theorem iblk_rows0 (c : Dev nD) (t : Fin cfg1.N) (a : Fin 128) (g : Fin 64) (n : Fin 1024) (hn : n.val = 128 * (t.val / 8) + a.val) :
    (iblk1 V c 0 t : Vec Ideal S128x64 .f32) (ix2 a g) = (V c main_v48_0 : S1024x64.Idx → EReal) (ix2 n g) := by
  obtain ⟨e0_0, e0_1, e1_0, e1_1, e2_0, e2_1, e3_0, e3_1, e4_0, e4_1, e5_0, e5_1, e6_0, e6_1, e7_0, e7_1, e8_0, e8_1, e8_2⟩ := idx_facts t
  show V c main_v48_0 (((cfg1.win 0).blk t).view.emb (ix2 a g)) = V c main_v48_0 (ix2 n g)
  congr 1
  funext ax
  apply Fin.ext
  match ax with
  | ⟨0, _⟩ => show win1_0.index t (0 : Fin 2) * 128 + 1 * a.val = n.val; rw [e0_0, hn]; omega
  | ⟨1, _⟩ => show win1_0.index t (1 : Fin 2) * 64 + 1 * g.val = g.val; rw [e0_1]; omega

/-- Window 1's block at point `t` is rows `128 (t % 8) …` of the same array. -/
theorem iblk_rows1 (c : Dev nD) (t : Fin cfg1.N) (b : Fin 128) (g : Fin 64) (m : Fin 1024) (hm : m.val = 128 * (t.val % 8) + b.val) :
    (iblk1 V c 1 t : Vec Ideal S128x64 .f32) (ix2 b g) = (V c main_v48_0 : S1024x64.Idx → EReal) (ix2 m g) := by
  obtain ⟨e0_0, e0_1, e1_0, e1_1, e2_0, e2_1, e3_0, e3_1, e4_0, e4_1, e5_0, e5_1, e6_0, e6_1, e7_0, e7_1, e8_0, e8_1, e8_2⟩ := idx_facts t
  show V c main_v48_0 (((cfg1.win 1).blk t).view.emb (ix2 b g)) = V c main_v48_0 (ix2 m g)
  congr 1
  funext ax
  apply Fin.ext
  match ax with
  | ⟨0, _⟩ => show win1_1.index t (0 : Fin 2) * 128 + 1 * b.val = m.val; rw [e1_0, hm]; omega
  | ⟨1, _⟩ => show win1_1.index t (1 : Fin 2) * 64 + 1 * g.val = g.val; rw [e1_1]; omega

/-- Window 2's one block is its whole array. -/
theorem iblk_whole2 (c : Dev nD) (t : Fin cfg1.N) (p : Fin 1) (q : Fin 64) :
    (iblk1 V c 2 t : Vec Ideal S1x64 .f32) (ix2 p q) = (V c main_v50 : S1x64.Idx → EReal) (ix2 p q) := by
  obtain ⟨e0_0, e0_1, e1_0, e1_1, e2_0, e2_1, e3_0, e3_1, e4_0, e4_1, e5_0, e5_1, e6_0, e6_1, e7_0, e7_1, e8_0, e8_1, e8_2⟩ := idx_facts t
  show V c main_v50 (((cfg1.win 2).blk t).view.emb (ix2 p q)) = V c main_v50 (ix2 p q)
  congr 1
  funext ax
  apply Fin.ext
  match ax with
  | ⟨0, _⟩ => show win1_2.index t (0 : Fin 2) * 1 + 1 * p.val = p.val; rw [e2_0]; omega
  | ⟨1, _⟩ => show win1_2.index t (1 : Fin 2) * 64 + 1 * q.val = q.val; rw [e2_1]; omega

/-- Window 3's one block is its whole array. -/
theorem iblk_whole3 (c : Dev nD) (t : Fin cfg1.N) (p : Fin 1) (q : Fin 64) :
    (iblk1 V c 3 t : Vec Ideal S1x64 .f32) (ix2 p q) = (V c main_v51 : S1x64.Idx → EReal) (ix2 p q) := by
  obtain ⟨e0_0, e0_1, e1_0, e1_1, e2_0, e2_1, e3_0, e3_1, e4_0, e4_1, e5_0, e5_1, e6_0, e6_1, e7_0, e7_1, e8_0, e8_1, e8_2⟩ := idx_facts t
  show V c main_v51 (((cfg1.win 3).blk t).view.emb (ix2 p q)) = V c main_v51 (ix2 p q)
  congr 1
  funext ax
  apply Fin.ext
  match ax with
  | ⟨0, _⟩ => show win1_3.index t (0 : Fin 2) * 1 + 1 * p.val = p.val; rw [e3_0]; omega
  | ⟨1, _⟩ => show win1_3.index t (1 : Fin 2) * 64 + 1 * q.val = q.val; rw [e3_1]; omega

/-- Window 4's one block is its whole array. -/
theorem iblk_whole4 (c : Dev nD) (t : Fin cfg1.N) (p : Fin 64) (q : Fin 64) :
    (iblk1 V c 4 t : Vec Ideal S64x64 .f32) (ix2 p q) = (V c main_arg11 : S64x64.Idx → EReal) (ix2 p q) := by
  obtain ⟨e0_0, e0_1, e1_0, e1_1, e2_0, e2_1, e3_0, e3_1, e4_0, e4_1, e5_0, e5_1, e6_0, e6_1, e7_0, e7_1, e8_0, e8_1, e8_2⟩ := idx_facts t
  show V c main_arg11 (((cfg1.win 4).blk t).view.emb (ix2 p q)) = V c main_arg11 (ix2 p q)
  congr 1
  funext ax
  apply Fin.ext
  match ax with
  | ⟨0, _⟩ => show win1_4.index t (0 : Fin 2) * 64 + 1 * p.val = p.val; rw [e4_0]; omega
  | ⟨1, _⟩ => show win1_4.index t (1 : Fin 2) * 64 + 1 * q.val = q.val; rw [e4_1]; omega

/-- Window 5's one block is its whole array. -/
theorem iblk_whole5 (c : Dev nD) (t : Fin cfg1.N) (p : Fin 1) (q : Fin 64) :
    (iblk1 V c 5 t : Vec Ideal S1x64 .f32) (ix2 p q) = (V c main_v52 : S1x64.Idx → EReal) (ix2 p q) := by
  obtain ⟨e0_0, e0_1, e1_0, e1_1, e2_0, e2_1, e3_0, e3_1, e4_0, e4_1, e5_0, e5_1, e6_0, e6_1, e7_0, e7_1, e8_0, e8_1, e8_2⟩ := idx_facts t
  show V c main_v52 (((cfg1.win 5).blk t).view.emb (ix2 p q)) = V c main_v52 (ix2 p q)
  congr 1
  funext ax
  apply Fin.ext
  match ax with
  | ⟨0, _⟩ => show win1_5.index t (0 : Fin 2) * 1 + 1 * p.val = p.val; rw [e5_0]; omega
  | ⟨1, _⟩ => show win1_5.index t (1 : Fin 2) * 64 + 1 * q.val = q.val; rw [e5_1]; omega

/-- Window 6's one block is its whole array. -/
theorem iblk_whole6 (c : Dev nD) (t : Fin cfg1.N) (p : Fin 64) (q : Fin 4) :
    (iblk1 V c 6 t : Vec Ideal S64x4 .f32) (ix2 p q) = (V c main_arg13 : S64x4.Idx → EReal) (ix2 p q) := by
  obtain ⟨e0_0, e0_1, e1_0, e1_1, e2_0, e2_1, e3_0, e3_1, e4_0, e4_1, e5_0, e5_1, e6_0, e6_1, e7_0, e7_1, e8_0, e8_1, e8_2⟩ := idx_facts t
  show V c main_arg13 (((cfg1.win 6).blk t).view.emb (ix2 p q)) = V c main_arg13 (ix2 p q)
  congr 1
  funext ax
  apply Fin.ext
  match ax with
  | ⟨0, _⟩ => show win1_6.index t (0 : Fin 2) * 64 + 1 * p.val = p.val; rw [e6_0]; omega
  | ⟨1, _⟩ => show win1_6.index t (1 : Fin 2) * 4 + 1 * q.val = q.val; rw [e6_1]; omega

/-- Window 7's one block is its whole array. -/
theorem iblk_whole7 (c : Dev nD) (t : Fin cfg1.N) (p : Fin 1) (q : Fin 4) :
    (iblk1 V c 7 t : Vec Ideal S1x4 .f32) (ix2 p q) = (V c main_v53 : S1x4.Idx → EReal) (ix2 p q) := by
  obtain ⟨e0_0, e0_1, e1_0, e1_1, e2_0, e2_1, e3_0, e3_1, e4_0, e4_1, e5_0, e5_1, e6_0, e6_1, e7_0, e7_1, e8_0, e8_1, e8_2⟩ := idx_facts t
  show V c main_v53 (((cfg1.win 7).blk t).view.emb (ix2 p q)) = V c main_v53 (ix2 p q)
  congr 1
  funext ax
  apply Fin.ext
  match ax with
  | ⟨0, _⟩ => show win1_7.index t (0 : Fin 2) * 1 + 1 * p.val = p.val; rw [e7_0]; omega
  | ⟨1, _⟩ => show win1_7.index t (1 : Fin 2) * 4 + 1 * q.val = q.val; rw [e7_1]; omega

/-- WHAT POINT `t` COMPUTES at `(a, b, cc)` of its block: the decoder of rows `n = 128 (t / 8) + a` and `m = 128 (t % 8) + b`,
    class `cc`. -/
theorem point_apply (c : Dev nD) (t : Fin cfg1.N) (a b : Fin 128) (cc : Fin 4) (n m : Fin 1024) (k : Fin 4)
    (hn : n.val = 128 * (t.val / 8) + a.val) (hm : m.val = 128 * (t.val % 8) + b.val) (hk : k.val = cc.val) :
    out1_8 (iblk1 V c 0 t) (iblk1 V c 1 t) (iblk1 V c 2 t) (iblk1 V c 3 t) (iblk1 V c 4 t) (iblk1 V c 5 t) (iblk1 V c 6 t) (iblk1 V c 7 t) (ix3 a b cc)
      = Spec.dec (cur2 (V c main_v48_0)) (row1 (V c main_v50)) (row1 (V c main_v51)) (cur2 (V c main_arg11)) (row1 (V c main_v52)) (cur2 (V c main_arg13)) (row1 (V c main_v53)) n m k := by
  have hk' : cc = k := (Fin.ext hk).symm
  subst hk'
  refine (out1_8_apply (iblk1 V c 0 t) (iblk1 V c 1 t) (iblk1 V c 2 t) (iblk1 V c 3 t) (iblk1 V c 4 t) (iblk1 V c 5 t) (iblk1 V c 6 t) (iblk1 V c 7 t) a b cc).trans ?_
  have r0 : ∀ g : Fin 64, (iblk1 V c 0 t : Vec Ideal S128x64 .f32) (ix2 a g) = cur2 (V c main_v48_0) n g :=
    fun g => iblk_rows0 V c t a g n hn
  have r1 : ∀ g : Fin 64, (iblk1 V c 1 t : Vec Ideal S128x64 .f32) (ix2 b g) = cur2 (V c main_v48_0) m g :=
    fun g => iblk_rows1 V c t b g m hm
  have r2 : ∀ h : Fin 64, (iblk1 V c 2 t : Vec Ideal S1x64 .f32) (ix2 (0 : Fin 1) h) = row1 (V c main_v50) h :=
    fun h => iblk_whole2 V c t 0 h
  have r3 : ∀ h : Fin 64, (iblk1 V c 3 t : Vec Ideal S1x64 .f32) (ix2 (0 : Fin 1) h) = row1 (V c main_v51) h :=
    fun h => iblk_whole3 V c t 0 h
  have r4 : ∀ h k : Fin 64, (iblk1 V c 4 t : Vec Ideal S64x64 .f32) (ix2 h k) = cur2 (V c main_arg11) h k :=
    fun h k => iblk_whole4 V c t h k
  have r5 : ∀ k : Fin 64, (iblk1 V c 5 t : Vec Ideal S1x64 .f32) (ix2 (0 : Fin 1) k) = row1 (V c main_v52) k :=
    fun k => iblk_whole5 V c t 0 k
  have r6 : ∀ (k : Fin 64) (q : Fin 4), (iblk1 V c 6 t : Vec Ideal S64x4 .f32) (ix2 k q) = cur2 (V c main_arg13) k q :=
    fun k q => iblk_whole6 V c t k q
  have r7 : ∀ q : Fin 4, (iblk1 V c 7 t : Vec Ideal S1x4 .f32) (ix2 (0 : Fin 1) q) = row1 (V c main_v53) q :=
    fun q => iblk_whole7 V c t 0 q
  simp only [r0, r1, r2, r3, r4, r5, r6, r7]
  rfl

/-- A statement about every index of a [128 × 128 × 4] block follows from it at every triple of coordinates. -/
theorem forall_ix3 {P : S128x128x4.Idx → Prop} (h : ∀ (a b : Fin 128) (cc : Fin 4), P (ix3 a b cc)) (y : S128x128x4.Idx) : P y := by
  rw [eq_ix3 y]; exact h _ _ _

/-- WHAT POINT `t` WRITES BACK is block `t` of `decArr`. -/
theorem flushed_eq (c : Dev nD) (t : Fin cfg1.N) :
    (dat1 (F := Ideal) V c).flushed 8 t = ((cfg1.win 8).blk t).view.read (Elt Ideal) (decArr V c) := by
  obtain ⟨e0_0, e0_1, e1_0, e1_1, e2_0, e2_1, e3_0, e3_1, e4_0, e4_1, e5_0, e5_1, e6_0, e6_1, e7_0, e7_1, e8_0, e8_1, e8_2⟩ := idx_facts t
  show (cfg1.win 8).cut (grid1.coords t) ((dat1 (F := Ideal) V c).after 8 t) = _
  rw [after1_8]
  funext y
  refine forall_ix3 (P := fun y => out1_8 (iblk1 V c 0 t) (iblk1 V c 1 t) (iblk1 V c 2 t) (iblk1 V c 3 t) (iblk1 V c 4 t) (iblk1 V c 5 t) (iblk1 V c 6 t) (iblk1 V c 7 t) y
      = decArr V c (((cfg1.win 8).blk t).view.emb y)) (fun a b cc => ?_) y
  refine point_apply V c t a b cc _ _ _ ?_ ?_ ?_
  · show win1_8.index t (0 : Fin 3) * 128 + 1 * a.val = 128 * (t.val / 8) + a.val; rw [e8_0]; omega
  · show win1_8.index t (1 : Fin 3) * 128 + 1 * b.val = 128 * (t.val % 8) + b.val; rw [e8_1]; omega
  · show win1_8.index t (2 : Fin 3) * 4 + 1 * cc.val = cc.val; rw [e8_2]; omega

/-- An index of the result array is in point `t`'s block iff each coordinate is in the block's range on its axis. -/
theorem dec_mem_blk8 (t : Fin cfg1.N) (i : S1024x1024x4.Idx) :
    i ∈ ((cfg1.win 8).blk t).view.set ↔ ∀ a : Fin 3, win1_8.index t a * S128x128x4.size a ≤ (i a).val
      ∧ (i a).val < win1_8.index t a * S128x128x4.size a + S128x128x4.size a := by
  show i ∈ ((View.whole main_v54).slice (win1_8.rect t)).set ↔ _
  rw [View.set_slice_whole, Rect.mem_set_unit]
  exact Iff.rfl

/-- THE COVER: the index `(n, m, k)` is in the block of the point `8 (n / 128) + m / 128`. -/
theorem cover (i : S1024x1024x4.Idx) : ∃ t : Fin cfg1.N, (cfg1.win 8).flush t = true ∧ i ∈ ((cfg1.win 8).blk t).view.set := by
  have h0 : (i 0).val < 1024 := (i 0).isLt
  have h1 : (i 1).val < 1024 := (i 1).isLt
  have h2 : (i 2).val < 4 := (i 2).isLt
  obtain ⟨t, ht⟩ : ∃ t : Fin cfg1.N, t.val = 8 * ((i 0).val / 128) + (i 1).val / 128 :=
    ⟨⟨8 * ((i 0).val / 128) + (i 1).val / 128, by rw [show cfg1.N = 64 from N_1]; omega⟩, rfl⟩
  obtain ⟨e0_0, e0_1, e1_0, e1_1, e2_0, e2_1, e3_0, e3_1, e4_0, e4_1, e5_0, e5_1, e6_0, e6_1, e7_0, e7_1, e8_0, e8_1, e8_2⟩ := idx_facts t
  refine ⟨t, flush1_8 t, ?_⟩
  rw [dec_mem_blk8]
  intro ax
  match ax with
  | ⟨0, _⟩ => show win1_8.index t (0 : Fin 3) * 128 ≤ (i 0).val ∧ (i 0).val < win1_8.index t (0 : Fin 3) * 128 + 128; rw [e8_0, ht]; omega
  | ⟨1, _⟩ => show win1_8.index t (1 : Fin 3) * 128 ≤ (i 1).val ∧ (i 1).val < win1_8.index t (1 : Fin 3) * 128 + 128; rw [e8_1, ht]; omega
  | ⟨2, _⟩ => show win1_8.index t (2 : Fin 3) * 4 ≤ (i 2).val ∧ (i 2).val < win1_8.index t (2 : Fin 3) * 4 + 4; rw [e8_2]; omega

/-- THE RESULT ARRAY after the region: at every `(n, m, k)` the decoder of rows `n` and `m` of the encoder's first result, class
    `k`, whatever the arrays held when the region was entered. -/
theorem dec_out (c : Dev nD) : ((dat1 (F := Ideal) V c).arrAt 8 cfg1.N : S1024x1024x4.Idx → EReal) = fun i =>
    Spec.dec (Spec.cur2 (V c main_v48_0)) (Spec.row1 (V c main_v50)) (Spec.row1 (V c main_v51)) (Spec.cur2 (V c main_arg11))
      (Spec.row1 (V c main_v52)) (Spec.cur2 (V c main_arg13)) (Spec.row1 (V c main_v53)) (i 0) (i 1) (i 2) :=
  (dat1 (F := Ideal) V c).arrAt_eq_of_cover 8 (decArr V c) (fun t _ => flushed_eq V c t) cover

end Cert.KernelIdeal.HandVal

end
-- ==== Proof.KVal.Main.lean ====
/-
  What KernelIdeal's run leaves in its three result arrays, as the certificate's mathematics of the launch memory.

  The run ends with every buffer at the last boundary's contents. The encoder's two results are what region 0's
  pipeline leaves, which is the matrix-form two-layer encoder of the arrays region 0 is entered with — the arguments,
  the dense normalised adjacency matrix the host operations build from the edge words, and the reshaped biases. The
  decoder's result is what region 1's pipeline leaves: the pairwise decoder of the encoder's first result, the column
  sum of the first classifier weight, and the remaining weights and biases.
-/
import proofs.«418623_j62843961475769_1_alg».proof.Proof.KI.Run
import proofs.«418623_j62843961475769_1_alg».proof.Proof.KVal.Enc
import proofs.«418623_j62843961475769_1_alg».proof.Proof.KVal.Host
import proofs.«418623_j62843961475769_1_alg».proof.Proof.KVal.Host3
import proofs.«418623_j62843961475769_1_alg».proof.Proof.KVal.Host5
import proofs.«418623_j62843961475769_1_alg».proof.Proof.KVal.Dec

set_option maxRecDepth 16384

noncomputable section

namespace Cert.KernelIdeal.HandVal

open Cert.KernelIdeal Cert.KernelIdeal.Gen Cert.KernelIdeal.Hand Cert.Spec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Argument `K` of @main on core `c`, as launched. -/
abbrev A0 (c : Dev nD) : S1024x256.Idx → EReal := m ((c.tc : Thread nD τ).loc main_arg0)
abbrev A1 (c : Dev nD) : S32768.Idx → BitVec 32 := m ((c.tc : Thread nD τ).loc main_arg1)
abbrev A2 (c : Dev nD) : S32768.Idx → BitVec 32 := m ((c.tc : Thread nD τ).loc main_arg2)
abbrev A3 (c : Dev nD) : S256x64.Idx → EReal := m ((c.tc : Thread nD τ).loc main_arg3)
abbrev A4 (c : Dev nD) : S64.Idx → EReal := m ((c.tc : Thread nD τ).loc main_arg4)
abbrev A5 (c : Dev nD) : S64x64.Idx → EReal := m ((c.tc : Thread nD τ).loc main_arg5)
abbrev A6 (c : Dev nD) : S64.Idx → EReal := m ((c.tc : Thread nD τ).loc main_arg6)
abbrev A7 (c : Dev nD) : S64x64.Idx → EReal := m ((c.tc : Thread nD τ).loc main_arg7)
abbrev A8 (c : Dev nD) : S64.Idx → EReal := m ((c.tc : Thread nD τ).loc main_arg8)
abbrev A9 (c : Dev nD) : S4x64.Idx → EReal := m ((c.tc : Thread nD τ).loc main_arg9)
abbrev A10 (c : Dev nD) : S64.Idx → EReal := m ((c.tc : Thread nD τ).loc main_arg10)
abbrev A11 (c : Dev nD) : S64x64.Idx → EReal := m ((c.tc : Thread nD τ).loc main_arg11)
abbrev A12 (c : Dev nD) : S64.Idx → EReal := m ((c.tc : Thread nD τ).loc main_arg12)
abbrev A13 (c : Dev nD) : S64x4.Idx → EReal := m ((c.tc : Thread nD τ).loc main_arg13)
abbrev A14 (c : Dev nD) : S4.Idx → EReal := m ((c.tc : Thread nD τ).loc main_arg14)

/-- The encoder's first result in matrix form. -/
def kMu (c : Dev nD) : S1024x64.Idx → EReal := fun i =>
  Spec.outK (A1 m c) (A2 m c) (cur2 (A0 m c)) (cur2 (A3 m c)) (cur1 (A4 m c)) (cur2 (A5 m c)) (cur1 (A6 m c)) (i 0) (i 1)
/-- The encoder's second result in matrix form. -/
def kLv (c : Dev nD) : S1024x64.Idx → EReal := fun i =>
  Spec.outK (A1 m c) (A2 m c) (cur2 (A0 m c)) (cur2 (A3 m c)) (cur1 (A4 m c)) (cur2 (A7 m c)) (cur1 (A8 m c)) (i 0) (i 1)
/-- The decoder's result over the matrix-form encoder. -/
def kOut (c : Dev nD) : S1024x1024x4.Idx → EReal := fun i =>
  Spec.dec (Spec.outK (A1 m c) (A2 m c) (cur2 (A0 m c)) (cur2 (A3 m c)) (cur1 (A4 m c)) (cur2 (A5 m c)) (cur1 (A6 m c)))
    (Spec.wsum (cur2 (A9 m c))) (cur1 (A10 m c)) (cur2 (A11 m c)) (cur1 (A12 m c)) (cur2 (A13 m c)) (cur1 (A14 m c)) (i 0) (i 1) (i 2)

/-! ## The entry contents of the two regions, as curried tables of the launch memory -/

/-- The adjacency array region 0 is entered with, as a table: the dense normalised adjacency matrix of the edge words. -/
theorem cur_v44 (c : Dev nD) : cur2 (Hand.V3 m ρ c main_v44 : S1024x1024.Idx → EReal) = Spec.AhatK (A1 m c) (A2 m c) :=
  (congrArg cur2 (V3_main_v44 m ρ c)).trans rfl
/-- A bias reshaped to one row, read as that row, is the bias. -/
theorem row_v45 (c : Dev nD) : row1 (Hand.V3 m ρ c main_v45 : S1x64.Idx → EReal) = cur1 (A4 m c) :=
  (congrArg row1 (V3_main_v45 m ρ c)).trans rfl
theorem row_v46 (c : Dev nD) : row1 (Hand.V3 m ρ c main_v46 : S1x64.Idx → EReal) = cur1 (A6 m c) :=
  (congrArg row1 (V3_main_v46 m ρ c)).trans rfl
theorem row_v47 (c : Dev nD) : row1 (Hand.V3 m ρ c main_v47 : S1x64.Idx → EReal) = cur1 (A8 m c) :=
  (congrArg row1 (V3_main_v47 m ρ c)).trans rfl
theorem cur_arg0 (c : Dev nD) : cur2 (Hand.V3 m ρ c main_arg0 : S1024x256.Idx → EReal) = cur2 (A0 m c) :=
  congrArg cur2 (V3_main_arg0 m ρ c)
theorem cur_arg3 (c : Dev nD) : cur2 (Hand.V3 m ρ c main_arg3 : S256x64.Idx → EReal) = cur2 (A3 m c) :=
  congrArg cur2 (V3_main_arg3 m ρ c)
theorem cur_arg5 (c : Dev nD) : cur2 (Hand.V3 m ρ c main_arg5 : S64x64.Idx → EReal) = cur2 (A5 m c) :=
  congrArg cur2 (V3_main_arg5 m ρ c)
theorem cur_arg7 (c : Dev nD) : cur2 (Hand.V3 m ρ c main_arg7 : S64x64.Idx → EReal) = cur2 (A7 m c) :=
  congrArg cur2 (V3_main_arg7 m ρ c)

/-- The two matrix-form layers as one function of the tables. -/
def encK (A : Fin 1024 → Fin 1024 → EReal) (x : Fin 1024 → Fin 256 → EReal) (W1 : Fin 256 → Fin 64 → EReal) (b1 : Fin 64 → EReal)
    (W2 : Fin 64 → Fin 64 → EReal) (b2 : Fin 64 → EReal) : S1024x64.Idx → EReal := fun i =>
  Spec.layerK A (Spec.mm (Spec.layerK A (Spec.mm x W1) b1) W2) b2 (i 0) (i 1)

/-- What region 0 leaves in its first result's array: the matrix-form encoder of the launch memory. -/
theorem arr8_val (c : Dev nD) : ((dat0 (Hand.V3 m ρ) c).arrAt 8 cfg0.N : S1024x64.Idx → EReal) = kMu m c := by
  refine (enc_mu (Hand.V3 m ρ) c).trans ?_
  show encK (cur2 (Hand.V3 m ρ c main_v44 : S1024x1024.Idx → EReal)) (cur2 (Hand.V3 m ρ c main_arg0 : S1024x256.Idx → EReal))
      (cur2 (Hand.V3 m ρ c main_arg3 : S256x64.Idx → EReal)) (row1 (Hand.V3 m ρ c main_v45 : S1x64.Idx → EReal))
      (cur2 (Hand.V3 m ρ c main_arg5 : S64x64.Idx → EReal)) (row1 (Hand.V3 m ρ c main_v46 : S1x64.Idx → EReal)) = _
  rw [cur_v44, cur_arg0, cur_arg3, row_v45, cur_arg5, row_v46]
  rfl

/-- What region 0 leaves in its second result's array. -/
theorem arr9_val (c : Dev nD) : ((dat0 (Hand.V3 m ρ) c).arrAt 9 cfg0.N : S1024x64.Idx → EReal) = kLv m c := by
  refine (enc_logvar (Hand.V3 m ρ) c).trans ?_
  show encK (cur2 (Hand.V3 m ρ c main_v44 : S1024x1024.Idx → EReal)) (cur2 (Hand.V3 m ρ c main_arg0 : S1024x256.Idx → EReal))
      (cur2 (Hand.V3 m ρ c main_arg3 : S256x64.Idx → EReal)) (row1 (Hand.V3 m ρ c main_v45 : S1x64.Idx → EReal))
      (cur2 (Hand.V3 m ρ c main_arg7 : S64x64.Idx → EReal)) (row1 (Hand.V3 m ρ c main_v47 : S1x64.Idx → EReal)) = _
  rw [cur_v44, cur_arg0, cur_arg3, row_v45, cur_arg7, row_v47]
  rfl

/-! ## The three results at the end of the run -/

theorem mu_val (c : Dev nD) : W6 m ρ c (Proc.devRef .tc main_v48_0) = kMu m c :=
  (W6_main_v48_0 m ρ c).trans (arr8_val m ρ c)

theorem lv_val (c : Dev nD) : W6 m ρ c (Proc.devRef .tc main_v48_1) = kLv m c :=
  (W6_main_v48_1 m ρ c).trans (arr9_val m ρ c)

/-- The encoder's first result as region 1 reads it, as a table. -/
theorem cur_v48_0 (c : Dev nD) : cur2 (Hand.V5 m ρ c main_v48_0 : S1024x64.Idx → EReal)
    = Spec.outK (A1 m c) (A2 m c) (cur2 (A0 m c)) (cur2 (A3 m c)) (cur1 (A4 m c)) (cur2 (A5 m c)) (cur1 (A6 m c)) :=
  (congrArg cur2 ((V5_main_v48_0 m ρ c).trans (arr8_val m ρ c))).trans rfl
theorem row_v50 (c : Dev nD) : row1 (Hand.V5 m ρ c main_v50 : S1x64.Idx → EReal) = Spec.wsum (cur2 (A9 m c)) :=
  (congrArg row1 (V5_main_v50 m ρ c)).trans rfl
theorem row_v51 (c : Dev nD) : row1 (Hand.V5 m ρ c main_v51 : S1x64.Idx → EReal) = cur1 (A10 m c) :=
  (congrArg row1 (V5_main_v51 m ρ c)).trans rfl
theorem row_v52 (c : Dev nD) : row1 (Hand.V5 m ρ c main_v52 : S1x64.Idx → EReal) = cur1 (A12 m c) :=
  (congrArg row1 (V5_main_v52 m ρ c)).trans rfl
theorem row_v53 (c : Dev nD) : row1 (Hand.V5 m ρ c main_v53 : S1x4.Idx → EReal) = cur1 (A14 m c) :=
  (congrArg row1 (V5_main_v53 m ρ c)).trans rfl
theorem cur_arg11 (c : Dev nD) : cur2 (Hand.V5 m ρ c main_arg11 : S64x64.Idx → EReal) = cur2 (A11 m c) :=
  congrArg cur2 (V5_main_arg11 m ρ c)
theorem cur_arg13 (c : Dev nD) : cur2 (Hand.V5 m ρ c main_arg13 : S64x4.Idx → EReal) = cur2 (A13 m c) :=
  congrArg cur2 (V5_main_arg13 m ρ c)

/-- The decoder as one function of the tables. -/
def decK (mu : Fin 1024 → Fin 64 → EReal) (w1 bc1 : Fin 64 → EReal) (Wc2 : Fin 64 → Fin 64 → EReal) (bc2 : Fin 64 → EReal)
    (Wc3 : Fin 64 → Fin 4 → EReal) (bc3 : Fin 4 → EReal) : S1024x1024x4.Idx → EReal := fun i =>
  Spec.dec mu w1 bc1 Wc2 bc2 Wc3 bc3 (i 0) (i 1) (i 2)

theorem out_val (c : Dev nD) : W6 m ρ c (Proc.devRef .tc main_v54) = kOut m c := by
  refine (W6_out m ρ c).trans ((dec_out (Hand.V5 m ρ) c).trans ?_)
  show decK (cur2 (Hand.V5 m ρ c main_v48_0 : S1024x64.Idx → EReal)) (row1 (Hand.V5 m ρ c main_v50 : S1x64.Idx → EReal))
      (row1 (Hand.V5 m ρ c main_v51 : S1x64.Idx → EReal)) (cur2 (Hand.V5 m ρ c main_arg11 : S64x64.Idx → EReal))
      (row1 (Hand.V5 m ρ c main_v52 : S1x64.Idx → EReal)) (cur2 (Hand.V5 m ρ c main_arg13 : S64x4.Idx → EReal))
      (row1 (Hand.V5 m ρ c main_v53 : S1x4.Idx → EReal)) = _
  rw [cur_v48_0, row_v50, row_v51, cur_arg11, row_v52, cur_arg13, row_v53]
  rfl

/-! ## The run -/

/-- Every weakly fair execution of @main terminates, and every final memory holds the three results at the
    certificate's mathematics of the launch memory and the argument arrays as launched. -/
theorem run_values : θ_run defs (onTc (τ := τ) (main (F := Ideal))) ⟨m, fun _ => 0, ρ⟩ (fun r => ∀ c : Dev nD,
      r.2.mem ((c.tc : Thread nD τ).loc main_v54) = kOut m c
      ∧ r.2.mem ((c.tc : Thread nD τ).loc main_v48_0) = kMu m c
      ∧ r.2.mem ((c.tc : Thread nD τ).loc main_v48_1) = kLv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_v54 (by decide))).trans (out_val m ρ c),
     (h c _ (mem_uc main_v48_0 (by decide))).trans (mu_val m ρ c),
     (h c _ (mem_uc main_v48_1 (by decide))).trans (lv_val m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c)⟩) (run_main m ρ)

end Cert.KernelIdeal.HandVal

end
-- ==== Proof.RefEnc.lean ====
/-
  The reference's two encoder results, read as the message form of the certificate's mathematics.

  The reference computes one graph-convolution layer from a feature matrix `h`, a bias `b` and the two edge-word
  arrays: it wraps every word once by the number of nodes, counts for every node the edges whose wrapped destination
  word is that node (plus one, the self loop), takes the reciprocal square root, weighs an edge by the product of the
  two weights its wrapped words read (clamped into the node range), adds into row `i` the source rows of the edges
  that name `i` as destination, scaled by the edge weights, then adds the node's own row scaled by the square of its
  weight, and the bias. Read at an index this is `Spec.layerR`. The encoder is this layer three times: once over
  `x · W1`, and twice (for the two results) over that layer's result times a second weight matrix.
-/
import proofs.«418623_j62843961475769_1_alg».proof.Proof.Gen.ReferenceIdeal.Run
import proofs.«418623_j62843961475769_1_alg».proof.Proof.Gen.ReferenceIdeal.Read
import proofs.«418623_j62843961475769_1_alg».proof.Proof.Cur
import proofs.«418623_j62843961475769_1_alg».proof.Proof.LibScatter
import Idealize.ShloMosaic.PureOps.Ideal
import Idealize.ShloMosaic.PureOps.Ideal.Laws
import Idealize.ShloMosaic.Lib.ValueIdx
import Idealize.ShloMosaic.Lib.Affine
import Idealize.ShloMosaic.Lib.Pipeline.Value
import Idealize.ShloMosaic.Lib.StableHlo.Predicate

noncomputable section

namespace Cert.ReferenceIdeal.RefValue

open Cert.ReferenceIdeal Cert.ReferenceIdeal.Gen Cert.ReferenceIdeal.Value Cert.Spec
open Idealize.ShloMosaic Idealize.ShloMosaic.TcCoe Idealize.SL.Sem Idealize.ShloMosaic.StableHlo Idealize.ShloMosaic.ValueIdx
open scoped BigOperators

/-! ## One layer, as the reference prints it -/

/-- The edge words, each negative one wrapped once by the number of nodes. -/
def wrapV (v : IVec S32768 32) : IVec S32768 32 :=
  select (cmpi .slt v (broadcastInDim S32768 ![] bcast_S_S32768 (constantI S_ 32 0#32)))
    (addi v (broadcastInDim S32768 ![] bcast_S_S32768 (constantI S_ 32 1024#32))) v

/-- The wrapped words as a column of start indices. -/
def colV (v : IVec S32768 32) : IVec S32768x1 32 :=
  broadcastInDim S32768x1 ![0] bcast_S32768_S32768x1_0 (wrapV v)

/-- One plus, for every node, the number of edges whose wrapped destination word is the node. -/
def degV (dst : IVec S32768 32) : FVec Ideal S1024 .f32 :=
  Host.scatterAdd (F := Ideal) scatter_S1024_S32768x1_S32768_n_0_0_1
    (broadcastInDim S1024 ![] bcast_S_S1024 (constant (F := Ideal) S_ .f32 0x3F800000#32)) (colV dst)
    (broadcastInDim S32768 ![] bcast_S_S32768 (constant (F := Ideal) S_ .f32 0x3F800000#32))

/-- The node weights: its reciprocal square root. -/
def disV (dst : IVec S32768 32) : FVec Ideal S1024 .f32 := Host.rsqrt (F := Ideal) (degV dst)

/-- The edge weights: the product of the two node weights an edge's wrapped words read. -/
def nrmV (src dst : IVec S32768 32) : FVec Ideal S32768 .f32 :=
  mulf (F := Ideal) (Host.gather gather_S1024_S32768x1_S32768_n_0_n_n_0_1_1 (disV dst) (colV src))
    (Host.gather gather_S1024_S32768x1_S32768_n_0_n_n_0_1_1 (disV dst) (colV dst))

/-- The messages added up: row `i` receives the source rows of the edges whose destination word is `i`, scaled. -/
def aggV (h : FVec Ideal S1024x64 .f32) (src dst : IVec S32768 32) : FVec Ideal S1024x64 .f32 :=
  Host.scatterAdd (F := Ideal) scatter_S1024x64_S32768x1_S32768x64_1_0_0_1
    (broadcastInDim S1024x64 ![] bcast_S_S1024x64 (constant (F := Ideal) S_ .f32 0x00000000#32)) (colV dst)
    (mulf (F := Ideal) (Host.gather gather_S1024x64_S32768x1_S32768x64_1_0_n_n_0_1_164 h (colV src))
      (broadcastInDim S32768x64 ![0, 1] bcast_S32768x1_S32768x64_0_1
        (broadcastInDim S32768x1 ![0] bcast_S32768_S32768x1_0 (nrmV src dst))))

/-- The self-loop scale: the square of the node weight, along every row. -/
def selfV (dst : IVec S32768 32) : FVec Ideal S1024x64 .f32 :=
  broadcastInDim S1024x64 ![0, 1] bcast_S1024x1_S1024x64_0_1
    (broadcastInDim S1024x1 ![0] bcast_S1024_S1024x1_0 (mulf (F := Ideal) (disV dst) (disV dst)))

/-- The bias, down every column. -/
def biasV (b : FVec Ideal S64 .f32) : FVec Ideal S1024x64 .f32 :=
  broadcastInDim S1024x64 ![0, 1] bcast_S1x64_S1024x64_0_1 (broadcastInDim S1x64 ![1] bcast_S64_S1x64_1 b)

/-- One layer. -/
def refLayer (h : FVec Ideal S1024x64 .f32) (b : FVec Ideal S64 .f32) (src dst : IVec S32768 32) : FVec Ideal S1024x64 .f32 :=
  addf (F := Ideal) (addf (F := Ideal) (aggV h src dst) (mulf (F := Ideal) h (selfV dst))) (biasV b)

/-! ## An edge word -/

/-- A negative 32-bit word plus 1024 does not wrap around. -/
theorem toInt_add_1024 (v : BitVec 32) (h : v.toInt < 0) : (v + 1024#32).toInt = v.toInt + 1024 := by
  have hl : -(2:Int)^31 ≤ v.toInt := by have := BitVec.le_toInt v; simpa using this
  rw [BitVec.toInt_add]
  have h1024 : (1024#32 : BitVec 32).toInt = 1024 := by decide
  rw [h1024, Int.bmod_def]
  omega

/-- The word the reference selects, read signed, is `Spec.wrapW` of the word. -/
theorem toInt_wrap (v : BitVec 32) :
    (Scalar.select (IntOp.cmpi .slt v 0#32) (IntOp.addi v 1024#32) v).toInt = Spec.wrapW v := by
  have h0 : (0#32 : BitVec 32).toInt = 0 := by simp
  unfold Spec.wrapW
  by_cases hneg : v.toInt < 0
  · have hc : IntOp.cmpi .slt v 0#32 = 1#1 := IntOp.cmpi_slt.mpr (by rw [h0]; exact hneg)
    rw [hc, select_one, if_pos hneg]
    exact toInt_add_1024 v hneg
  · have hc : IntOp.cmpi .slt v 0#32 = 0#1 :=
      eq_zero_of_ne_one (fun hh => hneg (by have := IntOp.cmpi_slt.mp hh; rwa [h0] at this))
    rw [hc, select_zero, if_neg hneg]

/-- The wrapped word of edge `e`. -/
theorem wrapV_apply (v : IVec S32768 32) (e : Fin 32768) :
    wrapV v (ix1 e) = Scalar.select (IntOp.cmpi .slt (v (ix1 e)) 0#32) (IntOp.addi (v (ix1 e)) 1024#32) (v (ix1 e)) := rfl

/-- A vector kept as a column, read at row `e`. -/
theorem col32768_apply {α : Type} (y : S32768.Idx → α) (e : Fin 32768) :
    broadcastInDim S32768x1 ![0] bcast_S32768_S32768x1_0 y (ix2 e (0 : Fin 1)) = y (ix1 e) :=
  broadcastInDim_apply _ bcast_S32768_S32768x1_0 y (ix2 e (0 : Fin 1)) (ix1 e) (fun a => match a with
    | ⟨0, _⟩ => by show e.val = if (32768 : Nat) = 1 then 0 else e.val; rw [if_neg (by decide)])

/-- The start index of edge `e`, read signed. -/
theorem colV_toInt (v : IVec S32768 32) (e : Fin 32768) :
    (colV v (ix2 e (0 : Fin 1))).toInt = Spec.wrapW (v (ix1 e)) := by
  unfold colV
  rw [col32768_apply, wrapV_apply]
  exact toInt_wrap _

/-- Edge `e`'s word names node `i` exactly when its wrapped word is `i`. -/
theorem tgt_eq_some_iff (v : IVec S32768 32) (e : Fin 32768) (i : Fin 1024) :
    Spec.tgt v e = some i ↔ Spec.wrapW (v (ix1 e)) = (i.val : Int) := by
  have hi := i.isLt
  unfold Spec.tgt
  split
  · rename_i hc
    rw [Option.some.injEq, Fin.ext_iff]
    show (Spec.wrapW (v (ix1 e))).toNat = i.val ↔ _
    omega
  · rename_i hc
    constructor
    · intro hh; exact absurd hh (by simp)
    · intro hh; exact absurd ⟨by omega, by omega⟩ hc

/-- The clamped read position of edge `e`. -/
theorem clamp_eq_cl (v : IVec S32768 32) (e : Fin 32768) (hlt : min (colV v (ix2 e (0 : Fin 1))).toInt.toNat (1024 - 1) < 1024) :
    (⟨min (colV v (ix2 e (0 : Fin 1))).toInt.toNat (1024 - 1), hlt⟩ : Fin 1024) = Spec.cl v e := by
  apply Fin.ext
  show min (colV v (ix2 e (0 : Fin 1))).toInt.toNat (1024 - 1) = min (Spec.wrapW (v (ix1 e))).toNat 1023
  rw [colV_toInt]

/-! ## Constants and broadcasts at an index -/

/-- The word `0x3F800000` broadcast over the nodes: one everywhere. -/
theorem ones1024_apply (i : Fin 1024) :
    broadcastInDim S1024 ![] bcast_S_S1024 (constant (F := Ideal) S_ .f32 0x3F800000#32) (ix1 i) = (1 : EReal) :=
  (broadcastInDim_apply _ bcast_S_S1024 _ (ix1 i) (fun a => a.elim0) (fun a => a.elim0)).trans
    (Spec.ofBits_f32_one.trans EReal.coe_one)

/-- The word `0x3F800000` broadcast over the edges: one everywhere. -/
theorem ones32768_apply (e : Fin 32768) :
    broadcastInDim S32768 ![] bcast_S_S32768 (constant (F := Ideal) S_ .f32 0x3F800000#32) (ix1 e) = (1 : EReal) :=
  (broadcastInDim_apply _ bcast_S_S32768 _ (ix1 e) (fun a => a.elim0) (fun a => a.elim0)).trans
    (Spec.ofBits_f32_one.trans EReal.coe_one)

/-- The word `0x00000000` broadcast over the feature table: zero everywhere. -/
theorem zeros_apply (p : Fin 1024) (q : Fin 64) :
    broadcastInDim S1024x64 ![] bcast_S_S1024x64 (constant (F := Ideal) S_ .f32 0x00000000#32) (ix2 p q) = (0 : EReal) :=
  (broadcastInDim_apply _ bcast_S_S1024x64 _ (ix2 p q) (fun a => a.elim0) (fun a => a.elim0)).trans
    (Spec.ofBits_f32_zero.trans EReal.coe_zero)

/-- A column repeated along every row of the edge-by-feature table. -/
theorem rep32768x64_apply {α : Type} (y : S32768x1.Idx → α) (e : Fin 32768) (q : Fin 64) :
    broadcastInDim S32768x64 ![0, 1] bcast_S32768x1_S32768x64_0_1 y (ix2 e q) = y (ix2 e (0 : Fin 1)) :=
  broadcastInDim_apply _ bcast_S32768x1_S32768x64_0_1 y (ix2 e q) (ix2 e (0 : Fin 1)) (fun a => match a with
    | ⟨0, _⟩ => by show e.val = if (32768 : Nat) = 1 then 0 else e.val; rw [if_neg (by decide)]
    | ⟨1, _⟩ => by show (0 : Nat) = if (1 : Nat) = 1 then 0 else q.val; rw [if_pos rfl])

/-- A node vector kept as a column, read at row `p`. -/
theorem col1024_apply {α : Type} (y : S1024.Idx → α) (p : Fin 1024) :
    broadcastInDim S1024x1 ![0] bcast_S1024_S1024x1_0 y (ix2 p (0 : Fin 1)) = y (ix1 p) :=
  broadcastInDim_apply _ bcast_S1024_S1024x1_0 y (ix2 p (0 : Fin 1)) (ix1 p) (fun a => match a with
    | ⟨0, _⟩ => by show p.val = if (1024 : Nat) = 1 then 0 else p.val; rw [if_neg (by decide)])

/-- A column repeated along every row of the node-by-feature table. -/
theorem rep1024x64_apply {α : Type} (y : S1024x1.Idx → α) (p : Fin 1024) (q : Fin 64) :
    broadcastInDim S1024x64 ![0, 1] bcast_S1024x1_S1024x64_0_1 y (ix2 p q) = y (ix2 p (0 : Fin 1)) :=
  broadcastInDim_apply _ bcast_S1024x1_S1024x64_0_1 y (ix2 p q) (ix2 p (0 : Fin 1)) (fun a => match a with
    | ⟨0, _⟩ => by show p.val = if (1024 : Nat) = 1 then 0 else p.val; rw [if_neg (by decide)]
    | ⟨1, _⟩ => by show (0 : Nat) = if (1 : Nat) = 1 then 0 else q.val; rw [if_pos rfl])

/-- A feature vector kept as a row, read at column `q`. -/
theorem row64_apply {α : Type} (y : S64.Idx → α) (q : Fin 64) :
    broadcastInDim S1x64 ![1] bcast_S64_S1x64_1 y (ix2 (0 : Fin 1) q) = y (ix1 q) :=
  broadcastInDim_apply _ bcast_S64_S1x64_1 y (ix2 (0 : Fin 1) q) (ix1 q) (fun a => match a with
    | ⟨0, _⟩ => by show q.val = if (64 : Nat) = 1 then 0 else q.val; rw [if_neg (by decide)])

/-- A row repeated down every column of the node-by-feature table. -/
theorem rows1024x64_apply {α : Type} (y : S1x64.Idx → α) (p : Fin 1024) (q : Fin 64) :
    broadcastInDim S1024x64 ![0, 1] bcast_S1x64_S1024x64_0_1 y (ix2 p q) = y (ix2 (0 : Fin 1) q) :=
  broadcastInDim_apply _ bcast_S1x64_S1024x64_0_1 y (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-! ## The node and edge weights -/

/-- The degree the reference counts is `Spec.deg`. -/
theorem degV_apply (dst : IVec S32768 32) (i : Fin 1024) : degV dst (ix1 i) = Spec.deg dst i := by
  unfold degV Spec.deg
  rw [LibScatter.scatterAdd_rank1_apply scatter_S1024_S32768x1_S32768_n_0_0_1 rfl rfl rfl rfl, ones1024_apply]
  refine congrArg (fun t => (1 : EReal) + t) ?_
  refine Finset.sum_congr (Finset.filter_congr (fun e _ => ?_)) (fun e _ => ones32768_apply e)
  rw [colV_toInt]
  exact (tgt_eq_some_iff dst e i).symm

/-- The host's reciprocal square root at an index. -/
theorem hostRsqrt_apply {s : Shape} (x : FVec Ideal s .f32) (i : s.Idx) :
    Host.rsqrt (F := Ideal) x i = Ideal.rsqrt (x i) := rfl

/-- The node weight the reference computes is `Spec.dis`. -/
theorem disV_apply (dst : IVec S32768 32) (i : Fin 1024) : disV dst (ix1 i) = Spec.dis dst i := by
  unfold disV Spec.dis
  rw [hostRsqrt_apply, degV_apply]

/-- A read of the node weights at an edge's wrapped word reads the clamped position. -/
theorem gather1_apply (x : FVec Ideal S1024 .f32) (v : IVec S32768 32) (e : Fin 32768) :
    Host.gather gather_S1024_S32768x1_S32768_n_0_n_n_0_1_1 x (colV v) (ix1 e) = x (ix1 (Spec.cl v e)) := by
  have hP : Predicate.ixP e = ix2 e (0 : Fin 1) := by
    funext a; match a with | ⟨0, _⟩ => rfl | ⟨1, _⟩ => rfl
  have hO : ∀ {n : Nat} (p : Fin n), Shape.Idx.ofFin p = ix1 p := by
    intro n p; funext a; match a with | ⟨0, _⟩ => exact Fin.ext rfl
  have hg := Predicate.gather_take gather_S1024_S32768x1_S32768_n_0_n_n_0_1_1 rfl rfl rfl rfl x (colV v) e (by decide)
  rw [hO e] at hg
  rw [hg, hO]
  refine congrArg (fun t => x (ix1 t)) (Fin.ext ?_)
  show min (colV v (Predicate.ixP e)).toInt.toNat (1024 - 1) = min (Spec.wrapW (v (ix1 e))).toNat 1023
  rw [hP, colV_toInt]

/-- The edge weight the reference computes is `Spec.nrm`. -/
theorem nrmV_apply (src dst : IVec S32768 32) (e : Fin 32768) : nrmV src dst (ix1 e) = Spec.nrm src dst e := by
  show Host.gather gather_S1024_S32768x1_S32768_n_0_n_n_0_1_1 (disV dst) (colV src) (ix1 e)
      * Host.gather gather_S1024_S32768x1_S32768_n_0_n_n_0_1_1 (disV dst) (colV dst) (ix1 e) = Spec.nrm src dst e
  rw [gather1_apply, gather1_apply, disV_apply, disV_apply]
  rfl

/-! ## One layer at an index -/

/-- The messages node `p` receives, feature `q`. -/
theorem aggV_apply (h : FVec Ideal S1024x64 .f32) (src dst : IVec S32768 32) (p : Fin 1024) (q : Fin 64) :
    aggV h src dst (ix2 p q)
      = 0 + ∑ e ∈ Finset.univ.filter (fun e : Fin 32768 => Spec.tgt dst e = some p),
          Spec.cur2 h (Spec.cl src e) q * Spec.nrm src dst e := by
  unfold aggV
  rw [LibScatter.scatterAdd_rows_apply scatter_S1024x64_S32768x1_S32768x64_1_0_0_1 rfl rfl rfl rfl, zeros_apply]
  refine congrArg (fun t => (0 : EReal) + t) ?_
  refine Finset.sum_congr (Finset.filter_congr (fun e _ => ?_)) (fun e _ => ?_)
  · rw [colV_toInt]
    exact (tgt_eq_some_iff dst e p).symm
  · rw [mulf_apply, LibScatter.gather_rows_apply (by decide) gather_S1024x64_S32768x1_S32768x64_1_0_n_n_0_1_164
        rfl rfl rfl rfl rfl rfl rfl, clamp_eq_cl, rep32768x64_apply, col32768_apply, nrmV_apply]
    rfl

/-- The self-loop scale of node `p`. -/
theorem selfV_apply (dst : IVec S32768 32) (p : Fin 1024) (q : Fin 64) :
    selfV dst (ix2 p q) = Spec.dis dst p * Spec.dis dst p := by
  unfold selfV
  rw [rep1024x64_apply, col1024_apply, mulf_apply, disV_apply]

/-- The bias of feature `q`. -/
theorem biasV_apply (b : FVec Ideal S64 .f32) (p : Fin 1024) (q : Fin 64) : biasV b (ix2 p q) = Spec.cur1 b q := by
  unfold biasV
  rw [rows1024x64_apply, row64_apply]
  rfl

/-- ONE LAYER of the reference is the message form. -/
theorem refLayer_eq (h : FVec Ideal S1024x64 .f32) (b : FVec Ideal S64 .f32) (src dst : IVec S32768 32) :
    refLayer h b src dst = fun i => Spec.layerR src dst (Spec.cur2 h) (Spec.cur1 b) (i 0) (i 1) := by
  funext i
  obtain ⟨p, q, rfl⟩ : ∃ p q, i = ix2 p q := ⟨i 0, i 1, eq_ix2 i⟩
  show refLayer h b src dst (ix2 p q) = Spec.layerR src dst (Spec.cur2 h) (Spec.cur1 b) p q
  unfold refLayer Spec.layerR
  rw [addf_apply, addf_apply, mulf_apply, aggV_apply, selfV_apply, biasV_apply]
  rfl

/-! ## The two results are this layer over the first layer's result times a weight matrix -/

set_option maxRecDepth 8192 in
theorem res_out1_term (m : (ℓ : Loc nD τ sig) → Buf (Elt Ideal) ℓ) (c : Dev nD) :
    (res_out1 (F := Ideal) m c : S1024x64.Idx → EReal)
      = refLayer (Host.dotGeneral (F := Ideal) (φ₁ := .f32) (φ₂ := .f32) dot_S1024x64_S64x64_S1024x64_1_0_0_1_n_n none
          (refLayer (Host.dotGeneral (F := Ideal) (φ₁ := .f32) (φ₂ := .f32) dot_S1024x256_S256x64_S1024x64_1_0_0_1_n_n none
              (m ((c.tc : Thread nD τ).loc main_arg0)) (m ((c.tc : Thread nD τ).loc main_arg3)))
            (m ((c.tc : Thread nD τ).loc main_arg4)) (m ((c.tc : Thread nD τ).loc main_arg1)) (m ((c.tc : Thread nD τ).loc main_arg2)))
          (m ((c.tc : Thread nD τ).loc main_arg5)))
        (m ((c.tc : Thread nD τ).loc main_arg6)) (m ((c.tc : Thread nD τ).loc main_arg1)) (m ((c.tc : Thread nD τ).loc main_arg2)) :=
  rfl

set_option maxRecDepth 8192 in
theorem res_out2_term (m : (ℓ : Loc nD τ sig) → Buf (Elt Ideal) ℓ) (c : Dev nD) :
    (res_out2 (F := Ideal) m c : S1024x64.Idx → EReal)
      = refLayer (Host.dotGeneral (F := Ideal) (φ₁ := .f32) (φ₂ := .f32) dot_S1024x64_S64x64_S1024x64_1_0_0_1_n_n none
          (refLayer (Host.dotGeneral (F := Ideal) (φ₁ := .f32) (φ₂ := .f32) dot_S1024x256_S256x64_S1024x64_1_0_0_1_n_n none
              (m ((c.tc : Thread nD τ).loc main_arg0)) (m ((c.tc : Thread nD τ).loc main_arg3)))
            (m ((c.tc : Thread nD τ).loc main_arg4)) (m ((c.tc : Thread nD τ).loc main_arg1)) (m ((c.tc : Thread nD τ).loc main_arg2)))
          (m ((c.tc : Thread nD τ).loc main_arg7)))
        (m ((c.tc : Thread nD τ).loc main_arg8)) (m ((c.tc : Thread nD τ).loc main_arg1)) (m ((c.tc : Thread nD τ).loc main_arg2)) :=
  rfl

/-! ## The products -/

/-- The first product, a feature matrix of 256 columns times a weight matrix, is `Spec.mm`. -/
theorem dot256_eq (x : FVec Ideal S1024x256 .f32) (W : FVec Ideal S256x64 .f32) :
    Spec.cur2 (Host.dotGeneral (F := Ideal) (φ₁ := .f32) (φ₂ := .f32) dot_S1024x256_S256x64_S1024x64_1_0_0_1_n_n none x W)
      = Spec.mm (Spec.cur2 x) (Spec.cur2 W) := by
  funext p q
  have hv := Read.val_main_v0_apply x W (ix2 p q)
  unfold Read.val_main_v0 at hv
  show Host.dotGeneral (F := Ideal) (φ₁ := .f32) (φ₂ := .f32) dot_S1024x256_S256x64_S1024x64_1_0_0_1_n_n none x W (ix2 p q)
      = ∑ f : Fin 256, x (ix2 p f) * W (ix2 f q)
  rw [hv]
  refine Finset.sum_congr rfl (fun f _ => ?_)
  have el : Read.lidx_main_v0 (ix2 p q) f = ix2 p f := by
    funext a; match a with | ⟨0, _⟩ => rfl | ⟨1, _⟩ => rfl
  have er : Read.ridx_main_v0 (ix2 p q) f = ix2 f q := by
    funext a; match a with | ⟨0, _⟩ => rfl | ⟨1, _⟩ => rfl
  rw [el, er]

/-- A product of a table of 64 columns and a 64 × 64 weight matrix, at an index: the sum over the contracted axis. -/
theorem dot64_apply (y : FVec Ideal S1024x64 .f32) (W : FVec Ideal S64x64 .f32) (i : S1024x64.Idx) :
    Host.dotGeneral (F := Ideal) (φ₁ := .f32) (φ₂ := .f32) dot_S1024x64_S64x64_S1024x64_1_0_0_1_n_n none y W i
      = ∑ k : Fin 64, y (Read.lidx_main_v52 i k) * W (Read.ridx_main_v52 i k) := by
  simp only [Host.dotGeneral]
  rw [Ideal.dotGeneral_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx i ((ValueIdx.contrEquiv1 dot_S1024x64_S64x64_S1024x64_1_0_0_1_n_n 64 rfl rfl).symm k)
      = Read.lidx_main_v52 i k := funext fun a => Fin.ext (by
    match a with
    | ⟨0, _⟩ => exact Read.lhs_main_v52_0 _ _
    | ⟨1, _⟩ => exact (Read.lhs_main_v52_1 _ _).trans hk)
  have er : dot_S1024x64_S64x64_S1024x64_1_0_0_1_n_n.rhsIdx i ((ValueIdx.contrEquiv1 dot_S1024x64_S64x64_S1024x64_1_0_0_1_n_n 64 rfl rfl).symm k)
      = Read.ridx_main_v52 i k := funext fun a => Fin.ext (by
    match a with
    | ⟨0, _⟩ => exact (Read.rhs_main_v52_0 _ _).trans hk
    | ⟨1, _⟩ => exact Read.rhs_main_v52_1 _ _)
  rw [el, er]

/-- The second product is `Spec.mm`. -/
theorem dot64_eq (y : FVec Ideal S1024x64 .f32) (W : FVec Ideal S64x64 .f32) :
    Spec.cur2 (Host.dotGeneral (F := Ideal) (φ₁ := .f32) (φ₂ := .f32) dot_S1024x64_S64x64_S1024x64_1_0_0_1_n_n none y W)
      = Spec.mm (Spec.cur2 y) (Spec.cur2 W) := by
  funext p q
  show Host.dotGeneral (F := Ideal) (φ₁ := .f32) (φ₂ := .f32) dot_S1024x64_S64x64_S1024x64_1_0_0_1_n_n none y W (ix2 p q)
      = ∑ f : Fin 64, y (ix2 p f) * W (ix2 f q)
  rw [dot64_apply]
  refine Finset.sum_congr rfl (fun f _ => ?_)
  have el : Read.lidx_main_v52 (ix2 p q) f = ix2 p f := by
    funext a; match a with | ⟨0, _⟩ => rfl | ⟨1, _⟩ => rfl
  have er : Read.ridx_main_v52 (ix2 p q) f = ix2 f q := by
    funext a; match a with | ⟨0, _⟩ => rfl | ⟨1, _⟩ => rfl
  rw [el, er]

/-- One layer of the reference, as a table. -/
theorem cur2_refLayer (h : FVec Ideal S1024x64 .f32) (b : FVec Ideal S64 .f32) (src dst : IVec S32768 32) :
    Spec.cur2 (refLayer h b src dst) = Spec.layerR src dst (Spec.cur2 h) (Spec.cur1 b) := by
  rw [refLayer_eq]
  rfl

/-! ## The two encoder results -/

/-- The reference's first encoder result is the two-layer encoder in message form, over the second weight matrix and bias. -/
theorem res_out1_eq (m : (ℓ : Loc nD τ sig) → Buf (Elt Ideal) ℓ) (c : Dev nD) :
    (res_out1 (F := Ideal) m c : S1024x64.Idx → EReal)
      = fun i => Spec.outR (m ((c.tc : Thread nD τ).loc main_arg1)) (m ((c.tc : Thread nD τ).loc main_arg2))
          (Spec.cur2 (m ((c.tc : Thread nD τ).loc main_arg0))) (Spec.cur2 (m ((c.tc : Thread nD τ).loc main_arg3)))
          (Spec.cur1 (m ((c.tc : Thread nD τ).loc main_arg4))) (Spec.cur2 (m ((c.tc : Thread nD τ).loc main_arg5)))
          (Spec.cur1 (m ((c.tc : Thread nD τ).loc main_arg6))) (i 0) (i 1) := by
  rw [res_out1_term, refLayer_eq]
  funext i
  rw [dot64_eq, cur2_refLayer, dot256_eq]
  unfold Spec.outR Spec.z1R
  rfl

/-- The reference's second encoder result is the same encoder over the third weight matrix and bias. -/
theorem res_out2_eq (m : (ℓ : Loc nD τ sig) → Buf (Elt Ideal) ℓ) (c : Dev nD) :
    (res_out2 (F := Ideal) m c : S1024x64.Idx → EReal)
      = fun i => Spec.outR (m ((c.tc : Thread nD τ).loc main_arg1)) (m ((c.tc : Thread nD τ).loc main_arg2))
          (Spec.cur2 (m ((c.tc : Thread nD τ).loc main_arg0))) (Spec.cur2 (m ((c.tc : Thread nD τ).loc main_arg3)))
          (Spec.cur1 (m ((c.tc : Thread nD τ).loc main_arg4))) (Spec.cur2 (m ((c.tc : Thread nD τ).loc main_arg7)))
          (Spec.cur1 (m ((c.tc : Thread nD τ).loc main_arg8))) (i 0) (i 1) := by
  rw [res_out2_term, refLayer_eq]
  funext i
  rw [dot64_eq, cur2_refLayer, dot256_eq]
  unfold Spec.outR Spec.z1R
  rfl

end Cert.ReferenceIdeal.RefValue

end
-- ==== Proof.RefDec.lean ====
/-
  The reference's pairwise decoder, read as the certificate's curried mathematics.

  For every pair of nodes (n, m) the reference computes: the logistic, spelt one over one plus the exponential of the
  negation, of the inner product of rows n and m of `mu`; that score times the column sums of the first classifier
  weight, plus the first bias, maximum with zero; an affine map over the 64 features and a maximum with zero; a last
  affine map onto the 4 classes and the logistic again. Each stage is read at an index: a pointwise operation at the
  index itself, a broadcast at the projected index, a product of arrays as the sum over its one contracted axis, the
  column sum as the initial value plus the sum over the four rows. The stages composed are the decoder `Spec.dec`.
-/
import proofs.«418623_j62843961475769_1_alg».proof.Proof.Gen.ReferenceIdeal.Run
import proofs.«418623_j62843961475769_1_alg».proof.Proof.Gen.ReferenceIdeal.Read
import proofs.«418623_j62843961475769_1_alg».proof.Proof.Cur
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.Value Cert.ReferenceIdeal.Read Cert.Spec
open Idealize.ShloMosaic Idealize.ShloMosaic.TcCoe Idealize.SL.Sem Idealize.ShloMosaic.StableHlo Idealize.ShloMosaic.ValueIdx
open scoped BigOperators

/-! ## The stages, as the reference spells them -/

/-- The scores: one over one plus the exponential of the negated Gram matrix of `mu`. -/
def score (mu : FVec Ideal S1024x64 .f32) : FVec Ideal S1024x1024 .f32 :=
  Host.divf (broadcastInDim S1024x1024 ![] bcast_S_S1024x1024 (constant S_ .f32 0x3F800000#32)) (addf (broadcastInDim S1024x1024 ![] bcast_S_S1024x1024 (constant S_ .f32 0x3F800000#32)) (Host.exp (Host.negf (Host.dotGeneral dot_S1024x64_S64x1024_S1024x1024_1_0_0_1_n_n none mu (transpose S64x1024 [1, 0] mu transposes_S1024x64_S64x1024_1_0)))))

/-- The first hidden layer: the score times the column sums of the first weight, plus the bias, maximum with zero. -/
def hid1 (s : FVec Ideal S1024x1024 .f32) (Wc1 : FVec Ideal S4x64 .f32) (bc1 : FVec Ideal S64 .f32) : FVec Ideal S1024x1024x64 .f32 :=
  maximumf (addf (mulf (broadcastInDim S1024x1024x64 ![0, 1, 2] bcast_S1024x1024x1_S1024x1024x64_0_1_2 (broadcastInDim S1024x1024x1 ![0, 1] bcast_S1024x1024_S1024x1024x1_0_1 s)) (broadcastInDim S1024x1024x64 ![0, 1, 2] bcast_S1x1x64_S1024x1024x64_0_1_2 (broadcastInDim S1x1x64 ![2] bcast_S64_S1x1x64_2 (Host.reduceAdd Wc1 (constant S_ .f32 0x00000000#32) reducesTo_S4x64_S64_d0 h_S_)))) (broadcastInDim S1024x1024x64 ![0, 1, 2] bcast_S1x1x64_S1024x1024x64_0_1_2 (broadcastInDim S1x1x64 ![2] bcast_S64_S1x1x64_2 bc1))) (broadcastInDim S1024x1024x64 ![] bcast_S_S1024x1024x64 (constant S_ .f32 0x00000000#32))

/-- The second hidden layer: an affine map over the features, maximum with zero. -/
def hid2 (h1 : FVec Ideal S1024x1024x64 .f32) (Wc2 : FVec Ideal S64x64 .f32) (bc2 : FVec Ideal S64 .f32) : FVec Ideal S1024x1024x64 .f32 :=
  maximumf (addf (Host.dotGeneral dot_S1024x1024x64_S64x64_S1024x1024x64_2_0_01_1_n_n none h1 Wc2) (broadcastInDim S1024x1024x64 ![0, 1, 2] bcast_S1x1x64_S1024x1024x64_0_1_2 (broadcastInDim S1x1x64 ![2] bcast_S64_S1x1x64_2 bc2))) (broadcastInDim S1024x1024x64 ![] bcast_S_S1024x1024x64 (constant S_ .f32 0x00000000#32))

/-- The output layer: an affine map onto the classes, then one over one plus the exponential of the negation. -/
def outp (h2 : FVec Ideal S1024x1024x64 .f32) (Wc3 : FVec Ideal S64x4 .f32) (bc3 : FVec Ideal S4 .f32) : FVec Ideal S1024x1024x4 .f32 :=
  Host.divf (broadcastInDim S1024x1024x4 ![] bcast_S_S1024x1024x4 (constant S_ .f32 0x3F800000#32)) (addf (broadcastInDim S1024x1024x4 ![] bcast_S_S1024x1024x4 (constant S_ .f32 0x3F800000#32)) (Host.exp (Host.negf (addf (Host.dotGeneral dot_S1024x1024x64_S64x4_S1024x1024x4_2_0_01_1_n_n none h2 Wc3) (broadcastInDim S1024x1024x4 ![0, 1, 2] bcast_S1x1x4_S1024x1024x4_0_1_2 (broadcastInDim S1x1x4 ![2] bcast_S4_S1x1x4_2 bc3))))))

/-- The reference's decoder as a function of `mu` and the six classifier arrays. -/
def refDec (mu : FVec Ideal S1024x64 .f32) (Wc1 : FVec Ideal S4x64 .f32) (bc1 : FVec Ideal S64 .f32) (Wc2 : FVec Ideal S64x64 .f32)
    (bc2 : FVec Ideal S64 .f32) (Wc3 : FVec Ideal S64x4 .f32) (bc3 : FVec Ideal S4 .f32) : FVec Ideal S1024x1024x4 .f32 :=
  outp (hid2 (hid1 (score mu) Wc1 bc1) Wc2 bc2) Wc3 bc3

/-! ## Scalars -/

/-- One over one plus the exponential of the negation, with the word of the number one for both ones, is the logistic. -/
theorem sigmoid_spelt (x : EReal) :
    Ideal.div (Ideal.ofBits .f32 0x3F800000#32) (Ideal.ofBits .f32 0x3F800000#32 + Ideal.exp (-x)) = Ideal.logistic x := by
  rw [ofBits_f32_one, EReal.coe_one]
  rfl

/-! ## Broadcasts at an index -/

/-- A table over the pairs, given a unit third axis and then spread along 64 features, reads the pair's entry. -/
theorem pairBcast_apply {α : Type} (s : S1024x1024.Idx → α) (n m : Fin 1024) (h : Fin 64) :
    broadcastInDim S1024x1024x64 ![0, 1, 2] bcast_S1024x1024x1_S1024x1024x64_0_1_2 (broadcastInDim S1024x1024x1 ![0, 1] bcast_S1024x1024_S1024x1024x1_0_1 s) (ix3 n m h)
      = s (ix2 n m) := by
  rw [broadcastInDim_apply _ bcast_S1024x1024x1_S1024x1024x64_0_1_2 _ (ix3 n m h) (ix3 n m (0 : Fin 1)) (fun a => match a with
    | ⟨0, _⟩ => by show n.val = if (1024 : Nat) = 1 then 0 else n.val; rw [if_neg (by decide)]
    | ⟨1, _⟩ => by show m.val = if (1024 : Nat) = 1 then 0 else m.val; rw [if_neg (by decide)]
    | ⟨2, _⟩ => by show 0 = if (1 : Nat) = 1 then 0 else h.val; rw [if_pos rfl])]
  exact broadcastInDim_apply _ bcast_S1024x1024_S1024x1024x1_0_1 s (ix3 n m (0 : Fin 1)) (ix2 n m) (fun a => match a with
    | ⟨0, _⟩ => by show n.val = if (1024 : Nat) = 1 then 0 else n.val; rw [if_neg (by decide)]
    | ⟨1, _⟩ => by show m.val = if (1024 : Nat) = 1 then 0 else m.val; rw [if_neg (by decide)])

/-- A vector over the 64 features, given two unit leading axes and then spread over the pairs, reads the feature's entry. -/
theorem featBcast_apply {α : Type} (v : S64.Idx → α) (n m : Fin 1024) (h : Fin 64) :
    broadcastInDim S1024x1024x64 ![0, 1, 2] bcast_S1x1x64_S1024x1024x64_0_1_2 (broadcastInDim S1x1x64 ![2] bcast_S64_S1x1x64_2 v) (ix3 n m h)
      = v (ix1 h) := by
  rw [broadcastInDim_apply _ bcast_S1x1x64_S1024x1024x64_0_1_2 _ (ix3 n m h) (ix3 (0 : Fin 1) (0 : Fin 1) h) (fun a => match a with
    | ⟨0, _⟩ => by show 0 = if (1 : Nat) = 1 then 0 else n.val; rw [if_pos rfl]
    | ⟨1, _⟩ => by show 0 = if (1 : Nat) = 1 then 0 else m.val; rw [if_pos rfl]
    | ⟨2, _⟩ => by show h.val = if (64 : Nat) = 1 then 0 else h.val; rw [if_neg (by decide)])]
  exact broadcastInDim_apply _ bcast_S64_S1x1x64_2 v (ix3 (0 : Fin 1) (0 : Fin 1) h) (ix1 h) (fun a => match a with
    | ⟨0, _⟩ => by show h.val = if (64 : Nat) = 1 then 0 else h.val; rw [if_neg (by decide)])

/-- A vector over the 4 classes, given two unit leading axes and then spread over the pairs, reads the class's entry. -/
theorem classBcast_apply {α : Type} (v : S4.Idx → α) (n m : Fin 1024) (c : Fin 4) :
    broadcastInDim S1024x1024x4 ![0, 1, 2] bcast_S1x1x4_S1024x1024x4_0_1_2 (broadcastInDim S1x1x4 ![2] bcast_S4_S1x1x4_2 v) (ix3 n m c)
      = v (ix1 c) := by
  rw [broadcastInDim_apply _ bcast_S1x1x4_S1024x1024x4_0_1_2 _ (ix3 n m c) (ix3 (0 : Fin 1) (0 : Fin 1) c) (fun a => match a with
    | ⟨0, _⟩ => by show 0 = if (1 : Nat) = 1 then 0 else n.val; rw [if_pos rfl]
    | ⟨1, _⟩ => by show 0 = if (1 : Nat) = 1 then 0 else m.val; rw [if_pos rfl]
    | ⟨2, _⟩ => by show c.val = if (4 : Nat) = 1 then 0 else c.val; rw [if_neg (by decide)])]
  exact broadcastInDim_apply _ bcast_S4_S1x1x4_2 v (ix3 (0 : Fin 1) (0 : Fin 1) c) (ix1 c) (fun a => match a with
    | ⟨0, _⟩ => by show c.val = if (4 : Nat) = 1 then 0 else c.val; rw [if_neg (by decide)])

/-- The transpose of `mu` at (g, m) is `mu` at (m, g). -/
theorem muT_apply {α : Type} (mu : S1024x64.Idx → α) (g : Fin 64) (m : Fin 1024) :
    transpose S64x1024 [1, 0] mu transposes_S1024x64_S64x1024_1_0 (ix2 g m) = mu (ix2 m g) :=
  transpose_apply [1, 0] mu transposes_S1024x64_S64x1024_1_0 (ix2 g m) (ix2 m g) (fun b => match b with
    | ⟨0, _⟩ => rfl
    | ⟨1, _⟩ => rfl)

/-! ## The column sums of the first weight -/

/-- The sum over the four rows, from the zero word, is `Spec.wsum`. -/
theorem colSum_apply (Wc1 : FVec Ideal S4x64 .f32) (h : Fin 64) :
    Host.reduceAdd (F := Ideal) Wc1 (constant (F := Ideal) S_ .f32 0x00000000#32) reducesTo_S4x64_S64_d0 h_S_ (ix1 h)
      = 0 + ∑ r : Fin 4, Wc1 (ix2 r h) := by
  simp only [Host.reduceAdd, Ideal.hostReduceAdd_def]
  rw [Ideal.hostReduceAdd_single reducesTo_S4x64_S64_d0 (by decide)]
  refine congrArg₂ (· + ·) Ideal.ofBits_zero_f32 (Finset.sum_congr rfl fun r _ => ?_)
  exact congrArg Wc1 (funext fun a => Fin.ext (by match a with | ⟨0, _⟩ => rfl | ⟨1, _⟩ => rfl))

/-! ## The three products of arrays at an index -/

/-- The Gram product [1024,64] × [64,1024] at (n, m): the sum over the 64 features. -/
theorem gramDot_apply (l : FVec Ideal S1024x64 .f32) (r : FVec Ideal S64x1024 .f32) (n m : Fin 1024) :
    Host.dotGeneral (F := Ideal) dot_S1024x64_S64x1024_S1024x1024_1_0_0_1_n_n none l r (ix2 n m) = ∑ g : Fin 64, l (ix2 n g) * r (ix2 g m) := by
  simp only [Host.dotGeneral]
  rw [Ideal.dotGeneral_apply, ← Equiv.sum_comp (ValueIdx.contrEquiv1 dot_S1024x64_S64x1024_S1024x1024_1_0_0_1_n_n 64 rfl rfl).symm]
  refine Finset.sum_congr rfl fun g _ => ?_
  have hg := ValueIdx.contrEquiv1_symm_val dot_S1024x64_S64x1024_S1024x1024_1_0_0_1_n_n 64 rfl rfl g
  have el : dot_S1024x64_S64x1024_S1024x1024_1_0_0_1_n_n.lhsIdx (ix2 n m) ((ValueIdx.contrEquiv1 dot_S1024x64_S64x1024_S1024x1024_1_0_0_1_n_n 64 rfl rfl).symm g) = ix2 n g := funext fun a => Fin.ext (by
    match a with
    | ⟨0, _⟩ => exact lhs_main_v157_0 _ _
    | ⟨1, _⟩ => exact (lhs_main_v157_1 _ _).trans hg)
  have er : dot_S1024x64_S64x1024_S1024x1024_1_0_0_1_n_n.rhsIdx (ix2 n m) ((ValueIdx.contrEquiv1 dot_S1024x64_S64x1024_S1024x1024_1_0_0_1_n_n 64 rfl rfl).symm g) = ix2 g m := funext fun a => Fin.ext (by
    match a with
    | ⟨0, _⟩ => exact (rhs_main_v157_0 _ _).trans hg
    | ⟨1, _⟩ => exact rhs_main_v157_1 _ _)
  rw [el, er]

/-- The product [1024,1024,64] × [64,64] over the last axis at (n, m, k): the sum over the 64 features. -/
theorem featDot_apply (l : FVec Ideal S1024x1024x64 .f32) (r : FVec Ideal S64x64 .f32) (n m : Fin 1024) (k : Fin 64) :
    Host.dotGeneral (F := Ideal) dot_S1024x1024x64_S64x64_S1024x1024x64_2_0_01_1_n_n none l r (ix3 n m k) = ∑ h : Fin 64, l (ix3 n m h) * r (ix2 h k) := by
  simp only [Host.dotGeneral]
  rw [Ideal.dotGeneral_apply, ← Equiv.sum_comp (ValueIdx.contrEquiv1 dot_S1024x1024x64_S64x64_S1024x1024x64_2_0_01_1_n_n 64 rfl rfl).symm]
  refine Finset.sum_congr rfl fun h _ => ?_
  have hh := ValueIdx.contrEquiv1_symm_val dot_S1024x1024x64_S64x64_S1024x1024x64_2_0_01_1_n_n 64 rfl rfl h
  have el : dot_S1024x1024x64_S64x64_S1024x1024x64_2_0_01_1_n_n.lhsIdx (ix3 n m k) ((ValueIdx.contrEquiv1 dot_S1024x1024x64_S64x64_S1024x1024x64_2_0_01_1_n_n 64 rfl rfl).symm h) = ix3 n m h := funext fun a => Fin.ext (by
    match a with
    | ⟨0, _⟩ => exact lhs_main_v174_0 _ _
    | ⟨1, _⟩ => exact lhs_main_v174_1 _ _
    | ⟨2, _⟩ => exact (lhs_main_v174_2 _ _).trans hh)
  have er : dot_S1024x1024x64_S64x64_S1024x1024x64_2_0_01_1_n_n.rhsIdx (ix3 n m k) ((ValueIdx.contrEquiv1 dot_S1024x1024x64_S64x64_S1024x1024x64_2_0_01_1_n_n 64 rfl rfl).symm h) = ix2 h k := funext fun a => Fin.ext (by
    match a with
    | ⟨0, _⟩ => exact (rhs_main_v174_0 _ _).trans hh
    | ⟨1, _⟩ => exact rhs_main_v174_1 _ _)
  rw [el, er]

/-- The product [1024,1024,64] × [64,4] over the last axis at (n, m, c): the sum over the 64 features. -/
theorem classDot_apply (l : FVec Ideal S1024x1024x64 .f32) (r : FVec Ideal S64x4 .f32) (n m : Fin 1024) (c : Fin 4) :
    Host.dotGeneral (F := Ideal) dot_S1024x1024x64_S64x4_S1024x1024x4_2_0_01_1_n_n none l r (ix3 n m c) = ∑ k : Fin 64, l (ix3 n m k) * r (ix2 k c) := by
  simp only [Host.dotGeneral]
  rw [Ideal.dotGeneral_apply, ← Equiv.sum_comp (ValueIdx.contrEquiv1 dot_S1024x1024x64_S64x4_S1024x1024x4_2_0_01_1_n_n 64 rfl rfl).symm]
  refine Finset.sum_congr rfl fun k _ => ?_
  have hk := ValueIdx.contrEquiv1_symm_val dot_S1024x1024x64_S64x4_S1024x1024x4_2_0_01_1_n_n 64 rfl rfl k
  have el : dot_S1024x1024x64_S64x4_S1024x1024x4_2_0_01_1_n_n.lhsIdx (ix3 n m c) ((ValueIdx.contrEquiv1 dot_S1024x1024x64_S64x4_S1024x1024x4_2_0_01_1_n_n 64 rfl rfl).symm k) = ix3 n m k := funext fun a => Fin.ext (by
    match a with
    | ⟨0, _⟩ => exact lhs_main_v179_0 _ _
    | ⟨1, _⟩ => exact lhs_main_v179_1 _ _
    | ⟨2, _⟩ => exact (lhs_main_v179_2 _ _).trans hk)
  have er : dot_S1024x1024x64_S64x4_S1024x1024x4_2_0_01_1_n_n.rhsIdx (ix3 n m c) ((ValueIdx.contrEquiv1 dot_S1024x1024x64_S64x4_S1024x1024x4_2_0_01_1_n_n 64 rfl rfl).symm k) = ix2 k c := funext fun a => Fin.ext (by
    match a with
    | ⟨0, _⟩ => exact (rhs_main_v179_0 _ _).trans hk
    | ⟨1, _⟩ => exact rhs_main_v179_1 _ _)
  rw [el, er]

/-! ## The stages at an index -/

/-- The score of the pair (n, m): the logistic of the inner product of rows n and m. -/
theorem score_apply (mu : FVec Ideal S1024x64 .f32) (n m : Fin 1024) :
    score mu (ix2 n m) = Ideal.logistic (∑ g : Fin 64, mu (ix2 n g) * mu (ix2 m g)) := by
  have e : score mu (ix2 n m) = Ideal.div (Ideal.ofBits .f32 0x3F800000#32) (Ideal.ofBits .f32 0x3F800000#32
      + Ideal.exp (-(Host.dotGeneral (F := Ideal) dot_S1024x64_S64x1024_S1024x1024_1_0_0_1_n_n none mu (transpose S64x1024 [1, 0] mu transposes_S1024x64_S64x1024_1_0) (ix2 n m)))) := rfl
  rw [e, sigmoid_spelt, gramDot_apply]
  refine congrArg Ideal.logistic (Finset.sum_congr rfl fun g _ => ?_)
  rw [muT_apply]

/-- The first hidden layer at (n, m, h). -/
theorem hid1_apply (s : FVec Ideal S1024x1024 .f32) (Wc1 : FVec Ideal S4x64 .f32) (bc1 : FVec Ideal S64 .f32) (n m : Fin 1024) (h : Fin 64) :
    hid1 s Wc1 bc1 (ix3 n m h) = max (s (ix2 n m) * (0 + ∑ r : Fin 4, Wc1 (ix2 r h)) + bc1 (ix1 h)) 0 := by
  unfold hid1
  rw [maximumf_apply, addf_apply, mulf_apply, pairBcast_apply, featBcast_apply, featBcast_apply, colSum_apply]
  exact congrArg (max _) Ideal.ofBits_zero_f32

/-- The second hidden layer at (n, m, k). -/
theorem hid2_apply (h1 : FVec Ideal S1024x1024x64 .f32) (Wc2 : FVec Ideal S64x64 .f32) (bc2 : FVec Ideal S64 .f32) (n m : Fin 1024) (k : Fin 64) :
    hid2 h1 Wc2 bc2 (ix3 n m k) = max ((∑ h : Fin 64, h1 (ix3 n m h) * Wc2 (ix2 h k)) + bc2 (ix1 k)) 0 := by
  unfold hid2
  rw [maximumf_apply, addf_apply, featDot_apply, featBcast_apply]
  exact congrArg (max _) Ideal.ofBits_zero_f32

/-- The output layer at (n, m, c). -/
theorem outp_apply (h2 : FVec Ideal S1024x1024x64 .f32) (Wc3 : FVec Ideal S64x4 .f32) (bc3 : FVec Ideal S4 .f32) (n m : Fin 1024) (c : Fin 4) :
    outp h2 Wc3 bc3 (ix3 n m c) = Ideal.logistic ((∑ k : Fin 64, h2 (ix3 n m k) * Wc3 (ix2 k c)) + bc3 (ix1 c)) := by
  have e : outp h2 Wc3 bc3 (ix3 n m c) = Ideal.div (Ideal.ofBits .f32 0x3F800000#32) (Ideal.ofBits .f32 0x3F800000#32
      + Ideal.exp (-(Host.dotGeneral (F := Ideal) dot_S1024x1024x64_S64x4_S1024x1024x4_2_0_01_1_n_n none h2 Wc3 (ix3 n m c)
          + broadcastInDim S1024x1024x4 ![0, 1, 2] bcast_S1x1x4_S1024x1024x4_0_1_2 (broadcastInDim S1x1x4 ![2] bcast_S4_S1x1x4_2 bc3) (ix3 n m c)))) := rfl
  rw [e, sigmoid_spelt, classDot_apply, classBcast_apply]

/-! ## The decoder -/

/-- The reference's decoder is `Spec.dec` of the curried tables, pair by pair and class by class. -/
theorem refDec_eq (mu : FVec Ideal S1024x64 .f32) (Wc1 : FVec Ideal S4x64 .f32) (bc1 : FVec Ideal S64 .f32) (Wc2 : FVec Ideal S64x64 .f32)
    (bc2 : FVec Ideal S64 .f32) (Wc3 : FVec Ideal S64x4 .f32) (bc3 : FVec Ideal S4 .f32) :
    refDec mu Wc1 bc1 Wc2 bc2 Wc3 bc3
      = fun i => Spec.dec (Spec.cur2 mu) (Spec.wsum (Spec.cur2 Wc1)) (Spec.cur1 bc1) (Spec.cur2 Wc2) (Spec.cur1 bc2) (Spec.cur2 Wc3) (Spec.cur1 bc3) (i 0) (i 1) (i 2) := by
  funext i
  obtain ⟨n, m, c, rfl⟩ : ∃ (n m : Fin 1024) (c : Fin 4), i = ix3 n m c := ⟨i 0, i 1, i 2, eq_ix3 i⟩
  show refDec mu Wc1 bc1 Wc2 bc2 Wc3 bc3 (ix3 n m c)
    = Spec.dec (Spec.cur2 mu) (Spec.wsum (Spec.cur2 Wc1)) (Spec.cur1 bc1) (Spec.cur2 Wc2) (Spec.cur1 bc2) (Spec.cur2 Wc3) (Spec.cur1 bc3) n m c
  unfold refDec
  rw [outp_apply]
  simp only [hid2_apply, hid1_apply, score_apply]
  rfl

/-! ## The run's result is the decoder of the run's `mu` -/

variable (m : (ℓ : Loc nD τ sig) → Buf (Elt Ideal) ℓ) (c : Dev nD)

/-- The term the reference's run leaves in its first result is the decoder applied to the term it leaves in its second
    result (`mu`) and to the six classifier arguments. -/
theorem res_out0_term :
    res_out0 (F := Ideal) m c = refDec (res_out1 (F := Ideal) m c) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := by
  unfold res_out0 res_out1 res_main_v188 res_main_v103 refDec outp hid2 hid1 score
  rfl

end Cert.ReferenceIdeal.RefValue

end
-- ==== Proof.PreFacts.lean ====
/-
  The precondition, read back as facts about the inputs.

  The precondition of the certificate is a conjunction of fourteen tests, each a reduction by "and" of a table of
  truth values over a whole array. Thirteen of them test an array of extended reals entry by entry: is the absolute
  value of the entry below plus infinity? An extended real is one of the two infinities or a real number, and the
  absolute value (the larger of the entry and its negation) of either infinity is plus infinity; so the test holds
  exactly at the real numbers, and an array that passes has only real entries. The fourteenth tests an array of
  32-bit words entry by entry: is the word, read signed, at least 0 and below 1024? An array that passes names a
  node with every word.

  A conjunction of truth values is 1 exactly when both sides are; a reduction by "and" over all axes that is 1 met a 1
  at every index. So the precondition being 1 gives each test at each index, and with it the fact about that entry.
-/
import proofs.«418623_j62843961475769_1_alg».proof.Pre_finite_inputs
import proofs.«418623_j62843961475769_1_alg».proof.Proof.Gen.Pre_finite_inputs
import proofs.«418623_j62843961475769_1_alg».proof.Proof.Spec
import Idealize.ShloMosaic.Lib.ReduceAll
import Idealize.ShloMosaic.Lib.StableHlo.Predicate

noncomputable section

namespace Cert.PreFacts

open Idealize.ShloMosaic Idealize.ShloMosaic.ValueIdx
open Cert.Pre_finite_inputs

/-- The shape of a scalar has one index. -/
instance : Subsingleton S_.Idx := ⟨fun a b => funext fun d => d.elim0⟩

/-! ## One entry -/

/-- The word `0x7F800000` of the 32-bit format denotes plus infinity. -/
theorem ofBits_f32_inf : Ideal.ofBits .f32 0x7F800000#32 = (⊤ : EReal) := by
  simp [Ideal.ofBits, Ideal.ieee]

/-- An extended real whose absolute value is below plus infinity is a real number: the absolute value of either
    infinity is plus infinity. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-! ## One array -/

/-- The all-finite test of an array: when the reduction by "and" of the entrywise test "the absolute value is below
    plus infinity" is 1, every entry of the array is a real number. -/
theorem allReal_of_test {S : Shape} {axes : List (Fin S.rank)} (hb : S_.BroadcastsInDim S (![] : Fin 0 → Fin S.rank))
    (hr : S.ReducesTo axes S_) (hu : 0 < S_.numel) (a : FVec Ideal S .f32) (j : S_.Idx)
    (h : Host.reduce IntOp.andi
          (cmpf .olt (Host.absf a) (broadcastInDim S ![] hb (constant (F := Ideal) S_ .f32 0x7F800000#32)))
          (constantI S_ 1 1#1) hr hu j = 1#1) :
    Cert.Spec.AllReal a := by
  intro i
  -- the entrywise test at `i`
  have e := Host.reduce_andi_all _ _ hr hu j h i
  change Ideal.cmp .olt (max (a i) (-(a i))) (Ideal.ofBits .f32 0x7F800000#32) = 1#1 at e
  rw [ofBits_f32_inf] at e
  simp only [Ideal.cmp, StableHlo.Predicate.ofBool_eq_one_iff, decide_eq_true_eq] at e
  exact real_of_abs_lt_top (a i) e

/-- The range test of an array of words: when the reduction by "and" of the entrywise test "at least 0 and below
    1024, read signed" is 1, every word names a node. -/
theorem inRange_of_test (hb : S_.BroadcastsInDim S32768 (![] : Fin 0 → Fin S32768.rank))
    (hr : S32768.ReducesTo [0] S_) (hu : 0 < S_.numel) (a : IVec S32768 32) (j : S_.Idx)
    (h : Host.reduce IntOp.andi
          (andi (cmpi .sge a (broadcastInDim S32768 ![] hb (constantI S_ 32 0#32)))
                (cmpi .slt a (broadcastInDim S32768 ![] hb (constantI S_ 32 1024#32))))
          (constantI S_ 1 1#1) hr hu j = 1#1) :
    Cert.Spec.InRange a := by
  intro e
  have t := Host.reduce_andi_all _ _ hr hu j h (ix1 e)
  change IntOp.andi (IntOp.cmpi .sge (a (ix1 e)) 0#32) (IntOp.cmpi .slt (a (ix1 e)) 1024#32) = 1#1 at t
  obtain ⟨t0, t1⟩ := IntOp.andi_eq_one.1 t
  rw [IntOp.cmpi_sge, show (0#32 : BitVec 32).toInt = 0 from by decide] at t0
  rw [IntOp.cmpi_slt, show (1024#32 : BitVec 32).toInt = 1024 from by decide] at t1
  exact ⟨t0, t1⟩

/-! ## The precondition -/

/-- The precondition being 1 says: the thirteen arrays of extended reals have only real entries, and every source
    word names a node. -/
theorem facts [Cert.Pre_finite_inputs.Facts]
    (a0 : FVec Ideal S1024x256 .f32) (a1 : IVec S32768 32) (a2 : IVec S32768 32) (a3 : FVec Ideal S256x64 .f32)
    (a4 : FVec Ideal S64 .f32) (a5 : FVec Ideal S64x64 .f32) (a6 : FVec Ideal S64 .f32) (a7 : FVec Ideal S64x64 .f32)
    (a8 : FVec Ideal S64 .f32) (a9 : FVec Ideal S4x64 .f32) (a10 : FVec Ideal S64 .f32) (a11 : FVec Ideal S64x64 .f32)
    (a12 : FVec Ideal S64 .f32) (a13 : FVec Ideal S64x4 .f32) (a14 : FVec Ideal S4 .f32)
    (h : Cert.Pre_finite_inputs.fn (F := Ideal) a0 a1 a2 a3 a4 a5 a6 a7 a8 a9 a10 a11 a12 a13 a14 = fun _ => 1#1) :
    Cert.Spec.AllReal a0 ∧ Cert.Spec.AllReal a3 ∧ Cert.Spec.AllReal a4 ∧ Cert.Spec.AllReal a5 ∧ Cert.Spec.AllReal a6
      ∧ Cert.Spec.AllReal a7 ∧ Cert.Spec.AllReal a8 ∧ Cert.Spec.AllReal a9 ∧ Cert.Spec.AllReal a10
      ∧ Cert.Spec.AllReal a11 ∧ Cert.Spec.AllReal a12 ∧ Cert.Spec.AllReal a13 ∧ Cert.Spec.AllReal a14
      ∧ Cert.Spec.InRange a1 := by
  -- the one entry of the result
  have g := congrFun h ValueIdx.ix0
  dsimp only [Cert.Pre_finite_inputs.fn, fn_part1, fn_part2, fn_part3, fn_part4] at g
  -- the conjunction, taken apart from the outside in
  obtain ⟨g, t1⟩ := IntOp.andi_eq_one.1 g
  obtain ⟨g, t14⟩ := IntOp.andi_eq_one.1 g
  obtain ⟨g, t13⟩ := IntOp.andi_eq_one.1 g
  obtain ⟨g, t12⟩ := IntOp.andi_eq_one.1 g
  obtain ⟨g, t11⟩ := IntOp.andi_eq_one.1 g
  obtain ⟨g, t10⟩ := IntOp.andi_eq_one.1 g
  obtain ⟨g, t9⟩ := IntOp.andi_eq_one.1 g
  obtain ⟨g, t8⟩ := IntOp.andi_eq_one.1 g
  obtain ⟨g, t7⟩ := IntOp.andi_eq_one.1 g
  obtain ⟨g, t6⟩ := IntOp.andi_eq_one.1 g
  obtain ⟨g, t5⟩ := IntOp.andi_eq_one.1 g
  obtain ⟨g, t4⟩ := IntOp.andi_eq_one.1 g
  obtain ⟨t0, t3⟩ := IntOp.andi_eq_one.1 g
  exact ⟨allReal_of_test _ _ _ a0 _ t0, allReal_of_test _ _ _ a3 _ t3, allReal_of_test _ _ _ a4 _ t4,
    allReal_of_test _ _ _ a5 _ t5, allReal_of_test _ _ _ a6 _ t6, allReal_of_test _ _ _ a7 _ t7,
    allReal_of_test _ _ _ a8 _ t8, allReal_of_test _ _ _ a9 _ t9, allReal_of_test _ _ _ a10 _ t10,
    allReal_of_test _ _ _ a11 _ t11, allReal_of_test _ _ _ a12 _ t12, allReal_of_test _ _ _ a13 _ t13,
    allReal_of_test _ _ _ a14 _ t14, inRange_of_test _ _ _ a1 _ t1⟩

end Cert.PreFacts

end
-- ==== Proof.lean ====
/-
  The certificate's claims, assembled.

  The two kernel programs' frames are the run of their @main through its six items — three stretches of host
  operations, the encoder's region, one more stretch, the decoder's region — read at the argument arrays
  (proof/Proof/KI/Run.lean for the idealized program, its layout at the word-level instance under proof/Proof/KB/).
  The reference has no kernel: its frame is its run with the results dropped. The ideal pass rewrote nothing, so
  `preserves` has no conjunct.

  For `algebraic`: the kernel's run leaves the MATRIX-form two-layer graph-convolution encoder of its arguments — the
  rows of a dense normalised adjacency matrix times the features — and the pairwise decoder over it
  (proof/Proof/KVal/Main.lean); the reference's run leaves the MESSAGE-form encoder — every edge carries its source
  row, scaled, to its destination — and the same decoder over that (RefEnc.lean, RefDec.lean). Under the precondition
  every float input is a real number and every source word names a node, and then the two forms are one function
  (Spec.lean's `out_eq`: the product distributes over the finite sums); the decoders agree because their encoders do.
-/
import proofs.«418623_j62843961475769_1_alg».proof.Defs
import proofs.«418623_j62843961475769_1_alg».proof.Proof.Gen.Kernel
import proofs.«418623_j62843961475769_1_alg».proof.Proof.Gen.KernelIdeal
import proofs.«418623_j62843961475769_1_alg».proof.Proof.Gen.ReferenceIdeal
import proofs.«418623_j62843961475769_1_alg».proof.Proof.Gen.Pre_finite_inputs
import proofs.«418623_j62843961475769_1_alg».proof.Proof.Gen.ReferenceIdeal.Run
import proofs.«418623_j62843961475769_1_alg».proof.Proof.Gen.ReferenceIdeal.Read
import proofs.«418623_j62843961475769_1_alg».proof.Proof.KB.Run
import proofs.«418623_j62843961475769_1_alg».proof.Proof.KI.Run
import proofs.«418623_j62843961475769_1_alg».proof.Proof.KVal.Main
import proofs.«418623_j62843961475769_1_alg».proof.Proof.RefEnc
import proofs.«418623_j62843961475769_1_alg».proof.Proof.RefDec
import proofs.«418623_j62843961475769_1_alg».proof.Proof.PreFacts
import proofs.«418623_j62843961475769_1_alg».proof.Proof.Cur
import Idealize.ShloMosaic.Adequacy
import Idealize.ShloMosaic.Init

set_option maxRecDepth 16384

noncomputable section

open Idealize.ShloMosaic Idealize.ShloMosaic.TcCoe Idealize.ShloMosaic.ValueIdx Idealize.SL.Sem Cert.Spec

namespace Cert.Proof

/-! ## The frames and `preserves` -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-! ## The two programs' results are one function of the arguments -/

/-- An array of reals, read as a curried table, is a table of reals. -/
theorem real2_of_allReal {p q : Nat} {a : (⟨2, ![p, q]⟩ : Shape).Idx → EReal} (h : Cert.Spec.AllReal a) : Spec.Real2 (cur2 a) :=
  fun i k => h (ix2 i k)
theorem real1_of_allReal {q : Nat} {a : (⟨1, ![q]⟩ : Shape).Idx → EReal} (h : Cert.Spec.AllReal a) : Spec.Real1 (cur1 a) :=
  fun k => h (ix1 k)

section Bridge

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.KernelIdeal.HandVal in
/-- Under the precondition the matrix-form encoder of the kernel's arguments is the message-form one (for either
    second-layer weight and bias). -/
theorem enc_forms (hpre : Cert.Pre_KernelIdeal m) (W : Cert.KernelIdeal.S64x64.Idx → EReal) (b : Cert.KernelIdeal.S64.Idx → EReal)
    (hW : Cert.Spec.AllReal W) :
    Spec.outK (A1 m c) (A2 m c) (cur2 (A0 m c)) (cur2 (A3 m c)) (cur1 (A4 m c)) (cur2 W) (cur1 b)
      = Spec.outR (A1 m c) (A2 m c) (cur2 (A0 m c)) (cur2 (A3 m c)) (cur1 (A4 m c)) (cur2 W) (cur1 b) := by
  obtain ⟨r0, r3, r4, -, -, -, -, -, -, -, -, -, -, rs⟩ := Cert.PreFacts.facts _ _ _ _ _ _ _ _ _ _ _ _ _ _ _ (hpre c)
  exact Spec.out_eq _ _ _ _ _ _ _ rs (real2_of_allReal r0) (real2_of_allReal r3) (real1_of_allReal r4) (real2_of_allReal hW)

end Bridge

theorem algebraic : Cert.algebraic_KernelIdeal_ReferenceIdeal := by
  intro m ρ m' ρ' hpre hagree
  refine ⟨fun c => Cert.KernelIdeal.HandVal.kOut m c, fun c => Cert.KernelIdeal.HandVal.kMu m c, fun c => Cert.KernelIdeal.HandVal.kLv m c,
    Cert.KernelIdeal.HandVal.run_values m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · -- the decoder's result
    obtain ⟨h0, h1, h2, h3, h4, h5, h6, h7, h8, h9, h10, h11, h12, h13, h14⟩ := hagree c
    obtain ⟨-, -, -, r5, -, -, -, -, -, -, -, -, -, -⟩ := Cert.PreFacts.facts _ _ _ _ _ _ _ _ _ _ _ _ _ _ _ (hpre c)
    refine (Cert.ReferenceIdeal.RefValue.res_out0_term m' c).trans ?_
    rw [Cert.ReferenceIdeal.RefValue.refDec_eq, Cert.ReferenceIdeal.RefValue.res_out1_eq m' c, h0, h1, h2, h3, h4, h5, h6, h9, h10, h11, h12, h13, h14]
    funext i
    show Spec.dec _ _ _ _ _ _ _ (i 0) (i 1) (i 2) = Spec.dec _ _ _ _ _ _ _ (i 0) (i 1) (i 2)
    rw [enc_forms m c hpre _ _ r5]
    rfl
  · -- the encoder's first result
    obtain ⟨h0, h1, h2, h3, h4, h5, h6, -⟩ := hagree c
    obtain ⟨-, -, -, r5, -, -, -, -, -, -, -, -, -, -⟩ := Cert.PreFacts.facts _ _ _ _ _ _ _ _ _ _ _ _ _ _ _ (hpre c)
    refine (Cert.ReferenceIdeal.RefValue.res_out1_eq m' c).trans ?_
    rw [h0, h1, h2, h3, h4, h5, h6]
    funext i
    exact (congrFun (congrFun (enc_forms m c hpre _ _ r5) (i 0)) (i 1)).symm
  · -- the encoder's second result
    obtain ⟨h0, h1, h2, h3, h4, -, -, h7, h8, -⟩ := hagree c
    obtain ⟨-, -, -, -, -, r7, -, -, -, -, -, -, -, -⟩ := Cert.PreFacts.facts _ _ _ _ _ _ _ _ _ _ _ _ _ _ _ (hpre c)
    refine (Cert.ReferenceIdeal.RefValue.res_out2_eq m' c).trans ?_
    rw [h0, h1, h2, h3, h4, h7, h8]
    funext i
    exact (congrFun (congrFun (enc_forms m c hpre _ _ r7) (i 0)) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
